-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x32x64x64x64 : Shape := ⟨5, ![2, 32, 64, 64, 64]⟩
abbrev S_ : Shape := ⟨0, ![]⟩

class Facts : Prop where
  bcast_S_S2x32x64x64x64 : S_.BroadcastsInDim S2x32x64x64x64 (![] : Fin 0 → Fin S2x32x64x64x64.rank)
  reducesTo_S2x32x64x64x64_S_d0_1_2_3_4 : S2x32x64x64x64.ReducesTo [0, 1, 2, 3, 4] S_
  h_S_ : 0 < S_.numel

variable [Facts]

def fn {F : FTy → Type} [FloatOps F] (main_arg0 : FVec F S2x32x64x64x64 .f32) (main_arg1 : FVec F S2x32x64x64x64 .f32) : IVec S_ 1 :=
  let main_v0 : FVec F S2x32x64x64x64 .f32 := Host.absf main_arg0
  let main_cst : FVec F S_ .f32 := constant S_ .f32 0x7F800000#32
  let main_v1 : FVec F S2x32x64x64x64 .f32 := broadcastInDim S2x32x64x64x64 ![] bcast_S_S2x32x64x64x64 main_cst
  let main_v2 : IVec S2x32x64x64x64 1 := cmpf .olt main_v0 main_v1
  let main_c : IVec S_ 1 := constantI S_ 1 1#1
  let main_v3 : IVec S_ 1 := (fun x v => Host.reduce IntOp.andi x v reducesTo_S2x32x64x64x64_S_d0_1_2_3_4 h_S_) main_v2 main_c
  let main_v4 : FVec F S2x32x64x64x64 .f32 := Host.absf main_arg1
  let main_cst_0 : FVec F S_ .f32 := constant S_ .f32 0x7F800000#32
  let main_v5 : FVec F S2x32x64x64x64 .f32 := broadcastInDim S2x32x64x64x64 ![] bcast_S_S2x32x64x64x64 main_cst_0
  let main_v6 : IVec S2x32x64x64x64 1 := cmpf .olt main_v4 main_v5
  let main_c_1 : IVec S_ 1 := constantI S_ 1 1#1
  let main_v7 : IVec S_ 1 := (fun x v => Host.reduce IntOp.andi x v reducesTo_S2x32x64x64x64_S_d0_1_2_3_4 h_S_) main_v6 main_c_1
  let main_v8 : IVec S_ 1 := andi main_v3 main_v7
  main_v8
-- ==== Kernel.lean ====
abbrev S2x32x64x64x64 : Shape := ⟨5, ![2, 32, 64, 64, 64]⟩
abbrev S64x16 : Shape := ⟨2, ![64, 16]⟩
abbrev S2x32x16x16x16 : Shape := ⟨5, ![2, 32, 16, 16, 16]⟩
abbrev S1x32x4x64x64 : Shape := ⟨5, ![1, 32, 4, 64, 64]⟩
abbrev S1x32x1x16x16 : Shape := ⟨5, ![1, 32, 1, 16, 16]⟩
abbrev S32x4x64x64 : Shape := ⟨4, ![32, 4, 64, 64]⟩
abbrev S32x64x64 : Shape := ⟨3, ![32, 64, 64]⟩
abbrev S2048x64 : Shape := ⟨2, ![2048, 64]⟩
abbrev S2048x16 : Shape := ⟨2, ![2048, 16]⟩
abbrev S32x64x16 : Shape := ⟨3, ![32, 64, 16]⟩
abbrev S32x16x64 : Shape := ⟨3, ![32, 16, 64]⟩
abbrev S512x64 : Shape := ⟨2, ![512, 64]⟩
abbrev S512x16 : Shape := ⟨2, ![512, 16]⟩
abbrev S32x16x16 : Shape := ⟨3, ![32, 16, 16]⟩
abbrev S2x32x4096 : Shape := ⟨3, ![2, 32, 4096]⟩
abbrev S2x4096x32 : Shape := ⟨3, ![2, 4096, 32]⟩
abbrev S8192x32 : Shape := ⟨2, ![8192, 32]⟩
abbrev S_ : Shape := ⟨0, ![]⟩
abbrev S8192 : Shape := ⟨1, ![8192]⟩
abbrev S8192x1 : Shape := ⟨2, ![8192, 1]⟩
abbrev S8x1x128 : Shape := ⟨3, ![8, 1, 128]⟩
abbrev S1024x32 : Shape := ⟨2, ![1024, 32]⟩
abbrev S1x1x128 : Shape := ⟨3, ![1, 1, 128]⟩
abbrev S32x1024 : Shape := ⟨2, ![32, 1024]⟩
abbrev S1024x1024 : Shape := ⟨2, ![1024, 1024]⟩
abbrev S1x1024x1024 : Shape := ⟨3, ![1, 1024, 1024]⟩
abbrev S1 : Shape := ⟨1, ![1]⟩
abbrev S1x1x1 : Shape := ⟨3, ![1, 1, 1]⟩
abbrev S8x1x1 : Shape := ⟨3, ![8, 1, 1]⟩
abbrev S8 : Shape := ⟨1, ![8]⟩

abbrev nBuf : Space → Nat
  | .hbm => 38
  | .vmem => 20
  | .smem => 0
  | _ => 0

abbrev bufTy : (tb : Table) → Fin (tcTables nBuf tb) → BufTy
  | .hbm, ⟨0, _⟩ => ⟨S2x32x64x64x64, .f32⟩
  | .hbm, ⟨1, _⟩ => ⟨S2x32x64x64x64, .f32⟩
  | .hbm, ⟨2, _⟩ => ⟨S64x16, .f32⟩
  | .hbm, ⟨3, _⟩ => ⟨S2x32x16x16x16, .f32⟩
  | .hbm, ⟨4, _⟩ => ⟨S2x32x16x16x16, .f32⟩
  | .hbm, ⟨5, _⟩ => ⟨S2x32x4096, .f32⟩
  | .hbm, ⟨6, _⟩ => ⟨S2x4096x32, .f32⟩
  | .hbm, ⟨7, _⟩ => ⟨S8192x32, .f32⟩
  | .hbm, ⟨8, _⟩ => ⟨S2x32x4096, .f32⟩
  | .hbm, ⟨9, _⟩ => ⟨S2x4096x32, .f32⟩
  | .hbm, ⟨10, _⟩ => ⟨S8192x32, .f32⟩
  | .hbm, ⟨11, _⟩ => ⟨S8192x32, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S8192x1, .f32⟩
  | .hbm, ⟨16, _⟩ => ⟨S_, .f32⟩
  | .hbm, ⟨17, _⟩ => ⟨S8192x1, .f32⟩
  | .hbm, ⟨18, _⟩ => ⟨S8192x1, .f32⟩
  | .hbm, ⟨19, _⟩ => ⟨S8192x32, .f32⟩
  | .hbm, ⟨20, _⟩ => ⟨S8192x32, .f32⟩
  | .hbm, ⟨21, _⟩ => ⟨S8192x32, .f32⟩
  | .hbm, ⟨22, _⟩ => ⟨S_, .f32⟩
  | .hbm, ⟨23, _⟩ => ⟨S8192, .f32⟩
  | .hbm, ⟨24, _⟩ => ⟨S8192x1, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x32, .f32⟩
  | .hbm, ⟨30, _⟩ => ⟨S8192x32, .f32⟩
  | .hbm, ⟨31, _⟩ => ⟨S8x1x128, .f32⟩
  | .hbm, ⟨32, _⟩ => ⟨S8x1x1, .f32⟩
  | .hbm, ⟨33, _⟩ => ⟨S8, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .local _ .vmem, ⟨0, _⟩ => ⟨S1x32x4x64x64, .f32⟩
  | .local _ .vmem, ⟨1, _⟩ => ⟨S1x32x4x64x64, .f32⟩
  | .local _ .vmem, ⟨2, _⟩ => ⟨S1x32x4x64x64, .f32⟩
  | .local _ .vmem, ⟨3, _⟩ => ⟨S1x32x4x64x64, .f32⟩
  | .local _ .vmem, ⟨4, _⟩ => ⟨S64x16, .f32⟩
  | .local _ .vmem, ⟨5, _⟩ => ⟨S1x32x1x16x16, .f32⟩
  | .local _ .vmem, ⟨6, _⟩ => ⟨S1x32x1x16x16, .f32⟩
  | .local _ .vmem, ⟨7, _⟩ => ⟨S1x32x1x16x16, .f32⟩
  | .local _ .vmem, ⟨8, _⟩ => ⟨S1x32x1x16x16, .f32⟩
  | .local _ .vmem, ⟨9, _⟩ => ⟨S1024x32, .f32⟩
  | .local _ .vmem, ⟨10, _⟩ => ⟨S1024x32, .f32⟩
  | .local _ .vmem, ⟨11, _⟩ => ⟨S1024x32, .f32⟩
  | .local _ .vmem, ⟨12, _⟩ => ⟨S1024x32, .f32⟩
  | .local _ .vmem, ⟨13, _⟩ => ⟨S1024x32, .f32⟩
  | .local _ .vmem, ⟨14, _⟩ => ⟨S1024x32, .f32⟩
  | .local _ .vmem, ⟨15, _⟩ => ⟨S1024x32, .f32⟩
  | .local _ .vmem, ⟨16, _⟩ => ⟨S1024x32, .f32⟩
  | .local _ .vmem, ⟨17, _⟩ => ⟨S1x1x128, .f32⟩
  | .local _ .vmem, ⟨18, _⟩ => ⟨S1x1x128, .f32⟩
  | .local _ .vmem, ⟨19, _⟩ => ⟨S1x1x128, .f32⟩
  | _, _ => ⟨S2x32x64x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0_0 : Ref sig .tc := ⟨.hbm, 3, rfl⟩
abbrev main_v0_1 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_cst : Ref sig .tc := ⟨.hbm, 12, rfl⟩
abbrev main_call0_v1 : Ref sig .tc := ⟨.hbm, 13, rfl⟩
abbrev main_call0_v2 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_call1_v0 : Ref sig .tc := ⟨.hbm, 21, rfl⟩
abbrev main_call1_cst : Ref sig .tc := ⟨.hbm, 22, rfl⟩
abbrev main_call1_v1 : Ref sig .tc := ⟨.hbm, 23, rfl⟩
abbrev main_call1_v2 : Ref sig .tc := ⟨.hbm, 24, rfl⟩
abbrev main_v12 : Ref sig .tc := ⟨.hbm, 25, rfl⟩
abbrev main_cst_1 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_cst_3 : Ref sig .tc := ⟨.hbm, 36, rfl⟩
abbrev main_v21 : Ref sig .tc := ⟨.hbm, 37, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_stg4_0 : Ref sig .tc := ⟨.vmem, 17, rfl⟩
abbrev cc1_stg4_1 : Ref sig .tc := ⟨.vmem, 18, rfl⟩
abbrev cc1_scratch0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16
abbrev cc1_sem4_0 : DmaSem sig := 17
abbrev cc1_sem4_1 : DmaSem sig := 18

abbrev nD : Nat := 1
abbrev τ : Topo := Topo.v7x

variable {F : FTy → Type} [FloatOps F]

abbrev grid0 : Pipeline.Grid := ⟨2, ![2, 16], ![false, false]⟩

def cc0_transform_0 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_1 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

def cc0_transform_4 (i : grid0.Coords) : Fin 5 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, arg1.toNat, c0_i32_0.toNat, c0_i32_1.toNat]

abbrev stage0_0 : Fin 2 → Memref sig .tc .vmem S1x32x4x64x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x32x4x64x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S64x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x32x1x16x16 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x32x1x16x16 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev grid1 : Pipeline.Grid := ⟨2, ![8, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1024x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1024x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x32 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S1024x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![false, true]

abbrev stage1_4 : Fin 2 → Memref sig .tc .vmem S1x1x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  inb_S64x16_S64x16_0_0 : ∀ a, (![0, 0] : Fin 2 → Nat) a + S64x16.size a ≤ S64x16.size a
  h_S64x16 : 0 < S64x16.numel
  inb_S1x32x4x64x64_S1x32x4x64x64_0_0_0_0_0 : ∀ a, (![0, 0, 0, 0, 0] : Fin 5 → Nat) a + S1x32x4x64x64.size a ≤ S1x32x4x64x64.size a
  h_S1x32x4x64x64 : 0 < S1x32x4x64x64.numel
  shapeCasts_S1x32x4x64x64_S32x4x64x64 : S1x32x4x64x64.ShapeCasts S32x4x64x64
  reduces_S32x4x64x64_S32x64x64 : S32x4x64x64.Reduces [1] S32x64x64
  shapeCasts_S32x64x64_S2048x64 : S32x64x64.ShapeCasts S2048x64
  shapeCasts_S2048x16_S32x64x16 : S2048x16.ShapeCasts S32x64x16
  transposes_S32x64x16_p0_2_1_S32x16x64 : S32x64x16.Transposes [0, 2, 1] S32x16x64
  shapeCasts_S32x16x64_S512x64 : S32x16x64.ShapeCasts S512x64
  shapeCasts_S512x16_S32x16x16 : S512x16.ShapeCasts S32x16x16
  inb_S1x32x1x16x16_S1x32x1x16x16_0_0_0_0_0 : ∀ a, (![0, 0, 0, 0, 0] : Fin 5 → Nat) a + S1x32x1x16x16.size a ≤ S1x32x1x16x16.size a
  h_S1x32x1x16x16 : 0 < S1x32x1x16x16.numel
  shapeCasts_S1x32x1x16x16_S32x16x16 : S1x32x1x16x16.ShapeCasts S32x16x16
  shapeCasts_S32x16x16_S1x32x1x16x16 : S32x16x16.ShapeCasts S1x32x1x16x16
  shapeCasts_S2x32x16x16x16_S2x32x4096 : S2x32x16x16x16.ShapeCasts S2x32x4096
  transposes_S2x32x4096_S2x4096x32_0_2_1 : S2x32x4096.Transposes [0, 2, 1] S2x4096x32
  shapeCasts_S2x4096x32_S8192x32 : S2x4096x32.ShapeCasts S8192x32
  reducesTo_S8192x32_S8192_d1 : S8192x32.ReducesTo [1] S8192
  h_S_ : 0 < S_.numel
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x32_0_1 : S8192x1.BroadcastsInDim S8192x32 (![0, 1] : Fin 2 → Fin S8192x32.rank)
  inb_S1x1x128_S1x1x128_0_0_0 : ∀ a, (![0, 0, 0] : Fin 3 → Nat) a + S1x1x128.size a ≤ S1x1x128.size a
  h_S1x1x128 : 0 < S1x1x128.numel
  shapeCasts_S1x1x128_S1x1x128 : S1x1x128.ShapeCasts S1x1x128
  inb_S1024x32_S1024x32_0_0 : ∀ a, (![0, 0] : Fin 2 → Nat) a + S1024x32.size a ≤ S1024x32.size a
  h_S1024x32 : 0 < S1024x32.numel
  shapeCasts_S1024x32_S1024x32 : S1024x32.ShapeCasts S1024x32
  transposes_S1024x32_p1_0_S32x1024 : S1024x32.Transposes [1, 0] S32x1024
  shapeCasts_S1024x1024_S1x1024x1024 : S1024x1024.ShapeCasts S1x1024x1024
  reduces_S1x1024x1024_S1 : S1x1024x1024.Reduces [1, 2] S1
  shapeCasts_S1_S1x1x1 : S1.ShapeCasts S1x1x1
  inpos_S1x1x1_p0_0_0 : ∀ a, (![0, 0, 0] : Fin 3 → Nat) a < S1x1x1.size a
  slices_S8x1x128_S8x1x1_0_0_0 : S8x1x128.Slices ![0, 0, 0] S8x1x1
  shapeCasts_S8x1x1_S8 : S8x1x1.ShapeCasts S8
  reducesTo_S8_S_d0 : S8.ReducesTo [0] S_
  dot_S2048x64_S64x16_S2048x16_1_0_0_1_n_n_wf : DotDims.WF S2048x64 S64x16 S2048x16 [1] [0] [0] [1] [] []
  dot_S512x64_S64x16_S512x16_1_0_0_1_n_n_wf : DotDims.WF S512x64 S64x16 S512x16 [1] [0] [0] [1] [] []
  dot_S1024x32_S32x1024_S1024x1024_1_0_0_1_n_n_wf : DotDims.WF S1024x32 S32x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x32x4x64x64.size a ≤ S2x32x64x64x64.size a
  hwx0_0 : ∀ i : grid0.Coords, EltTy.bits .f32 = 32 ∨ (Rect.block (s := S2x32x64x64x64) S1x32x4x64x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x32x4x64x64.size a ≤ S2x32x64x64x64.size a
  hwx0_1 : ∀ i : grid0.Coords, EltTy.bits .f32 = 32 ∨ (Rect.block (s := S2x32x64x64x64) S1x32x4x64x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x16.size a ≤ S64x16.size a
  hwx0_2 : ∀ i : grid0.Coords, EltTy.bits .f32 = 32 ∨ (Rect.block (s := S64x16) S64x16.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x32x1x16x16.size a ≤ S2x32x16x16x16.size a
  hwx0_3 : ∀ i : grid0.Coords, EltTy.bits .f32 = 32 ∨ (Rect.block (s := S2x32x16x16x16) S1x32x1x16x16.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x32x1x16x16.size a ≤ S2x32x16x16x16.size a
  hwx0_4 : ∀ i : grid0.Coords, EltTy.bits .f32 = 32 ∨ (Rect.block (s := S2x32x16x16x16) S1x32x1x16x16.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1024x32.size a ≤ S8192x32.size a
  hwx1_0 : ∀ i : grid1.Coords, EltTy.bits .f32 = 32 ∨ (Rect.block (s := S8192x32) S1024x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1024x32.size a ≤ S8192x32.size a
  hwx1_1 : ∀ i : grid1.Coords, EltTy.bits .f32 = 32 ∨ (Rect.block (s := S8192x32) S1024x32.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1024x32.size a ≤ S8192x32.size a
  hwx1_2 : ∀ i : grid1.Coords, EltTy.bits .f32 = 32 ∨ (Rect.block (s := S8192x32) S1024x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1024x32.size a ≤ S8192x32.size a
  hwx1_3 : ∀ i : grid1.Coords, EltTy.bits .f32 = 32 ∨ (Rect.block (s := S8192x32) S1024x32.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x128.size a ≤ S8x1x128.size a
  hwx1_4 : ∀ i : grid1.Coords, EltTy.bits .f32 = 32 ∨ (Rect.block (s := S8x1x128) S1x1x128.size (cc1_transform_4 i) (hinb1_4 i)).WholeWords (EltTy.packing .f32)

variable [Facts₀]

def dot_S2048x64_S64x16_S2048x16_1_0_0_1_n_n : DotDims S2048x64 S64x16 S2048x16 where
  lhsContracting := [1]
  rhsContracting := [0]
  lhsNonContracting := [0]
  rhsNonContracting := [1]
  lhsBatch := []
  rhsBatch := []
  wf := dot_S2048x64_S64x16_S2048x16_1_0_0_1_n_n_wf
def dot_S512x64_S64x16_S512x16_1_0_0_1_n_n : DotDims S512x64 S64x16 S512x16 where
  lhsContracting := [1]
  rhsContracting := [0]
  lhsNonContracting := [0]
  rhsNonContracting := [1]
  lhsBatch := []
  rhsBatch := []
  wf := dot_S512x64_S64x16_S512x16_1_0_0_1_n_n_wf
def dot_S1024x32_S32x1024_S1024x1024_1_0_0_1_n_n : DotDims S1024x32 S32x1024 S1024x1024 where
  lhsContracting := [1]
  rhsContracting := [0]
  lhsNonContracting := [0]
  rhsNonContracting := [1]
  lhsBatch := []
  rhsBatch := []
  wf := dot_S1024x32_S32x1024_S1024x1024_1_0_0_1_n_n_wf

abbrev win0_0 : Pipeline.Window sig grid0 :=
  Pipeline.Window.ofSpec (Memref.whole main_arg0) S1x32x4x64x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x32x4x64x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_cst) S64x16.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0_0) S1x32x1x16x16.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_1) S1x32x1x16x16.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v11) S1024x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v11) S1024x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1024x32.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v16) S1024x32.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x1x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S2x32x64x64x64 : Shape := ⟨5, ![2, 32, 64, 64, 64]⟩
abbrev S2x32x16x4x16x4x16x4 : Shape := ⟨8, ![2, 32, 16, 4, 16, 4, 16, 4]⟩
abbrev S_ : Shape := ⟨0, ![]⟩
abbrev S2x32x16x16x16 : Shape := ⟨5, ![2, 32, 16, 16, 16]⟩
abbrev S2x32x4096 : Shape := ⟨3, ![2, 32, 4096]⟩
abbrev S2x4096x32 : Shape := ⟨3, ![2, 4096, 32]⟩
abbrev S8192x32 : Shape := ⟨2, ![8192, 32]⟩
abbrev S8192 : Shape := ⟨1, ![8192]⟩
abbrev S8192x1 : Shape := ⟨2, ![8192, 1]⟩
abbrev S32x8192 : Shape := ⟨2, ![32, 8192]⟩
abbrev S8192x8192 : Shape := ⟨2, ![8192, 8192]⟩

abbrev nBuf : Space → Nat
  | .hbm => 50
  | .vmem => 0
  | .smem => 0
  | _ => 0

abbrev bufTy : (tb : Table) → Fin (tcTables nBuf tb) → BufTy
  | .hbm, ⟨0, _⟩ => ⟨S2x32x64x64x64, .f32⟩
  | .hbm, ⟨1, _⟩ => ⟨S2x32x64x64x64, .f32⟩
  | .hbm, ⟨2, _⟩ => ⟨S2x32x16x4x16x4x16x4, .f32⟩
  | .hbm, ⟨3, _⟩ => ⟨S_, .f32⟩
  | .hbm, ⟨4, _⟩ => ⟨S2x32x16x16x16, .f32⟩
  | .hbm, ⟨5, _⟩ => ⟨S_, .f32⟩
  | .hbm, ⟨6, _⟩ => ⟨S2x32x16x16x16, .f32⟩
  | .hbm, ⟨7, _⟩ => ⟨S2x32x16x16x16, .f32⟩
  | .hbm, ⟨8, _⟩ => ⟨S2x32x4096, .f32⟩
  | .hbm, ⟨9, _⟩ => ⟨S2x4096x32, .f32⟩
  | .hbm, ⟨10, _⟩ => ⟨S8192x32, .f32⟩
  | .hbm, ⟨11, _⟩ => ⟨S2x32x16x4x16x4x16x4, .f32⟩
  | .hbm, ⟨12, _⟩ => ⟨S_, .f32⟩
  | .hbm, ⟨13, _⟩ => ⟨S2x32x16x16x16, .f32⟩
  | .hbm, ⟨14, _⟩ => ⟨S_, .f32⟩
  | .hbm, ⟨15, _⟩ => ⟨S2x32x16x16x16, .f32⟩
  | .hbm, ⟨16, _⟩ => ⟨S2x32x16x16x16, .f32⟩
  | .hbm, ⟨17, _⟩ => ⟨S2x32x4096, .f32⟩
  | .hbm, ⟨18, _⟩ => ⟨S2x4096x32, .f32⟩
  | .hbm, ⟨19, _⟩ => ⟨S8192x32, .f32⟩
  | .hbm, ⟨20, _⟩ => ⟨S8192x32, .f32⟩
  | .hbm, ⟨21, _⟩ => ⟨S_, .f32⟩
  | .hbm, ⟨22, _⟩ => ⟨S8192, .f32⟩
  | .hbm, ⟨23, _⟩ => ⟨S8192x1, .f32⟩
  | .hbm, ⟨24, _⟩ => ⟨S8192x1, .f32⟩
  | .hbm, ⟨25, _⟩ => ⟨S_, .f32⟩
  | .hbm, ⟨26, _⟩ => ⟨S8192x1, .f32⟩
  | .hbm, ⟨27, _⟩ => ⟨S8192x1, .f32⟩
  | .hbm, ⟨28, _⟩ => ⟨S8192x32, .f32⟩
  | .hbm, ⟨29, _⟩ => ⟨S8192x32, .f32⟩
  | .hbm, ⟨30, _⟩ => ⟨S32x8192, .f32⟩
  | .hbm, ⟨31, _⟩ => ⟨S8192x8192, .f32⟩
  | .hbm, ⟨32, _⟩ => ⟨S8192x32, .f32⟩
  | .hbm, ⟨33, _⟩ => ⟨S_, .f32⟩
  | .hbm, ⟨34, _⟩ => ⟨S8192, .f32⟩
  | .hbm, ⟨35, _⟩ => ⟨S8192x1, .f32⟩
  | .hbm, ⟨36, _⟩ => ⟨S8192x1, .f32⟩
  | .hbm, ⟨37, _⟩ => ⟨S_, .f32⟩
  | .hbm, ⟨38, _⟩ => ⟨S8192x1, .f32⟩
  | .hbm, ⟨39, _⟩ => ⟨S8192x1, .f32⟩
  | .hbm, ⟨40, _⟩ => ⟨S8192x32, .f32⟩
  | .hbm, ⟨41, _⟩ => ⟨S8192x32, .f32⟩
  | .hbm, ⟨42, _⟩ => ⟨S32x8192, .f32⟩
  | .hbm, ⟨43, _⟩ => ⟨S8192x8192, .f32⟩
  | .hbm, ⟨44, _⟩ => ⟨S8192x8192, .f32⟩
  | .hbm, ⟨45, _⟩ => ⟨S8192x8192, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | _, _ => ⟨S2x32x64x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_cst_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_v0 : Ref sig .tc := ⟨.hbm, 20, rfl⟩
abbrev main_call0_cst : Ref sig .tc := ⟨.hbm, 21, rfl⟩
abbrev main_call0_v1 : Ref sig .tc := ⟨.hbm, 22, rfl⟩
abbrev main_call0_v2 : Ref sig .tc := ⟨.hbm, 23, rfl⟩
abbrev main_v14 : Ref sig .tc := ⟨.hbm, 24, rfl⟩
abbrev main_cst_3 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_call1_v0 : Ref sig .tc := ⟨.hbm, 32, rfl⟩
abbrev main_call1_cst : Ref sig .tc := ⟨.hbm, 33, rfl⟩
abbrev main_call1_v1 : Ref sig .tc := ⟨.hbm, 34, rfl⟩
abbrev main_call1_v2 : Ref sig .tc := ⟨.hbm, 35, rfl⟩
abbrev main_v21 : Ref sig .tc := ⟨.hbm, 36, rfl⟩
abbrev main_cst_4 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_cst_6 : Ref sig .tc := ⟨.hbm, 48, rfl⟩
abbrev main_v31 : Ref sig .tc := ⟨.hbm, 49, rfl⟩

abbrev nD : Nat := 1
abbrev τ : Topo := Topo.v7x

variable {F : FTy → Type} [FloatOps F]

class Facts₀ : Prop where
  shapeCasts_S2x32x64x64x64_S2x32x16x4x16x4x16x4 : S2x32x64x64x64.ShapeCasts S2x32x16x4x16x4x16x4
  reducesTo_S2x32x16x4x16x4x16x4_S2x32x16x16x16_d3_5_7 : S2x32x16x4x16x4x16x4.ReducesTo [3, 5, 7] S2x32x16x16x16
  h_S_ : 0 < S_.numel
  bcast_S_S2x32x16x16x16 : S_.BroadcastsInDim S2x32x16x16x16 (![] : Fin 0 → Fin S2x32x16x16x16.rank)
  shapeCasts_S2x32x16x16x16_S2x32x4096 : S2x32x16x16x16.ShapeCasts S2x32x4096
  transposes_S2x32x4096_S2x4096x32_0_2_1 : S2x32x4096.Transposes [0, 2, 1] S2x4096x32
  shapeCasts_S2x4096x32_S8192x32 : S2x4096x32.ShapeCasts S8192x32
  reducesTo_S8192x32_S8192_d1 : S8192x32.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  bcast_S8192x1_S8192x32_0_1 : S8192x1.BroadcastsInDim S8192x32 (![0, 1] : Fin 2 → Fin S8192x32.rank)
  transposes_S8192x32_S32x8192_1_0 : S8192x32.Transposes [1, 0] S32x8192
  reducesTo_S8192x8192_S_d0_1 : S8192x8192.ReducesTo [0, 1] S_
  dot_S8192x32_S32x8192_S8192x8192_1_0_0_1_n_n_wf : DotDims.WF S8192x32 S32x8192 S8192x8192 [1] [0] [0] [1] [] []

variable [Facts₀]

def dot_S8192x32_S32x8192_S8192x8192_1_0_0_1_n_n : DotDims S8192x32 S32x8192 S8192x8192 where
  lhsContracting := [1]
  rhsContracting := [0]
  lhsNonContracting := [0]
  rhsNonContracting := [1]
  lhsBatch := []
  rhsBatch := []
  wf := dot_S8192x32_S32x8192_S8192x8192_1_0_0_1_n_n_wf

class Facts : Prop extends Facts₀ where

variable [Facts]
-- ==== Proof.Dat0.lean ====
/- The pooling region's proof data. At grid point (b, d) the kernel reads the depth slab
   x[b, :, 4d .. 4d+3, :, :] of each input and the 64 x 16 averaging matrix, and leaves in each
   output window's buffer the slab's pooled block: the mean over the four depth slices, then the
   lane axis contracted against the averaging matrix, the two trailing axes swapped, and the lane
   axis contracted again. What the body leaves is stated as that payload of the input blocks. -/
import proofs.«166016_j61263413510182_1_alg».proof.Proof.Gen.KernelIdeal.Launch
import proofs.«166016_j61263413510182_1_alg».proof.Proof.Gen.KernelIdeal.Skeleton
import proofs.«166016_j61263413510182_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The pooled block of the first input's slab. -/
def pool0_3 (c : Dev nD) (t : Fin cfg0.N) : Vec F S1x32x1x16x16 .f32 :=
  k0_pay2 (iblk0 V c 2 t) (iblk0 V c 0 t)

/-- The pooled block of the second input's slab. -/
def pool0_4 (c : Dev nD) (t : Fin cfg0.N) : Vec F S1x32x1x16x16 .f32 :=
  k0_pay1 (k0_pay3 (iblk0 V c 2 t) (iblk0 V c 1 t))

/-- The proof data of the pooling region on core `c`: the arrays as the region finds them; after the body
    each input window's buffer at its block and each output window's at the pooled block; the scoped rest and
    the generator register ride along; nothing is owed; every array is held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => pool0_3 V c t
    | ⟨4, _⟩ => pool0_4 V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = pool0_3 V c t := by dsimp only [dat0]
theorem after0_4 (c : Dev nD) (t : Fin cfg0.N) : (dat0 V c).after 4 t = pool0_4 V c t := by dsimp only [dat0]

end Region0

end Cert.KernelIdeal.Hand

end
-- ==== Proof.Dat1.lean ====
/- The pairwise-difference region's proof data. The grid is 8 x 8 tiles of 1024 rows; at point
   (i, j) the kernel reads row tile i and row tile j of each normalised matrix, forms the two
   1024 x 1024 products of rows, and adds the sum of the squared differences to an accumulator
   that it resets when j = 0; the accumulator is copied to the output block of row tile i at every
   point, and that block is written back when j = 7. The accumulator lives in a scratch buffer
   across points, so the invariant between points says what it holds. -/
import proofs.«166016_j61263413510182_1_alg».proof.Proof.Gen.KernelIdeal.Launch
import proofs.«166016_j61263413510182_1_alg».proof.Proof.Gen.KernelIdeal.Skeleton
import proofs.«166016_j61263413510182_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One point's step of the accumulator: the tile's sum of squared differences added to `prev`, on all 128 lanes. -/
def step1 (c : Dev nD) (t : Fin cfg1.N) (prev : Vec F S1x1x128 .f32) : Vec F S1x1x128 .f32 :=
  k1_pay2 (iblk1 V c 0 t) (iblk1 V c 1 t) (iblk1 V c 2 t) (iblk1 V c 3 t) prev

/-- The accumulator after the body at point `n`: started from zero at the first column tile of a row tile,
    else continued from what the point before left. -/
def acc1 (c : Dev nD) : (n : ℕ) → n < cfg1.N → Vec F S1x1x128 .f32
  | 0, hn => step1 V c ⟨0, hn⟩ (k1_pay1 (F := F))
  | n + 1, hn => step1 V c ⟨n + 1, hn⟩ (if (n + 1) % 8 = 0 then k1_pay1 (F := F) else acc1 c n (Nat.lt_of_succ_lt hn))

theorem acc1_reset (c : Dev nD) (t : Fin cfg1.N) (h : t.val % 8 = 0) :
    acc1 V c t.val t.isLt = step1 V c t (k1_pay1 (F := F)) := by
  obtain ⟨n, hn⟩ := t
  cases n with
  | zero => rfl
  | succ n => show step1 V c ⟨n + 1, hn⟩ (if (n + 1) % 8 = 0 then _ else _) = _; rw [if_pos h]

theorem acc1_cont (c : Dev nD) (n : ℕ) (hn : n + 1 < cfg1.N) (h : (n + 1) % 8 ≠ 0) :
    acc1 V c (n + 1) hn = step1 V c ⟨n + 1, hn⟩ (acc1 V c n (Nat.lt_of_succ_lt hn)) := by
  show step1 V c ⟨n + 1, hn⟩ (if (n + 1) % 8 = 0 then _ else _) = _; rw [if_neg h]

/-- The accumulator's scratch buffer, whole. -/
abbrev scr1 : Memref sig .tc .vmem S1x1x128 .f32 := Memref.whole cc1_scratch0

/-- The core's scoped buffers that are neither a staging buffer of this region nor its scratch, each whole at some contents. -/
def idle1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- The invariant before point `t`: the idle scoped buffers and the generator register ride along, and the
    scratch holds some contents which, unless the point is the first column tile of a row tile (where the
    body resets it), are what the point before left. -/
def Φ1 (c : Dev nD) (t : Fin (cfg1.N + 1)) : sProp 𝕄 :=
  iprop(idle1 (F := F) c
    ∗ (∃ X : Vec F S1x1x128 .f32, owns (c : Thread nD τ) scr1 fullShare X
        ∗ ⌜∀ (n : ℕ) (hn : n < cfg1.N), t.val = n + 1 → (n + 1) % 8 ≠ 0 → X = acc1 V c n hn⌝)
    ∗ ∃ r, prngReg c r)

/-- The proof data of the region on core `c`: the arrays as the region finds them; after the body each input
    window's buffer at its block and the output window's at the accumulator; the invariant `Φ1`; each of the two
    normalised matrices, read through two windows, held half by each; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => acc1 V c t.val t.isLt
  Φ t := Φ1 V c t
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = acc1 V c t.val t.isLt := by dsimp only [dat1]
theorem Φ_eq1 (c : Dev nD) (t : Fin (cfg1.N + 1)) : (dat1 V c).Φ t = Φ1 V c t := by dsimp only [dat1]

end Region1

end Cert.KernelIdeal.Hand

end
-- ==== Proof.Fold.lean ====
/- The contents of the core's buffers at each boundary between the items of the program: the launch
   memory, then each host stretch applied, and after each kernel region its arrays at what the
   region's write-backs leave. The program's result and its argument arrays are read off the last
   of these. -/
import proofs.«166016_j61263413510182_1_alg».proof.Proof.Dat0
import proofs.«166016_j61263413510182_1_alg».proof.Proof.Dat1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the averaging matrix's constant (the pooling region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the pooling region's exit: its arrays at what the pipeline leaves, every other buffer as entered. -/
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
/-- After the rows are laid out, -/
abbrev W3 : Dev nD → Valuation τ sig (Elt F) := fun c => StableHlo.after hostOps1 (W2 m ρ c)
/-- the first matrix's row norms taken, -/
abbrev W4 : Dev nD → Valuation τ sig (Elt F) := fun c => StableHlo.after hostOps1_1 (W3 m ρ c)
/-- its rows normalised, -/
abbrev W5 : Dev nD → Valuation τ sig (Elt F) := fun c => StableHlo.after hostOps1_2 (W4 m ρ c)
/-- the second matrix's row norms taken, -/
abbrev W6 : Dev nD → Valuation τ sig (Elt F) := fun c => StableHlo.after hostOps1_3 (W5 m ρ c)
/-- and its rows normalised (the pairwise-difference region's entry). -/
abbrev W7 : Dev nD → Valuation τ sig (Elt F) := fun c => StableHlo.after hostOps1_4 (W6 m ρ c)
abbrev V7 : (c : Dev nD) → (b : Ref sig .tc) → Buf (Elt F) ((c : Thread nD τ).loc b) := fun c b => W7 m ρ c b
/-- At the pairwise-difference region's exit: its one output array at what the write-backs leave, every other
    buffer (its four input windows' two arrays among them) as entered. -/
def W8 (c : Dev nD) : Valuation τ sig (Elt F) :=
  Function.update (W7 m ρ c) (Proc.devRef .tc main_v17) ((dat1 (V7 m ρ) c).arrAt 4 cfg1.N)
abbrev V8 : (c : Dev nD) → (b : Ref sig .tc) → Buf (Elt F) ((c : Thread nD τ).loc b) := fun c b => W8 m ρ c b
/-- After the partial sums are added up and divided (the return). -/
abbrev W9 : Dev nD → Valuation τ sig (Elt F) := fun c => StableHlo.after hostOps2 (W8 m ρ c)

/-- No pipeline has a prefetched table. -/
abbrev adm : (p : Fin 2) → (pcfgs (F := F) p).Adm := fun p => (cfgs p).toPCfg_adm

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V7 m ρ) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
/-- A host stretch as an item of the run: over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped buffer of the core is among those the run's thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.KernelIdeal.Hand

end
-- ==== Proof.Body0.lean ====
/- The pooling kernel's body meets its proof data at every grid point. -/
import proofs.«166016_j61263413510182_1_alg».proof.Proof.Dat0
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the input windows' buffers hold when the body is called

Each input window is whole (never cut) and live at every point, and the body leaves its block in place. A window
fetched at a point holds the block fetched there; one not fetched there has not moved since the point before, whose
block is then this point's. The averaging matrix is fetched once, at the first point, and its block index is
constant, so the second case covers every later point. -/

/-- The first volume's depth slab is in its buffer at every point. -/
theorem pool_slab0_held (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The second volume's depth slab is in its buffer at every point. -/
theorem pool_slab1_held (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The averaging matrix is in its buffer at every point, though only the first point fetches it. -/
theorem pool_avg_held (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The body on whole buffers

Every access of the body is through the rectangle that starts at the origin and has the buffer's own extents: a load
through it reads the whole contents, and the one store into each output buffer overwrites all of it, so what the
buffer held before (and what the dead load of it read) does not matter. -/

/-- The origin of a rank-two buffer. -/
theorem pool_origin2 : (![0, 0] : Fin 2 → Nat) = fun _ => 0 := funext fun a => by fin_cases a <;> rfl
/-- The origin of a rank-five buffer. -/
theorem pool_origin5 : (![0, 0, 0, 0, 0] : Fin 5 → Nat) = fun _ => 0 := funext fun a => by fin_cases a <;> rfl

/-- A store of a whole pooled block covers the output buffer. -/
theorem pool_store_covers (w : Vec F S1x32x1x16x16 .f32) (y : S1x32x1x16x16.Idx) :
    ∃ pc ∈ ([⟨Rect.unit (s := S1x32x1x16x16) ![0, 0, 0, 0, 0] S1x32x1x16x16.size inb_S1x32x1x16x16_S1x32x1x16x16_0_0_0_0_0, w⟩] :
        List (View.Piece (Elt F) S1x32x1x16x16 .f32)), y ∈ pc.1.set :=
  ⟨_, List.mem_singleton_self _,
    View.mem_set_unit_zero (S := S1x32x1x16x16) pool_origin5 inb_S1x32x1x16x16_S1x32x1x16x16_0_0_0_0_0 y⟩

set_option maxHeartbeats 1000000 in
/-- The pooling body on whole buffers: with the two slabs `x0`, `x1` and the averaging matrix `a` in the input
    buffers and anything in the output buffers, it returns with the inputs as they were, the first output buffer at the
    pooled block of `x0` and the second at the pooled block of `x1`. The first block is computed and stored inside the
    body's first part, which also computes the second block and hands it back to be stored after it. -/
theorem pool_kernel_run (c : Dev nD) (E : Set ℕ) (i : grid0.Coords)
    (arg2 : Memref sig .tc .vmem S1x32x4x64x64 .f32) (harg2 : arg2.IsWhole)
    (arg3 : Memref sig .tc .vmem S1x32x4x64x64 .f32) (harg3 : arg3.IsWhole)
    (arg4 : Memref sig .tc .vmem S64x16 .f32) (harg4 : arg4.IsWhole)
    (arg5 : Memref sig .tc .vmem S1x32x1x16x16 .f32) (harg5 : arg5.IsWhole)
    (arg6 : Memref sig .tc .vmem S1x32x1x16x16 .f32) (harg6 : arg6.IsWhole)
    (x0 x1 : Vec F S1x32x4x64x64 .f32) (a : Vec F S64x16 .f32) (K : PUnit → sProp 𝕄) :
    iprop(owns (c : Thread nD τ) arg2 fullShare x0 ∗ owns (c : Thread nD τ) arg3 fullShare x1
        ∗ owns (c : Thread nD τ) arg4 fullShare a
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare a
            ∗ owns (c : Thread nD τ) arg5 fullShare (k0_pay2 a x0)
            ∗ owns (c : Thread nD τ) arg6 fullShare (k0_pay1 (k0_pay3 a x1))) -∗ K ⟨⟩))
      ⊢ wp frame (wpE (defs₀ (F := F)) Variants.none c none) E
          (cc0__pool_kernel i arg2 harg2 arg3 harg3 arg4 harg4 arg5 harg5 arg6 harg6) K := by
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_unfold [cc0__pool_kernel]
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (pool_store_covers _), View.canon_unit_zero pool_origin5]
    simp only [View.readAt_eq_ld, View.ld_unit_zero (S := S64x16) pool_origin2,
      View.ld_unit_zero (S := S1x32x4x64x64) pool_origin5]
  iexists _; isplitr
  swap; · iexact H4
  ipureintro
  rw [View.read_writes_eq_canon _ _ _ (pool_store_covers _), View.canon_unit_zero pool_origin5]
  sl_unfold_words
  simp only [View.readAt_eq_ld, View.ld_unit_zero (S := S64x16) pool_origin2,
    View.ld_unit_zero (S := S1x32x4x64x64) pool_origin5]

/-! ## The obligation at a grid point -/

/-- What the body is called with at point `t`: the invariant, the core's debts, and the five windows' current buffers. -/
def poolPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it returns: the same, each buffer at what the proof data say the body leaves. -/
def poolPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- At any point the input buffers hold their blocks, so the run on whole buffers applies with the slabs and the
    matrix read off the arrays; the invariant and the debts are not touched. -/
theorem pool_body_at (c : Dev nD) (t : Fin cfg0.N) :
    poolPre V c t ⊢ wp frame (wpE (defs₀ (F := F)) Variants.none c none) Set.univ (bodyAt0 t) (fun _ => poolPost V c t) := by
  unfold poolPre poolPost bodyAt0
  simp only [pool_slab0_held, pool_slab1_held, pool_avg_held]
  rw [show (dat0 V c).Φ t.succ = (dat0 V c).Φ t.castSucc from rfl,
    show (dat0 V c).owesAt () t.succ = (dat0 V c).owesAt () t.castSucc from rfl,
    after0_0, after0_1, after0_2, after0_3, after0_4]
  unfold pool0_3 pool0_4
  iintro ⟨HΦ, Ho, ⟨%d0, H0⟩, ⟨%d1, H1⟩, ⟨%d2, H2⟩, ⟨%d3, H3⟩, ⟨%d4, H4⟩⟩
  iapply (pool_kernel_run c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- At every point the body, handed each input window's buffer at its block, leaves each output window's buffer
    at the pooled block of the inputs. -/
theorem body_obligation0 (c : Dev nD) : BodyObligation (dat0 (F := F) V c) (defs₀ (F := F)) Variants.none () Set.univ := fun t => by
  rw [bigSep_W0, bigSep_W0]
  exact pool_body_at V c t

end Cert.KernelIdeal.Hand

end
-- ==== Proof.Body1.lean ====
/- The pairwise-difference kernel's body meets its proof data at every grid point. -/
import proofs.«166016_j61263413510182_1_alg».proof.Proof.Dat1
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The reset condition

The body's one conditional asks whether grid coordinate 1, the column tile `j`, is zero. Over the 8 x 8 grid in
row-major order point `t` has `j = t mod 8`. -/

/-- The conditional's guard as the body computes it from the coordinates: `j = 0` as a one-bit word, widened,
    compared with zero again. -/
abbrev mseFirstCol (i : grid1.Coords) : Prop :=
  (Scalar.cmpi .ne (Scalar.extui (Scalar.cmpi .eq (BitVec.ofNat 32 (i 1).val) 0#32)) 0#32) = 1#1

/-- The guard holds exactly at the points whose column tile is the first: a finite check over the 64 points. -/
theorem mseFirstCol_iff : ∀ t : Fin cfg1.N, mseFirstCol (grid1.coords t) ↔ t.val % 8 = 0 :=
  (by decide +kernel : ∀ t : Fin grid1.N, mseFirstCol (grid1.coords t) ↔ t.val % 8 = 0)

/-! ## Whole-buffer accesses

Every load and store of the body is through the rectangle at offset zero with the buffer's full extents, so a load
reads the buffer's contents as they are and a store replaces them all. -/

theorem mse_zero3 : (![0, 0, 0] : Fin 3 → Nat) = fun _ => 0 := funext fun a => by fin_cases a <;> rfl
theorem mse_zero2 : (![0, 0] : Fin 2 → Nat) = fun _ => 0 := funext fun a => by fin_cases a <;> rfl

/-- A list of writes to a 1 x 1 x 128 buffer whose latest write is a whole-buffer store covers every index. -/
theorem mse_store_covers (w : Vec F S1x1x128 .f32) (L : List (View.Piece (Elt F) S1x1x128 .f32)) (y : S1x1x128.Idx) :
    ∃ p ∈ (⟨Rect.unit ![0, 0, 0] S1x1x128.size inb_S1x1x128_S1x1x128_0_0_0, w⟩ : View.Piece (Elt F) S1x1x128 .f32) :: L,
      y ∈ p.1.set :=
  ⟨_, List.mem_cons_self, View.mem_set_unit_zero mse_zero3 inb_S1x1x128_S1x1x128_0_0_0 y⟩

/-! ## The body on any whole buffers

Stated over arbitrary whole memrefs `a0 … a3` (the row tiles), `o` (the output block's buffer) and `s` (the
accumulator's scratch), holding `x0 … x3`, anything, and the scratch's entry contents. Both cases end with `o` and
`s` at `k1_pay2 x0 x1 x2 x3 prev`, where `prev` is what the accumulation started from. -/

set_option maxHeartbeats 1000000 in
/-- First column tile: the scratch is overwritten with zeros before it is read, so whatever it held on entry is
    forgotten and the accumulation starts from `k1_pay1`. The scratch then carries two whole-buffer writes, of which
    the later decides its contents; the value copied to `o` is a read of the scratch after both. -/
theorem mseRun_reset (c : Dev nD) (i : grid1.Coords)
    (a0 : Memref sig .tc .vmem S1024x32 .f32) (h0 : a0.IsWhole) (a1 : Memref sig .tc .vmem S1024x32 .f32) (h1 : a1.IsWhole)
    (a2 : Memref sig .tc .vmem S1024x32 .f32) (h2 : a2.IsWhole) (a3 : Memref sig .tc .vmem S1024x32 .f32) (h3 : a3.IsWhole)
    (o : Memref sig .tc .vmem S1x1x128 .f32) (ho : o.IsWhole) (s : Memref sig .tc .vmem S1x1x128 .f32) (hs : s.IsWhole)
    (hc : mseFirstCol i) (x0 x1 x2 x3 : Vec F S1024x32 .f32) (E : Set ℕ) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) o fullShare d) ∗ (∃ X, owns (c : Thread nD τ) s fullShare X)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) o fullShare (k1_pay2 x0 x1 x2 x3 (k1_pay1 (F := F)))
            ∗ owns (c : Thread nD τ) s fullShare (k1_pay2 x0 x1 x2 x3 (k1_pay1 (F := F)))) -∗ K ⟨⟩))
      ⊢ wp frame (wpE (defs₀ (F := F)) Variants.none c none) E
          (cc1__mse_kernel i a0 h0 a1 h1 a2 h2 a3 h3 o ho s hs) K := by
  simp only [cc1__mse_kernel_eq_skeleton]; unfold cc1__mse_kernel_skel
  unfold owns
  iintro ⟨⟨%f0, %hf0, H0⟩, ⟨%f1, %hf1, H1⟩, ⟨%f2, %hf2, H2⟩, ⟨%f3, %hf3, H3⟩, ⟨%d4, %f4, -, H4⟩, ⟨%X5, %f5, -, H5⟩, Hk⟩
  obtain rfl := h0.eq_unread hf0; obtain rfl := h1.eq_unread hf1
  obtain rfl := h2.eq_unread hf2; obtain rfl := h3.eq_unread hf3
  sl_exec (disch := first | exact hc)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr
    swap; · iexact H4
    ipureintro
    -- the output buffer's one write is the scratch read back after the zero store and the update
    rw [View.read_writes_eq_canon _ _ _ (mse_store_covers _ _)]
    rw [View.canon_unit_zero mse_zero3]
    sl_unfold_words
    rw [View.readCov_eq_canon_ld _ _ _ (mse_store_covers _ _)]
    rw [View.canon_cons_unit_zero (S := S1x1x128) mse_zero3, View.readCov_unit_zero (S := S1x1x128) _ mse_zero3]
    simp only [View.readAt_eq_ld, h0.read_unread, h1.read_unread, h2.read_unread, h3.read_unread,
      View.ld_unit_zero (S := S1024x32) mse_zero2, View.ld_unit_zero (S := S1x1x128) mse_zero3]
  · iexists _; isplitr
    swap; · iexact H5
    ipureintro
    -- the scratch: the update, whose fifth operand is a read of the zeros just stored, over the zero store
    sl_unfold_words
    rw [View.read_writes_eq_canon _ _ _ (mse_store_covers _ _)]
    rw [View.canon_cons_unit_zero (S := S1x1x128) mse_zero3, View.readCov_unit_zero (S := S1x1x128) _ mse_zero3]
    simp only [View.readAt_eq_ld, h0.read_unread, h1.read_unread, h2.read_unread, h3.read_unread,
      View.ld_unit_zero (S := S1024x32) mse_zero2]

set_option maxHeartbeats 1000000 in
/-- Any other column tile: the conditional is skipped, the scratch is read as it was found, `prev`, and updated
    once; the value copied to `o` is a read of the scratch after that one write. -/
theorem mseRun_cont (c : Dev nD) (i : grid1.Coords)
    (a0 : Memref sig .tc .vmem S1024x32 .f32) (h0 : a0.IsWhole) (a1 : Memref sig .tc .vmem S1024x32 .f32) (h1 : a1.IsWhole)
    (a2 : Memref sig .tc .vmem S1024x32 .f32) (h2 : a2.IsWhole) (a3 : Memref sig .tc .vmem S1024x32 .f32) (h3 : a3.IsWhole)
    (o : Memref sig .tc .vmem S1x1x128 .f32) (ho : o.IsWhole) (s : Memref sig .tc .vmem S1x1x128 .f32) (hs : s.IsWhole)
    (hc : ¬mseFirstCol i) (x0 x1 x2 x3 : Vec F S1024x32 .f32) (prev : Vec F S1x1x128 .f32) (E : Set ℕ) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) o fullShare d) ∗ owns (c : Thread nD τ) s fullShare prev
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) o fullShare (k1_pay2 x0 x1 x2 x3 prev)
            ∗ owns (c : Thread nD τ) s fullShare (k1_pay2 x0 x1 x2 x3 prev)) -∗ K ⟨⟩))
      ⊢ wp frame (wpE (defs₀ (F := F)) Variants.none c none) E
          (cc1__mse_kernel i a0 h0 a1 h1 a2 h2 a3 h3 o ho s hs) K := by
  simp only [cc1__mse_kernel_eq_skeleton]; unfold cc1__mse_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := h0.eq_unread hf0; obtain rfl := h1.eq_unread hf1
  obtain rfl := h2.eq_unread hf2; obtain rfl := h3.eq_unread hf3
  obtain rfl := hs.eq_unread hf5
  sl_exec (disch := first | exact hc)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr
    swap; · iexact H4
    ipureintro
    rw [View.read_writes_eq_canon _ _ _ (mse_store_covers _ _)]
    rw [View.canon_unit_zero mse_zero3]
    sl_unfold_words
    rw [View.readCov_unit_zero (S := S1x1x128) _ mse_zero3]
    simp only [View.readAt_eq_ld, h0.read_unread, h1.read_unread, h2.read_unread, h3.read_unread, hs.read_unread,
      View.ld_unit_zero (S := S1024x32) mse_zero2, View.ld_unit_zero (S := S1x1x128) mse_zero3]
  · iexists _; isplitr
    swap; · iexact H5
    ipureintro
    sl_unfold_words
    rw [View.read_writes_eq_canon _ _ _ (mse_store_covers _ _)]
    rw [View.canon_unit_zero mse_zero3]
    simp only [View.readAt_eq_ld, h0.read_unread, h1.read_unread, h2.read_unread, h3.read_unread, hs.read_unread,
      View.ld_unit_zero (S := S1024x32) mse_zero2, View.ld_unit_zero (S := S1x1x128) mse_zero3]

/-! ## What the body finds at a point -/

/-- Each window's current buffer at point `t`, and that it is a whole buffer. -/
abbrev mseBuf0 (t : Fin cfg1.N) : Memref sig .tc .vmem S1024x32 .f32 := win1_0.stage (cfg1.slots t 0)
abbrev mseBuf0_whole (t : Fin cfg1.N) : (mseBuf0 t).IsWhole := hstage1_0 ((cfg1.slots t 0).cast nbuf1_0)
abbrev mseBuf1 (t : Fin cfg1.N) : Memref sig .tc .vmem S1024x32 .f32 := win1_1.stage (cfg1.slots t 1)
abbrev mseBuf1_whole (t : Fin cfg1.N) : (mseBuf1 t).IsWhole := hstage1_1 ((cfg1.slots t 1).cast nbuf1_1)
abbrev mseBuf2 (t : Fin cfg1.N) : Memref sig .tc .vmem S1024x32 .f32 := win1_2.stage (cfg1.slots t 2)
abbrev mseBuf2_whole (t : Fin cfg1.N) : (mseBuf2 t).IsWhole := hstage1_2 ((cfg1.slots t 2).cast nbuf1_2)
abbrev mseBuf3 (t : Fin cfg1.N) : Memref sig .tc .vmem S1024x32 .f32 := win1_3.stage (cfg1.slots t 3)
abbrev mseBuf3_whole (t : Fin cfg1.N) : (mseBuf3 t).IsWhole := hstage1_3 ((cfg1.slots t 3).cast nbuf1_3)
abbrev mseBuf4 (t : Fin cfg1.N) : Memref sig .tc .vmem S1x1x128 .f32 := win1_4.stage (cfg1.slots t 4)
abbrev mseBuf4_whole (t : Fin cfg1.N) : (mseBuf4 t).IsWhole := hstage1_4 ((cfg1.slots t 4).cast nbuf1_4)

/-- An input window's buffer holds the window's block at every point. Where the block was just fetched that is
    what a fetch delivers; where it was not (windows 0 and 2 at `j ≠ 0`) the block index is the one of the point
    before, and the body left the block in place there. -/
theorem mseFound0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem mseFound1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem mseFound2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem mseFound3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-- The accumulator's recursion at a point `t = n + 1` that is not a first column tile: one step from the
    accumulator at `n`. -/
theorem mse_acc1_next (c : Dev nD) (t : Fin cfg1.N) (n : ℕ) (hn : n < cfg1.N) (e : t.val = n + 1) (h : t.val % 8 ≠ 0) :
    acc1 V c t.val t.isLt = step1 V c t (acc1 V c n hn) := by
  obtain ⟨tv, ht⟩ := t
  dsimp only at e h ⊢
  subst e
  exact acc1_cont V c n ht h

/-! ## The obligation at a point -/

/-- What the body is handed at point `t`: the invariant, what the core owes, and the five windows' buffers; -/
def mseBodyPre (c : Dev nD) (t : Fin cfg1.N) : sProp 𝕄 :=
  iprop((dat1 V c).Φ t.castSucc ∗ (dat1 V c).owesAt () t.castSucc
    ∗ (∃ d, owns (c : Thread nD τ) (mseBuf0 t) fullShare ((dat1 V c).before 0 t d))
    ∗ (∃ d, owns (c : Thread nD τ) (mseBuf1 t) fullShare ((dat1 V c).before 1 t d))
    ∗ (∃ d, owns (c : Thread nD τ) (mseBuf2 t) fullShare ((dat1 V c).before 2 t d))
    ∗ (∃ d, owns (c : Thread nD τ) (mseBuf3 t) fullShare ((dat1 V c).before 3 t d))
    ∗ (∃ d, owns (c : Thread nD τ) (mseBuf4 t) fullShare ((dat1 V c).before 4 t d)))

/-- and what it hands back. -/
def mseBodyPost (c : Dev nD) (t : Fin cfg1.N) : sProp 𝕄 :=
  iprop((dat1 V c).Φ t.succ ∗ (dat1 V c).owesAt () t.succ
    ∗ owns (c : Thread nD τ) (mseBuf0 t) fullShare ((dat1 V c).after 0 t)
    ∗ owns (c : Thread nD τ) (mseBuf1 t) fullShare ((dat1 V c).after 1 t)
    ∗ owns (c : Thread nD τ) (mseBuf2 t) fullShare ((dat1 V c).after 2 t)
    ∗ owns (c : Thread nD τ) (mseBuf3 t) fullShare ((dat1 V c).after 3 t)
    ∗ owns (c : Thread nD τ) (mseBuf4 t) fullShare ((dat1 V c).after 4 t))

set_option maxHeartbeats 800000 in
/-- The body at any point. The four input buffers hold their blocks. If `t mod 8 = 0` the scratch's entry contents
    do not matter and the body leaves `step1` of zero, which is the accumulator there. Otherwise `t = n + 1`, the
    invariant says the scratch holds the accumulator at `n`, and the body leaves one step from it, the accumulator
    at `t`. Either way the scratch and the output buffer both end at the accumulator at `t`, which is what the
    invariant before point `t + 1` asks of the scratch (it asks only when `t + 1` is not a first column tile; it
    holds regardless). The idle buffers, the generator register and what the core owes pass through untouched. -/
theorem mseBody_sound (c : Dev nD) (t : Fin cfg1.N) :
    mseBodyPre V c t ⊢ wp frame (wpE (defs₀ (F := F)) Variants.none c none) Set.univ (bodyAt1 t) (fun _ => mseBodyPost V c t) := by
  unfold mseBodyPre mseBodyPost bodyAt1
  simp only [mseFound0, mseFound1, mseFound2, mseFound3]
  rw [show (dat1 V c).owesAt () t.succ = (dat1 V c).owesAt () t.castSucc from rfl,
    after1_0, after1_1, after1_2, after1_3, after1_4, Φ_eq1, Φ_eq1]
  unfold Φ1
  have hN : t.val < 64 := lt_of_lt_of_eq t.isLt (show cfg1.N = 64 from N_1)
  by_cases hj : t.val % 8 = 0
  · have hacc : acc1 V c t.val t.isLt
        = k1_pay2 (iblk1 V c 0 t) (iblk1 V c 1 t) (iblk1 V c 2 t) (iblk1 V c 3 t) (k1_pay1 (F := F)) :=
      acc1_reset V c t hj
    rw [hacc]
    iintro ⟨⟨Hidle, ⟨%X, HX, -⟩, Hr⟩, Ho, ⟨%d0, H0⟩, ⟨%d1, H1⟩, ⟨%d2, H2⟩, ⟨%d3, H3⟩, ⟨%d4, H4⟩⟩
    iapply (mseRun_reset c (grid1.coords t) _ _ _ _ _ _ _ _ _ _ _ _ ((mseFirstCol_iff t).mpr hj)
      (iblk1 V c 0 t) (iblk1 V c 1 t) (iblk1 V c 2 t) (iblk1 V c 3 t) Set.univ _)
    isplitl [H0]; · iexact H0
    isplitl [H1]; · iexact H1
    isplitl [H2]; · iexact H2
    isplitl [H3]; · iexact H3
    isplitl [H4]; · iexists _; iexact H4
    isplitl [HX]; · iexists _; iexact HX
    iintro ⟨H0, H1, H2, H3, H4, HX⟩
    isplitl [Hidle HX Hr]
    · isplitl [Hidle]; · iexact Hidle
      isplitl [HX]
      · iexists _; isplitl [HX]; · iexact HX
        ipureintro
        intro n hn e _
        obtain rfl : n = t.val := by have := Fin.val_succ t; omega
        exact hacc.symm
      iexact Hr
    isplitl [Ho]; · iexact Ho
    isplitl [H0]; · iexact H0
    isplitl [H1]; · iexact H1
    isplitl [H2]; · iexact H2
    isplitl [H3]; · iexact H3
    iexact H4
  · obtain ⟨n, hn⟩ : ∃ n, t.val = n + 1 := ⟨t.val - 1, by omega⟩
    have hnN : n < cfg1.N := by have := t.isLt; omega
    have hacc : acc1 V c t.val t.isLt
        = k1_pay2 (iblk1 V c 0 t) (iblk1 V c 1 t) (iblk1 V c 2 t) (iblk1 V c 3 t) (acc1 V c n hnN) :=
      mse_acc1_next V c t n hnN hn hj
    rw [hacc]
    iintro ⟨⟨Hidle, ⟨%X, HX, %hX⟩, Hr⟩, Ho, ⟨%d0, H0⟩, ⟨%d1, H1⟩, ⟨%d2, H2⟩, ⟨%d3, H3⟩, ⟨%d4, H4⟩⟩
    obtain rfl : X = acc1 V c n hnN := hX n hnN hn (by omega)
    iapply (mseRun_cont c (grid1.coords t) _ _ _ _ _ _ _ _ _ _ _ _ (fun h => hj ((mseFirstCol_iff t).mp h))
      (iblk1 V c 0 t) (iblk1 V c 1 t) (iblk1 V c 2 t) (iblk1 V c 3 t) (acc1 V c n hnN) Set.univ _)
    isplitl [H0]; · iexact H0
    isplitl [H1]; · iexact H1
    isplitl [H2]; · iexact H2
    isplitl [H3]; · iexact H3
    isplitl [H4]; · iexists _; iexact H4
    isplitl [HX]; · iexact HX
    iintro ⟨H0, H1, H2, H3, H4, HX⟩
    isplitl [Hidle HX Hr]
    · isplitl [Hidle]; · iexact Hidle
      isplitl [HX]
      · iexists _; isplitl [HX]; · iexact HX
        ipureintro
        intro n' hn' e _
        obtain rfl : n' = t.val := by have := Fin.val_succ t; omega
        exact hacc.symm
      iexact Hr
    isplitl [Ho]; · iexact Ho
    isplitl [H0]; · iexact H0
    isplitl [H1]; · iexact H1
    isplitl [H2]; · iexact H2
    isplitl [H3]; · iexact H3
    iexact H4

/-- At every point the body, handed the four row tiles and the scratch as the invariant describes it, leaves
    the scratch and the output window's buffer at the accumulator's next value. -/
theorem body_obligation1 (c : Dev nD) : BodyObligation (dat1 (F := F) V c) (defs₀ (F := F)) Variants.none () Set.univ := fun t => by
  rw [bigSep_W1, bigSep_W1]
  exact mseBody_sound V c t

end Cert.KernelIdeal.Hand

end
-- ==== Proof.Reg1.lean ====
/- The pairwise-difference region as an item of the run: entered with every unscoped buffer at the contents
   before it, left with them at the contents after it. Each normalised matrix is read through two windows,
   so its buffer's full share is dealt half to each at entry and put together again at exit; the
   accumulator's scratch enters the invariant at whatever it holds and leaves it forgotten. -/
import proofs.«166016_j61263413510182_1_alg».proof.Proof.Fold
import proofs.«166016_j61263413510182_1_alg».proof.Proof.Body1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

section Region1Frame

variable (V : (c : Dev nD) → (b : Ref sig .tc) → Buf (Elt F) ((c : Thread nD τ).loc b))

/-- A buffer held whole at the full share is held at its two halves, at the same contents; and back. -/
theorem reg1_halves {ℓ : Loc nD τ sig} (f : Buf (Elt F) ℓ) :
    (ℓ ↦{fullShare} f : sProp 𝕄) ⊣⊢ iprop((ℓ ↦{fullShare.left} f) ∗ ℓ ↦{fullShare.right} f) :=
  pointsTo_share (IsOp.posShare_halves fullShare).mem_op

/-- The buffers behind the region's five windows are three: the two normalised matrices and the partial sums. -/
theorem reg1_arrBufs_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v11) ↦{fullShare} W main_v11) ∗ (((c : Thread nD τ).loc main_v16) ↦{fullShare} W main_v16)
          ∗ (((c : Thread nD τ).loc main_v17) ↦{fullShare} W main_v17)) :=
  bigSep_eq_bigSepL_of_eq [main_v11, main_v16, main_v17] (by decide) (by decide) _

/-- The region's arrays, window by window: each matrix through two windows at the two halves of its share, the
    partial sums at the full share. -/
theorem reg1_arrays_eq (c : Dev nD) (G : (w : Fin cfg1.W) → Buf (Elt F) ((cfg1.win w).arr.view.loc (c : Thread nD τ))) :
    ((dat1 V c).arrays G : sProp 𝕄)
      = iprop((((c : Thread nD τ).loc main_v11) ↦{fullShare.left} G 0) ∗ (((c : Thread nD τ).loc main_v11) ↦{fullShare.right} G 1)
          ∗ (((c : Thread nD τ).loc main_v16) ↦{fullShare.left} G 2) ∗ (((c : Thread nD τ).loc main_v16) ↦{fullShare.right} G 3)
          ∗ (((c : Thread nD τ).loc main_v17) ↦{fullShare} G 4)) := by
  have h : ((dat1 V c).arrays G : sProp 𝕄)
      = bigSep Finset.univ fun w : Fin 5 => (((c : Thread nD τ).loc (Pipeline.arrRef spec1 w)) ↦{(dat1 V c).share w} G w : sProp 𝕄) := by
    unfold Pipeline.Dat.arrays
    exact bigSep_congr fun w _ => by rw [(arr_whole1 w).set_eq_univ]
  rw [h, Gen.bigSep_W1]
  rfl

end Region1Frame

set_option backward.isDefEq.respectTransparency.types false in
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  -- Entry: the unscoped buffers are the three behind the windows and the rest; each matrix's full share is halved
  -- between its two windows, the partial sums go whole to the output window, the rest bypasses the region.
  hentry c := by
    have hsplit : (unscopedBufs (Ix := Unit) (Name := ℕ) (U := UR sig nD τ) (Lvl := ℕ) c (V7 m ρ c) : sProp 𝕄)
        = iprop(Pipeline.arrBufs spec1 c (V7 m ρ c) ∗ Pipeline.unscopedRest spec1 c (V7 m ρ c)) :=
      Pipeline.unscopedBufs_split₀ cfgs 1 winFacts₀1.arr_unscoped c (V7 m ρ c)
    rw [Pipeline.unscopedBufs_held, reg1_arrBufs_eq] at hsplit
    rw [Pipeline.ownSems0_none, hsplit, show (pdats m ρ 1 c) = dat1 (V7 m ρ) c from rfl, reg1_arrays_eq]
    iintro ⟨⟨⟨⟨H11, H16, H17⟩, Hrest⟩, Hp, HO⟩, -, -⟩
    ihave H11 := (reg1_halves (V7 m ρ c main_v11)).1 $$ H11
    icases H11 with ⟨H11l, H11r⟩
    ihave H16 := (reg1_halves (V7 m ρ c main_v16)).1 $$ H16
    icases H16 with ⟨H16l, H16r⟩
    imodintro
    isplitl [H11l H11r H16l H16r H17]
    · isplitl [H11l]; · iexact H11l
      isplitl [H11r]; · iexact H11r
      isplitl [H16l]; · iexact H16l
      isplitl [H16r]; · iexact H16r
      iexact H17
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  -- The invariant before the first point: the nine idle staging buffers, the scratch at whatever it holds (no
  -- point precedes the first, so nothing is claimed of it), and the generator register.
  hin c := by
    rw [show (pdats m ρ 1 c).Φ 0 = Φ1 (V7 m ρ) c 0 from rfl,
      show Pipeline.scopedRest (Pipeline.pin (pcfgs (F := F)) adm 1).spec c = Pipeline.scopedRest spec1 c from rfl, Gen.scopedRest1_eq]
    unfold Φ1 idle1
    iintro ⟨Hp, -, H0, H1, H2, H3, H4, H5, H6, H7, H8, Hs⟩
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [Hs]
    · icases Hs with ⟨%f, Hs⟩
      iexists f
      isplitl [Hs]
      · iapply (Entails.of_eq (owns_whole (c : Thread nD τ) cc1_scratch0 fullShare f).symm); iexact Hs
      · ipureintro; intro n hn h; exact absurd h (Nat.succ_ne_zero n).symm
    iexact Hp
  -- The invariant after the last point gives the same buffers back, what the scratch holds forgotten.
  hout c := by
    rw [Pipeline.ownSems0_none, show (pdats m ρ 1 c).Φ (Fin.last _) = Φ1 (V7 m ρ) c (Fin.last _) from rfl,
      show Pipeline.scopedRest (Pipeline.pin (pcfgs (F := F)) adm 1).spec c = Pipeline.scopedRest spec1 c from rfl, Gen.scopedRest1_eq]
    unfold Φ1 idle1
    iintro ⟨⟨H0, H1, H2, H3, H4, H5, H6, H7, H8⟩, ⟨%X, Hs, -⟩, Hp⟩
    isplitl [Hp]; · iexact Hp
    isplitr; · iempintro
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists X
    iapply (Entails.of_eq (owns_whole (c : Thread nD τ) cc1_scratch0 fullShare X)); iexact Hs
  -- Exit: the input windows' arrays are as entered and the two halves of each matrix join to its full share; the
  -- partial sums are what the contents after the region hold at that buffer, and no other buffer has changed.
  hexit c := by
    have h11 : V8 m ρ c main_v11 = V7 m ρ c main_v11 :=
      Function.update_of_ne (StableHlo.devRef_ne_of_ne (by decide)) ..
    have h16 : V8 m ρ c main_v16 = V7 m ρ c main_v16 :=
      Function.update_of_ne (StableHlo.devRef_ne_of_ne (by decide)) ..
    have h17 : V8 m ρ c main_v17 = (dat1 (V7 m ρ) c).arrAt 4 cfg1.N := Function.update_self ..
    have hrest : (Pipeline.unscopedRest (Ix := Unit) (Name := ℕ) (U := UR sig nD τ) (Lvl := ℕ) spec1 c (V8 m ρ c) : sProp 𝕄)
        = Pipeline.unscopedRest spec1 c (V7 m ρ c) := by
      unfold Pipeline.unscopedRest
      refine bigSep_congr fun b hb => ?_
      have hb' : b ≠ main_v17 := fun h => (Finset.mem_sdiff.mp hb).2 (h ▸ Finset.mem_image.mpr ⟨4, Finset.mem_univ _, rfl⟩)
      rw [show V8 m ρ c b = V7 m ρ c b from Function.update_of_ne (StableHlo.devRef_ne_of_ne hb') ..]
    have hsplit : (unscopedBufs (Ix := Unit) (Name := ℕ) (U := UR sig nD τ) (Lvl := ℕ) c (V8 m ρ c) : sProp 𝕄)
        = iprop(Pipeline.arrBufs spec1 c (V8 m ρ c) ∗ Pipeline.unscopedRest spec1 c (V8 m ρ c)) :=
      Pipeline.unscopedBufs_split₀ cfgs 1 winFacts₀1.arr_unscoped c (V8 m ρ c)
    rw [Pipeline.unscopedBufs_held, reg1_arrBufs_eq, hrest, h11, h16, h17] at hsplit
    rw [hsplit, show (pdats m ρ 1 c) = dat1 (V7 m ρ) c from rfl, reg1_arrays_eq,
      (dat1 (V7 m ρ) c).arrAt_in 0 rfl, (dat1 (V7 m ρ) c).arrAt_in 1 rfl, (dat1 (V7 m ρ) c).arrAt_in 2 rfl, (dat1 (V7 m ρ) c).arrAt_in 3 rfl]
    iintro ⟨⟨H11l, H11r, H16l, H16r, H17⟩, HO, HY, Hrest⟩
    imodintro
    isplitl [H11l H11r H16l H16r H17 Hrest]
    · isplitl [H11l H11r H16l H16r H17]
      · isplitl [H11l H11r]
        · iapply (reg1_halves (V7 m ρ c main_v11)).2; isplitl [H11l]; · iexact H11l
          iexact H11r
        isplitl [H16l H16r]
        · iapply (reg1_halves (V7 m ρ c main_v16)).2; isplitl [H16l]; · iexact H16l
          iexact H16r
        iexact H17
      iexact Hrest
    isplitl [HY]; · iexact HY
    unfold Pipeline.Dat.owesAt Pipeline.owesWithin
    icases HO with ⟨%W, -, HO⟩; iexists W; iexact HO

end Cert.KernelIdeal.Hand

end
-- ==== Proof.Run.lean ====
/- The program's run: every weakly fair execution ends, nothing faulting, with the result buffer at the
   last boundary's contents and the two argument arrays as launched. -/
import proofs.«166016_j61263413510182_1_alg».proof.Proof.Fold
import proofs.«166016_j61263413510182_1_alg».proof.Proof.Body0
import proofs.«166016_j61263413510182_1_alg».proof.Proof.Body1
import proofs.«166016_j61263413510182_1_alg».proof.Proof.Reg1
import proofs.«166016_j61263413510182_1_alg».proof.Proof.Gen.KernelIdeal.Regions

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pooling region's exit contents, buffer by buffer

The five windows of the pooling region stand on five different buffers, so the exit contents read at a window's
array are what the write-backs leave there, and read anywhere else they are the entry contents. -/

private theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c (W1 m ρ c) (fun w => (dat0 (V1 m ρ) c).arrAt w cfg0.N) w

private theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c (W1 m ρ c) (fun w => (dat0 (V1 m ρ) c).arrAt w cfg0.N) b hb

/-- A window the region only reads keeps its array: no point writes a block of it back. -/
private theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin cfg0.N).trans (A_eq0 (V1 m ρ) c w))

/-! ## The tallies at a region's two ends

Neither region's body owes or records anything, so its proof data bound the recorded pairs by everything: a core
owing nothing meets the bound at entry whatever it has recorded, and at exit the bound is simply forgotten. -/

private theorem owes_enter0 (c : Dev nD) :
    (iprop(∃ W, owes (c : Thread nD τ) (0 : CellTallies nD τ sig Unit) W) : sProp 𝕄) ⊢ (pdats m ρ 0 c).owesAt () 0 := by
  iintro ⟨%W, HO⟩
  iexists W
  isplitr
  · ipureintro; exact fun _ _ => Or.inl trivial
  iexact HO

private theorem owes_leave0 (c : Dev nD) :
    ((pdats m ρ 0 c).owesAt () (Fin.last cfg0.N) : sProp 𝕄) ⊢ iprop(∃ W, owes (c : Thread nD τ) (0 : CellTallies nD τ sig Unit) W) := by
  iintro ⟨%W, -, HO⟩
  iexists W
  iexact HO

/-! ## The pooling region as an item of the run -/

/-- At entry the core's unscoped buffers, all at the contents before the region, part into the region's five arrays
    and the buffers that go round it. -/
private theorem enter0 (c : Dev nD) :
    (StableHlo.held (c : Thread nD τ) (Pipeline.ucRefs τ sig) (W1 m ρ c) : sProp 𝕄)
      ⊢ iprop((pdats m ρ 0 c).arrays ((pdats m ρ 0 c).arrAt · 0)
          ∗ Pipeline.unscopedRest (Ix := Unit) (Name := ℕ) (U := UR sig nD τ) (Lvl := ℕ) spec0 c (V1 m ρ c)) := by
  rw [← Pipeline.unscopedBufs_held c (W1 m ρ c)]
  exact Pipeline.arrays_of_unscopedBufs (p := 0) (pcfgs (F := F)) adm (pdats m ρ) launch0.win launch0.arr_whole c
    ((pdats m ρ 0 c).share_full fun _ => rfl) (V1 m ρ c) fun _ => rfl

/-- At exit the arrays, at what the write-backs leave, and the buffers that went round are again every unscoped
    buffer, now at the contents after the region. -/
private theorem leave0 (c : Dev nD) :
    (iprop((pdats m ρ 0 c).arrays ((pdats m ρ 0 c).arrAt · cfg0.N)
        ∗ Pipeline.unscopedRest (Ix := Unit) (Name := ℕ) (U := UR sig nD τ) (Lvl := ℕ) spec0 c (V1 m ρ c)) : sProp 𝕄)
      ⊢ StableHlo.held (c : Thread nD τ) (Pipeline.ucRefs τ sig) (W2 m ρ c) := by
  rw [← Pipeline.unscopedBufs_held c (W2 m ρ c)]
  exact Pipeline.unscopedBufs_of_arrays (p := 0) (pcfgs (F := F)) adm (Ix := Unit) (Name := ℕ) (U := UR sig nD τ) (Lvl := ℕ)
    launch0.win launch0.arr_whole c (pdats m ρ) ((pdats m ρ 0 c).share_full fun _ => rfl)
    (V1 m ρ c) (V2 m ρ c) ((pdats m ρ 0 c).arrAt · cfg0.N)
    (fun w => (W2_arr m ρ c w).symm)
    (fun b hb => W2_of_ne m ρ c b fun w e => hb (Finset.mem_image.mpr ⟨w, Finset.mem_univ _, e⟩))

set_option backward.isDefEq.respectTransparency.types false in
/-- The pooling region: entered with every unscoped buffer at the contents after the averaging matrix is set,
    left with them at the region's exit contents. The generator register passes through the body's invariant,
    the tallies through the pipeline's, the buffers that are no window's array go round. The kernel has no
    semaphore of its own and no prefetched table. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    have hcut := enter0 m ρ c
    have howe := owes_enter0 m ρ c
    iintro ⟨⟨Hbufs, Hreg, Hnil⟩, -⟩
    imodintro
    ihave Hparts := hcut $$ Hbufs
    icases Hparts with ⟨Harr, Hround⟩
    isplitl [Harr]; · iexact Harr
    isplitr
    · unfold Pipeline.prefHeld
      rw [show (Finset.univ : Finset (Fin 0)) = ∅ from rfl, BI.bigSep_empty]
      iempintro
    isplitl [Hnil]; · iapply howe; iexact Hnil
    isplitl [Hreg]; · iexact Hreg
    iexact Hround
  hin c := by
    rw [show (pdats m ρ 0 c).Φ 0 = Pipeline.ΦA spec0 c from rfl]
    unfold Pipeline.ΦA
    iintro ⟨Hreg, -, Hscr⟩
    isplitl [Hscr]; · iexact Hscr
    iexact Hreg
  hout c := by
    rw [Pipeline.ownSems0_none, show (pdats m ρ 0 c).Φ (Fin.last _) = Pipeline.ΦA spec0 c from rfl]
    unfold Pipeline.ΦA
    iintro ⟨Hscr, Hreg⟩
    isplitl [Hreg]; · iexact Hreg
    isplitr; · iempintro
    iexact Hscr
  hexit c := by
    have hjoin := leave0 m ρ c
    have howe := owes_leave0 m ρ c
    iintro ⟨Harr, Hnil, Hreg, Hround⟩
    imodintro
    isplitl [Harr Hround]
    · iapply hjoin
      isplitl [Harr]; · iexact Harr
      iexact Hround
    isplitl [Hreg]; · iexact Hreg
    iapply howe; iexact Hnil

/-! ## The program as nine items -/

/-- The items in program order: the averaging matrix's constant, the pooling region, the rows laid out, the first
    matrix's norms and its normalisation, the second matrix's norms and its normalisation, the pairwise-difference
    region, and the partial sums added up. Each host stretch starts from the boundary contents before it. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .region (reg1 m ρ),
    .host (hseg hostOps2 hostOps2_sub hostOps2_fresh (W8 m ρ)) ]

/-- The printed program is the nine items run in order: it is the chain of their fragments, a host stretch's fragment
    being its operations in sequence and a region's its call. -/
theorem main_run (c : Dev nD) : main (F := F) c = Pipeline.Seg.run (segs m ρ) := by
  rw [main_chain c, Pipeline.Seg.run_eq_chain]
  rfl

/-- The two regions are two different pipelines. -/
private theorem segs_nodup : (Pipeline.Seg.pipes (segs m ρ)).Nodup := by
  simp only [segs, Pipeline.Seg.pipes_host, Pipeline.Seg.pipes_region, Pipeline.Seg.pipes_nil]
  decide

/-! ## A buffer nothing writes, read at the end

The result is read off the last boundary by name. Each argument is read there too, and the last boundary's contents
at an argument are walked back item by item: a host stretch leaves a buffer it does not write, the second region
changes only its partial sums' buffer, the pooling region only reads its inputs. -/

/-- From the pooling region's exit to the return: a buffer that no later host stretch writes and that is not the
    second region's output holds at the end what it held at that exit. -/
private theorem W9_of_W2 (c : Dev nD) (r : Ref sig .tc)
    (h1 : r ∉ hostOps1_W) (h11 : r ∉ hostOps1_1_W) (h12 : r ∉ hostOps1_2_W) (h13 : r ∉ hostOps1_3_W)
    (h14 : r ∉ hostOps1_4_W) (hv : r ≠ main_v17) (h2 : r ∉ hostOps2_W) :
    W9 m ρ c (Proc.devRef .tc r) = W2 m ρ c (Proc.devRef .tc r) :=
  calc W9 m ρ c (Proc.devRef .tc r)
    _ = W8 m ρ c (Proc.devRef .tc r) := StableHlo.after_of_writes_sub hostOps2 _ hostOps2_writes h2
    _ = W7 m ρ c (Proc.devRef .tc r) := by
          unfold W8; exact Function.update_of_ne (StableHlo.devRef_ne_of_ne hv) _ _
    _ = W6 m ρ c (Proc.devRef .tc r) := StableHlo.after_of_writes_sub hostOps1_4 _ hostOps1_4_writes h14
    _ = W5 m ρ c (Proc.devRef .tc r) := StableHlo.after_of_writes_sub hostOps1_3 _ hostOps1_3_writes h13
    _ = W4 m ρ c (Proc.devRef .tc r) := StableHlo.after_of_writes_sub hostOps1_2 _ hostOps1_2_writes h12
    _ = W3 m ρ c (Proc.devRef .tc r) := StableHlo.after_of_writes_sub hostOps1_1 _ hostOps1_1_writes h11
    _ = W2 m ρ c (Proc.devRef .tc r) := StableHlo.after_of_writes_sub hostOps1 _ hostOps1_writes h1

/-- The first volume's buffer ends as launched: it is the pooling region's first input window's array. -/
private theorem W9_main_arg0 (c : Dev nD) : W9 m ρ c (Proc.devRef .tc main_arg0) = m ((c : Thread nD τ).loc main_arg0) :=
  calc W9 m ρ c (Proc.devRef .tc main_arg0)
    _ = W2 m ρ c (Proc.devRef .tc main_arg0) :=
          W9_of_W2 m ρ c main_arg0 (by decide) (by decide) (by decide) (by decide) (by decide) (by decide) (by decide)
    _ = W1 m ρ c (Proc.devRef .tc main_arg0) := W2_in m ρ c 0 rfl
    _ = W0 m ρ c (Proc.devRef .tc main_arg0) := StableHlo.after_of_writes_sub hostOps0 _ hostOps0_writes (by decide)
    _ = m ((c : Thread nD τ).loc main_arg0) := rfl

/-- The second volume's buffer ends as launched: it is the pooling region's second input window's array. -/
private theorem W9_main_arg1 (c : Dev nD) : W9 m ρ c (Proc.devRef .tc main_arg1) = m ((c : Thread nD τ).loc main_arg1) :=
  calc W9 m ρ c (Proc.devRef .tc main_arg1)
    _ = W2 m ρ c (Proc.devRef .tc main_arg1) :=
          W9_of_W2 m ρ c main_arg1 (by decide) (by decide) (by decide) (by decide) (by decide) (by decide) (by decide)
    _ = W1 m ρ c (Proc.devRef .tc main_arg1) := W2_in m ρ c 1 rfl
    _ = W0 m ρ c (Proc.devRef .tc main_arg1) := StableHlo.after_of_writes_sub hostOps0 _ hostOps0_writes (by decide)
    _ = m ((c : Thread nD τ).loc main_arg1) := rfl

/-! ## The launch -/

/-- The last thread state without the tallies: every unscoped buffer at the last boundary's contents, the generator
    register at some state. -/
private abbrev Tₙ (c : Dev nD) : sProp 𝕄 :=
  iprop(StableHlo.held (c : Thread nD τ) (Pipeline.ucRefs τ sig) (W9 m ρ c) ∗ ∃ r, prngReg c r)

/-- Each item is entered from the state the item before it leaves: the boundary contents are named so that the two
    are one state, and at the end the tallies are set beside the rest. -/
private theorem segs_chain : Pipeline.Seg.Chains
    (fun c => iprop(StableHlo.held (c : Thread nD τ) (Pipeline.ucRefs τ sig) (W0 m ρ c) ∗ R c)) (segs m ρ)
    (fun c => iprop(Tₙ m ρ c ∗ ∃ W, owes (c : Thread nD τ) (0 : CellTallies nD τ sig Unit) W)) :=
  ⟨fun _ => .rfl, fun _ => .rfl, fun _ => .rfl, fun _ => .rfl, fun _ => .rfl, fun _ => .rfl, fun _ => .rfl,
    fun _ => .rfl, fun _ => .rfl, fun c => by
      show (iprop(StableHlo.held (c : Thread nD τ) (Pipeline.ucRefs τ sig) (W9 m ρ c) ∗ R c) : sProp 𝕄) ⊢ _
      iintro ⟨Hbufs, Hreg, Hnil⟩
      isplitr [Hnil]
      · isplitl [Hbufs]; · iexact Hbufs
        iexact Hreg
      iexact Hnil⟩

/-- The launch's ghost element is the pipelines' own, and no core is dealt anything besides. -/
private theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  rw [BI.bigSep_emp_const]
  refine (show (ownU (initOf (Pipeline.cells cfgs cellOf_inj) (Pipeline.launchToks cfgs cellOf_inj)) : sProp 𝕄)
    ⊢ BI.own (emb₁ (initOf (Pipeline.cells cfgs cellOf_inj) (Pipeline.launchToks cfgs cellOf_inj))) from .rfl).trans ?_
  iintro Hu
  imodintro
  isplitl [Hu]; · iexact Hu
  iempintro

set_option backward.isDefEq.respectTransparency.types false in
theorem run : θ_run defs (onTc (τ := τ) (main (F := F))) ⟨m, fun _ => 0, ρ⟩ (fun r => ∀ c : Dev nD,
      r.2.mem ((c.tc : Thread nD τ).loc main_v21) = W9 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (segs_nodup m ρ)
    (O₀ := 0) (hL := fun _ _ => rfl) (G := fun _ => iprop(emp))
    (u₀ := initOf (Pipeline.cells cfgs cellOf_inj) (Pipeline.launchToks cfgs cellOf_inj))
    (hu₀ := launch_ghost)
    (T₀ := fun c => iprop(StableHlo.held (c : Thread nD τ) (Pipeline.ucRefs τ sig) (W0 m ρ c) ∗ R c)) (Tₙ := Tₙ m ρ)
    (hch := segs_chain m ρ)
    (hinit := by
      -- each core by itself: what the launch deals it holds its unscoped buffers at the launch memory, its
      -- generator register, and its tallies at nothing owed and nothing recorded
      refine Pipeline.initEach L lv fun c => ?_
      rw [Pipeline.unscopedBufs_held c (W0 m ρ c)]
      iintro ⟨⟨Hbufs, -, Hnil, -, Hreg, -⟩, -⟩
      imodintro
      isplitl [Hbufs]; · iexact Hbufs
      isplitl [Hreg]
      · iexists _; iexact Hreg
      iexists ∅; iexact Hnil)
    (QY := fun c s => ∀ b ∈ Pipeline.ucRefs τ sig, s.mem (((c : Thread nD τ)).1, b) = W9 m ρ c b)
    (hfin := fun c s' => by
      -- holding a buffer whole beside the final state says what the state's memory has there
      unfold Tₙ StableHlo.held
      iintro ⟨⟨Hbufs, -⟩, HSI⟩
      imodintro
      iapply (pointsTo_read_all (Pipeline.ucRefs τ sig) (fun b => (((c : Thread nD τ)).1, b)) (W9 m ρ c) s')
      isplitl [Hbufs]; · iexact Hbufs
      iexact HSI)
    (hQ := fun s h c =>
      ⟨h c _ (mem_uc main_v21 (by decide)),
        (h c _ (mem_uc main_arg0 (by decide))).trans (W9_main_arg0 m ρ c),
        (h c _ (mem_uc main_arg1 (by decide))).trans (W9_main_arg1 m ρ c)⟩)

end Cert.KernelIdeal.Hand

end
-- ==== Proof.K.Dat0.lean ====
/- The pooling region's proof data. At grid point (b, d) the kernel reads the depth slab
   x[b, :, 4d .. 4d+3, :, :] of each input and the 64 x 16 averaging matrix, and leaves in each
   output window's buffer the slab's pooled block: the mean over the four depth slices, then the
   lane axis contracted against the averaging matrix, the two trailing axes swapped, and the lane
   axis contracted again. What the body leaves is stated as that payload of the input blocks. -/
import proofs.«166016_j61263413510182_1_alg».proof.Proof.Gen.Kernel.Launch
import proofs.«166016_j61263413510182_1_alg».proof.Proof.Gen.Kernel.Skeleton
import proofs.«166016_j61263413510182_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The pooled block of the first input's slab. -/
def pool0_3 (c : Dev nD) (t : Fin cfg0.N) : Vec F S1x32x1x16x16 .f32 :=
  k0_pay2 (iblk0 V c 2 t) (iblk0 V c 0 t)

/-- The pooled block of the second input's slab. -/
def pool0_4 (c : Dev nD) (t : Fin cfg0.N) : Vec F S1x32x1x16x16 .f32 :=
  k0_pay1 (k0_pay3 (iblk0 V c 2 t) (iblk0 V c 1 t))

/-- The proof data of the pooling region on core `c`: the arrays as the region finds them; after the body
    each input window's buffer at its block and each output window's at the pooled block; the scoped rest and
    the generator register ride along; nothing is owed; every array is held whole. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => pool0_3 V c t
    | ⟨4, _⟩ => pool0_4 V c t
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = pool0_3 V c t := by dsimp only [dat0]
theorem after0_4 (c : Dev nD) (t : Fin cfg0.N) : (dat0 V c).after 4 t = pool0_4 V c t := by dsimp only [dat0]

end Region0

end Cert.Kernel.Hand

end
-- ==== Proof.K.Dat1.lean ====
/- The pairwise-difference region's proof data. The grid is 8 x 8 tiles of 1024 rows; at point
   (i, j) the kernel reads row tile i and row tile j of each normalised matrix, forms the two
   1024 x 1024 products of rows, and adds the sum of the squared differences to an accumulator
   that it resets when j = 0; the accumulator is copied to the output block of row tile i at every
   point, and that block is written back when j = 7. The accumulator lives in a scratch buffer
   across points, so the invariant between points says what it holds. -/
import proofs.«166016_j61263413510182_1_alg».proof.Proof.Gen.Kernel.Launch
import proofs.«166016_j61263413510182_1_alg».proof.Proof.Gen.Kernel.Skeleton
import proofs.«166016_j61263413510182_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- One point's step of the accumulator: the tile's sum of squared differences added to `prev`, on all 128 lanes. -/
def step1 (c : Dev nD) (t : Fin cfg1.N) (prev : Vec F S1x1x128 .f32) : Vec F S1x1x128 .f32 :=
  k1_pay2 (iblk1 V c 0 t) (iblk1 V c 1 t) (iblk1 V c 2 t) (iblk1 V c 3 t) prev

/-- The accumulator after the body at point `n`: started from zero at the first column tile of a row tile,
    else continued from what the point before left. -/
def acc1 (c : Dev nD) : (n : ℕ) → n < cfg1.N → Vec F S1x1x128 .f32
  | 0, hn => step1 V c ⟨0, hn⟩ (k1_pay1 (F := F))
  | n + 1, hn => step1 V c ⟨n + 1, hn⟩ (if (n + 1) % 8 = 0 then k1_pay1 (F := F) else acc1 c n (Nat.lt_of_succ_lt hn))

theorem acc1_reset (c : Dev nD) (t : Fin cfg1.N) (h : t.val % 8 = 0) :
    acc1 V c t.val t.isLt = step1 V c t (k1_pay1 (F := F)) := by
  obtain ⟨n, hn⟩ := t
  cases n with
  | zero => rfl
  | succ n => show step1 V c ⟨n + 1, hn⟩ (if (n + 1) % 8 = 0 then _ else _) = _; rw [if_pos h]

theorem acc1_cont (c : Dev nD) (n : ℕ) (hn : n + 1 < cfg1.N) (h : (n + 1) % 8 ≠ 0) :
    acc1 V c (n + 1) hn = step1 V c ⟨n + 1, hn⟩ (acc1 V c n (Nat.lt_of_succ_lt hn)) := by
  show step1 V c ⟨n + 1, hn⟩ (if (n + 1) % 8 = 0 then _ else _) = _; rw [if_neg h]

/-- The accumulator's scratch buffer, whole. -/
abbrev scr1 : Memref sig .tc .vmem S1x1x128 .f32 := Memref.whole cc1_scratch0

/-- The core's scoped buffers that are neither a staging buffer of this region nor its scratch, each whole at some contents. -/
def idle1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc0_stg3_1), ((c : Thread nD τ).loc cc0_stg3_1) ↦{fullShare} f) ∗ (∃ f : Buf (Elt F) ((c : Thread nD τ).loc cc0_stg4_0), ((c : Thread nD τ).loc cc0_stg4_0) ↦{fullShare} f) ∗ (∃ f : Buf (Elt F) ((c : Thread nD τ).loc cc0_stg4_1), ((c : Thread nD τ).loc cc0_stg4_1) ↦{fullShare} f))

/-- The invariant before point `t`: the idle scoped buffers and the generator register ride along, and the
    scratch holds some contents which, unless the point is the first column tile of a row tile (where the
    body resets it), are what the point before left. -/
def Φ1 (c : Dev nD) (t : Fin (cfg1.N + 1)) : sProp 𝕄 :=
  iprop(idle1 (F := F) c
    ∗ (∃ X : Vec F S1x1x128 .f32, owns (c : Thread nD τ) scr1 fullShare X
        ∗ ⌜∀ (n : ℕ) (hn : n < cfg1.N), t.val = n + 1 → (n + 1) % 8 ≠ 0 → X = acc1 V c n hn⌝)
    ∗ ∃ r, prngReg c r)

/-- The proof data of the region on core `c`: the arrays as the region finds them; after the body each input
    window's buffer at its block and the output window's at the accumulator; the invariant `Φ1`; each of the two
    normalised matrices, read through two windows, held half by each; nothing owed. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => acc1 V c t.val t.isLt
  Φ t := Φ1 V c t
  q w := match w with
    | ⟨0, _⟩ => fullShare.left
    | ⟨1, _⟩ => fullShare.right
    | ⟨2, _⟩ => fullShare.left
    | ⟨3, _⟩ => fullShare.right
    | ⟨4, _⟩ => fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = acc1 V c t.val t.isLt := by dsimp only [dat1]
theorem Φ_eq1 (c : Dev nD) (t : Fin (cfg1.N + 1)) : (dat1 V c).Φ t = Φ1 V c t := by dsimp only [dat1]

end Region1

end Cert.Kernel.Hand

end
-- ==== Proof.K.Fold.lean ====
/- The contents of the core's buffers at each boundary between the items of the program: the launch
   memory, then each host stretch applied, and after each kernel region its arrays at what the
   region's write-backs leave. The program's result and its argument arrays are read off the last
   of these. -/
import proofs.«166016_j61263413510182_1_alg».proof.Proof.K.Dat0
import proofs.«166016_j61263413510182_1_alg».proof.Proof.K.Dat1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch. -/
abbrev W0 : Dev nD → Valuation τ sig (Elt F) := fun c b => (s₀ m ρ).mem ((c : Dev nD), b)
/-- After the averaging matrix's constant (the pooling region's entry). -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- At the pooling region's exit: its arrays at what the pipeline leaves, every other buffer as entered. -/
def W2 (c : Dev nD) : Valuation τ sig (Elt F) :=
  Pipeline.withArrays spec0 c (W1 m ρ c) fun w => (dat0 (V1 m ρ) c).arrAt w cfg0.N
abbrev V2 : (c : Dev nD) → (b : Ref sig .tc) → Buf (Elt F) ((c : Thread nD τ).loc b) := fun c b => W2 m ρ c b
/-- After the rows are laid out, -/
abbrev W3 : Dev nD → Valuation τ sig (Elt F) := fun c => StableHlo.after hostOps1 (W2 m ρ c)
/-- the first matrix's row norms taken, -/
abbrev W4 : Dev nD → Valuation τ sig (Elt F) := fun c => StableHlo.after hostOps1_1 (W3 m ρ c)
/-- its rows normalised, -/
abbrev W5 : Dev nD → Valuation τ sig (Elt F) := fun c => StableHlo.after hostOps1_2 (W4 m ρ c)
/-- the second matrix's row norms taken, -/
abbrev W6 : Dev nD → Valuation τ sig (Elt F) := fun c => StableHlo.after hostOps1_3 (W5 m ρ c)
/-- and its rows normalised (the pairwise-difference region's entry). -/
abbrev W7 : Dev nD → Valuation τ sig (Elt F) := fun c => StableHlo.after hostOps1_4 (W6 m ρ c)
abbrev V7 : (c : Dev nD) → (b : Ref sig .tc) → Buf (Elt F) ((c : Thread nD τ).loc b) := fun c b => W7 m ρ c b
/-- At the pairwise-difference region's exit: its one output array at what the write-backs leave, every other
    buffer (its four input windows' two arrays among them) as entered. -/
def W8 (c : Dev nD) : Valuation τ sig (Elt F) :=
  Function.update (W7 m ρ c) (Proc.devRef .tc main_v17) ((dat1 (V7 m ρ) c).arrAt 4 cfg1.N)
abbrev V8 : (c : Dev nD) → (b : Ref sig .tc) → Buf (Elt F) ((c : Thread nD τ).loc b) := fun c b => W8 m ρ c b
/-- After the partial sums are added up and divided (the return). -/
abbrev W9 : Dev nD → Valuation τ sig (Elt F) := fun c => StableHlo.after hostOps2 (W8 m ρ c)

/-- No pipeline has a prefetched table. -/
abbrev adm : (p : Fin 2) → (pcfgs (F := F) p).Adm := fun p => (cfgs p).toPCfg_adm

/-- Each pipeline's proof data at its region's entry contents. -/
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V7 m ρ) c

abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every item: the core's generator register at some state, and nothing owed. -/
abbrev R (c : Dev nD) : sProp 𝕄 := iprop((∃ r, prngReg c r) ∗ ∃ W, owes (c : Thread nD τ) (0 : CellTallies nD τ sig Unit) W)
/-- A host stretch as an item of the run: over the unscoped buffers from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
/-- An unscoped buffer of the core is among those the run's thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

end Cert.Kernel.Hand

end
-- ==== Proof.K.Body0.lean ====
/- The pooling kernel's body meets its proof data at every grid point. -/
import proofs.«166016_j61263413510182_1_alg».proof.Proof.K.Dat0
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## What the input windows' buffers hold when the body is called

Each input window is whole (never cut) and live at every point, and the body leaves its block in place. A window
fetched at a point holds the block fetched there; one not fetched there has not moved since the point before, whose
block is then this point's. The averaging matrix is fetched once, at the first point, and its block index is
constant, so the second case covers every later point. -/

/-- The first volume's depth slab is in its buffer at every point. -/
theorem pool_slab0_held (c : Dev nD) (t : Fin cfg0.N) (d) : (dat0 V c).before 0 t d = iblk0 V c 0 t :=
  ((dat0 V c).before_in_eq_fetched 0 rfl (fun _ => rfl) (fun _ _ _ => rfl)
      (fun t => by rw [after0_0]; unfold Dat.blockOf iblk0; rw [A_eq0]; try rfl) t d).trans
    (by unfold Dat.fetched Dat.blockOf iblk0; rw [A_eq0]; try rfl)

/-- The second volume's depth slab is in its buffer at every point. -/
theorem pool_slab1_held (c : Dev nD) (t : Fin cfg0.N) (d) : (dat0 V c).before 1 t d = iblk0 V c 1 t :=
  ((dat0 V c).before_in_eq_fetched 1 rfl (fun _ => rfl) (fun _ _ _ => rfl)
      (fun t => by rw [after0_1]; unfold Dat.blockOf iblk0; rw [A_eq0]; try rfl) t d).trans
    (by unfold Dat.fetched Dat.blockOf iblk0; rw [A_eq0]; try rfl)

/-- The averaging matrix is in its buffer at every point, though only the first point fetches it. -/
theorem pool_avg_held (c : Dev nD) (t : Fin cfg0.N) (d) : (dat0 V c).before 2 t d = iblk0 V c 2 t :=
  ((dat0 V c).before_in_eq_fetched 2 rfl (fun _ => rfl) (fun _ _ _ => rfl)
      (fun t => by rw [after0_2]; unfold Dat.blockOf iblk0; rw [A_eq0]; try rfl) t d).trans
    (by unfold Dat.fetched Dat.blockOf iblk0; rw [A_eq0]; try rfl)

/-! ## The body on whole buffers

Every access of the body is through the rectangle that starts at the origin and has the buffer's own extents: a load
through it reads the whole contents, and the one store into each output buffer overwrites all of it, so what the
buffer held before (and what the dead load of it read) does not matter. -/

/-- The origin of a rank-two buffer. -/
theorem pool_origin2 : (![0, 0] : Fin 2 → Nat) = fun _ => 0 := funext fun a => by fin_cases a <;> rfl
/-- The origin of a rank-five buffer. -/
theorem pool_origin5 : (![0, 0, 0, 0, 0] : Fin 5 → Nat) = fun _ => 0 := funext fun a => by fin_cases a <;> rfl

/-- A store of a whole pooled block covers the output buffer. -/
theorem pool_store_covers (w : Vec F S1x32x1x16x16 .f32) (y : S1x32x1x16x16.Idx) :
    ∃ pc ∈ ([⟨Rect.unit (s := S1x32x1x16x16) ![0, 0, 0, 0, 0] S1x32x1x16x16.size inb_S1x32x1x16x16_S1x32x1x16x16_0_0_0_0_0, w⟩] :
        List (View.Piece (Elt F) S1x32x1x16x16 .f32)), y ∈ pc.1.set :=
  ⟨_, List.mem_singleton_self _,
    View.mem_set_unit_zero (S := S1x32x1x16x16) pool_origin5 inb_S1x32x1x16x16_S1x32x1x16x16_0_0_0_0_0 y⟩

set_option maxHeartbeats 1000000 in
/-- The pooling body on whole buffers: with the two slabs `x0`, `x1` and the averaging matrix `a` in the input
    buffers and anything in the output buffers, it returns with the inputs as they were, the first output buffer at the
    pooled block of `x0` and the second at the pooled block of `x1`. The first block is computed and stored inside the
    body's first part, which also computes the second block and hands it back to be stored after it. -/
theorem pool_kernel_run (c : Dev nD) (E : Set ℕ) (i : grid0.Coords)
    (arg2 : Memref sig .tc .vmem S1x32x4x64x64 .f32) (harg2 : arg2.IsWhole)
    (arg3 : Memref sig .tc .vmem S1x32x4x64x64 .f32) (harg3 : arg3.IsWhole)
    (arg4 : Memref sig .tc .vmem S64x16 .f32) (harg4 : arg4.IsWhole)
    (arg5 : Memref sig .tc .vmem S1x32x1x16x16 .f32) (harg5 : arg5.IsWhole)
    (arg6 : Memref sig .tc .vmem S1x32x1x16x16 .f32) (harg6 : arg6.IsWhole)
    (x0 x1 : Vec F S1x32x4x64x64 .f32) (a : Vec F S64x16 .f32) (K : PUnit → sProp 𝕄) :
    iprop(owns (c : Thread nD τ) arg2 fullShare x0 ∗ owns (c : Thread nD τ) arg3 fullShare x1
        ∗ owns (c : Thread nD τ) arg4 fullShare a
        ∗ (∃ d, owns (c : Thread nD τ) arg5 fullShare d) ∗ (∃ d, owns (c : Thread nD τ) arg6 fullShare d)
        ∗ (iprop(owns (c : Thread nD τ) arg2 fullShare x0 ∗ owns (c : Thread nD τ) arg3 fullShare x1
            ∗ owns (c : Thread nD τ) arg4 fullShare a
            ∗ owns (c : Thread nD τ) arg5 fullShare (k0_pay2 a x0)
            ∗ owns (c : Thread nD τ) arg6 fullShare (k0_pay1 (k0_pay3 a x1))) -∗ K ⟨⟩))
      ⊢ wp frame (wpE (defs₀ (F := F)) Variants.none c none) E
          (cc0__pool_kernel i arg2 harg2 arg3 harg3 arg4 harg4 arg5 harg5 arg6 harg6) K := by
  unfold owns
  iintro ⟨⟨%f0, %hf0, H0⟩, ⟨%f1, %hf1, H1⟩, ⟨%f2, %hf2, H2⟩, ⟨%d3, %f3, -, H3⟩, ⟨%d4, %f4, -, H4⟩, Hk⟩
  subst hf0 hf1 hf2
  sl_unfold [cc0__pool_kernel]
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists _; isplitr
    swap; · iexact H3
    ipureintro
    rw [View.read_writes_eq_canon _ _ _ (pool_store_covers _), View.canon_unit_zero pool_origin5]
    simp only [View.readAt_eq_ld, View.ld_unit_zero (S := S64x16) pool_origin2,
      View.ld_unit_zero (S := S1x32x4x64x64) pool_origin5]
  iexists _; isplitr
  swap; · iexact H4
  ipureintro
  rw [View.read_writes_eq_canon _ _ _ (pool_store_covers _), View.canon_unit_zero pool_origin5]
  sl_unfold_words
  simp only [View.readAt_eq_ld, View.ld_unit_zero (S := S64x16) pool_origin2,
    View.ld_unit_zero (S := S1x32x4x64x64) pool_origin5]

/-! ## The obligation at a grid point -/

/-- What the body is called with at point `t`: the invariant, the core's debts, and the five windows' current buffers. -/
def poolPre (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- What it returns: the same, each buffer at what the proof data say the body leaves. -/
def poolPost (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- At any point the input buffers hold their blocks, so the run on whole buffers applies with the slabs and the
    matrix read off the arrays; the invariant and the debts are not touched. -/
theorem pool_body_at (c : Dev nD) (t : Fin cfg0.N) :
    poolPre V c t ⊢ wp frame (wpE (defs₀ (F := F)) Variants.none c none) Set.univ (bodyAt0 t) (fun _ => poolPost V c t) := by
  unfold poolPre poolPost bodyAt0
  simp only [pool_slab0_held, pool_slab1_held, pool_avg_held]
  rw [show (dat0 V c).Φ t.succ = (dat0 V c).Φ t.castSucc from rfl,
    show (dat0 V c).owesAt () t.succ = (dat0 V c).owesAt () t.castSucc from rfl,
    after0_0, after0_1, after0_2, after0_3, after0_4]
  unfold pool0_3 pool0_4
  iintro ⟨HΦ, Ho, ⟨%d0, H0⟩, ⟨%d1, H1⟩, ⟨%d2, H2⟩, ⟨%d3, H3⟩, ⟨%d4, H4⟩⟩
  iapply (pool_kernel_run c Set.univ _ _ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- At every point the body, handed each input window's buffer at its block, leaves each output window's buffer
    at the pooled block of the inputs. -/
theorem body_obligation0 (c : Dev nD) : BodyObligation (dat0 (F := F) V c) (defs₀ (F := F)) Variants.none () Set.univ := fun t => by
  rw [bigSep_W0, bigSep_W0]
  exact pool_body_at V c t

end Cert.Kernel.Hand

end
-- ==== Proof.K.Body1.lean ====
/- The pairwise-difference kernel's body meets its proof data at every grid point. -/
import proofs.«166016_j61263413510182_1_alg».proof.Proof.K.Dat1
import Idealize.ShloMosaic.Lib.Pipeline.Value

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The reset condition

The body's one conditional asks whether grid coordinate 1, the column tile `j`, is zero. Over the 8 x 8 grid in
row-major order point `t` has `j = t mod 8`. -/

/-- The conditional's guard as the body computes it from the coordinates: `j = 0` as a one-bit word, widened,
    compared with zero again. -/
abbrev mseFirstCol (i : grid1.Coords) : Prop :=
  (Scalar.cmpi .ne (Scalar.extui (Scalar.cmpi .eq (BitVec.ofNat 32 (i 1).val) 0#32)) 0#32) = 1#1

/-- The guard holds exactly at the points whose column tile is the first: a finite check over the 64 points. -/
theorem mseFirstCol_iff : ∀ t : Fin cfg1.N, mseFirstCol (grid1.coords t) ↔ t.val % 8 = 0 :=
  (by decide +kernel : ∀ t : Fin grid1.N, mseFirstCol (grid1.coords t) ↔ t.val % 8 = 0)

/-! ## Whole-buffer accesses

Every load and store of the body is through the rectangle at offset zero with the buffer's full extents, so a load
reads the buffer's contents as they are and a store replaces them all. -/

theorem mse_zero3 : (![0, 0, 0] : Fin 3 → Nat) = fun _ => 0 := funext fun a => by fin_cases a <;> rfl
theorem mse_zero2 : (![0, 0] : Fin 2 → Nat) = fun _ => 0 := funext fun a => by fin_cases a <;> rfl

/-- A list of writes to a 1 x 1 x 128 buffer whose latest write is a whole-buffer store covers every index. -/
theorem mse_store_covers (w : Vec F S1x1x128 .f32) (L : List (View.Piece (Elt F) S1x1x128 .f32)) (y : S1x1x128.Idx) :
    ∃ p ∈ (⟨Rect.unit ![0, 0, 0] S1x1x128.size inb_S1x1x128_S1x1x128_0_0_0, w⟩ : View.Piece (Elt F) S1x1x128 .f32) :: L,
      y ∈ p.1.set :=
  ⟨_, List.mem_cons_self, View.mem_set_unit_zero mse_zero3 inb_S1x1x128_S1x1x128_0_0_0 y⟩

/-! ## The body on any whole buffers

Stated over arbitrary whole memrefs `a0 … a3` (the row tiles), `o` (the output block's buffer) and `s` (the
accumulator's scratch), holding `x0 … x3`, anything, and the scratch's entry contents. Both cases end with `o` and
`s` at `k1_pay2 x0 x1 x2 x3 prev`, where `prev` is what the accumulation started from. -/

set_option maxHeartbeats 1000000 in
/-- First column tile: the scratch is overwritten with zeros before it is read, so whatever it held on entry is
    forgotten and the accumulation starts from `k1_pay1`. The scratch then carries two whole-buffer writes, of which
    the later decides its contents; the value copied to `o` is a read of the scratch after both. -/
theorem mseRun_reset (c : Dev nD) (i : grid1.Coords)
    (a0 : Memref sig .tc .vmem S1024x32 .f32) (h0 : a0.IsWhole) (a1 : Memref sig .tc .vmem S1024x32 .f32) (h1 : a1.IsWhole)
    (a2 : Memref sig .tc .vmem S1024x32 .f32) (h2 : a2.IsWhole) (a3 : Memref sig .tc .vmem S1024x32 .f32) (h3 : a3.IsWhole)
    (o : Memref sig .tc .vmem S1x1x128 .f32) (ho : o.IsWhole) (s : Memref sig .tc .vmem S1x1x128 .f32) (hs : s.IsWhole)
    (hc : mseFirstCol i) (x0 x1 x2 x3 : Vec F S1024x32 .f32) (E : Set ℕ) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) o fullShare d) ∗ (∃ X, owns (c : Thread nD τ) s fullShare X)
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) o fullShare (k1_pay2 x0 x1 x2 x3 (k1_pay1 (F := F)))
            ∗ owns (c : Thread nD τ) s fullShare (k1_pay2 x0 x1 x2 x3 (k1_pay1 (F := F)))) -∗ K ⟨⟩))
      ⊢ wp frame (wpE (defs₀ (F := F)) Variants.none c none) E
          (cc1__mse_kernel i a0 h0 a1 h1 a2 h2 a3 h3 o ho s hs) K := by
  simp only [cc1__mse_kernel_eq_skeleton]; unfold cc1__mse_kernel_skel
  unfold owns
  iintro ⟨⟨%f0, %hf0, H0⟩, ⟨%f1, %hf1, H1⟩, ⟨%f2, %hf2, H2⟩, ⟨%f3, %hf3, H3⟩, ⟨%d4, %f4, -, H4⟩, ⟨%X5, %f5, -, H5⟩, Hk⟩
  obtain rfl := h0.eq_unread hf0; obtain rfl := h1.eq_unread hf1
  obtain rfl := h2.eq_unread hf2; obtain rfl := h3.eq_unread hf3
  sl_exec (disch := first | exact hc)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr
    swap; · iexact H4
    ipureintro
    -- the output buffer's one write is the scratch read back after the zero store and the update
    rw [View.read_writes_eq_canon _ _ _ (mse_store_covers _ _)]
    rw [View.canon_unit_zero mse_zero3]
    sl_unfold_words
    rw [View.readCov_eq_canon_ld _ _ _ (mse_store_covers _ _)]
    rw [View.canon_cons_unit_zero (S := S1x1x128) mse_zero3, View.readCov_unit_zero (S := S1x1x128) _ mse_zero3]
    simp only [View.readAt_eq_ld, h0.read_unread, h1.read_unread, h2.read_unread, h3.read_unread,
      View.ld_unit_zero (S := S1024x32) mse_zero2, View.ld_unit_zero (S := S1x1x128) mse_zero3]
  · iexists _; isplitr
    swap; · iexact H5
    ipureintro
    -- the scratch: the update, whose fifth operand is a read of the zeros just stored, over the zero store
    sl_unfold_words
    rw [View.read_writes_eq_canon _ _ _ (mse_store_covers _ _)]
    rw [View.canon_cons_unit_zero (S := S1x1x128) mse_zero3, View.readCov_unit_zero (S := S1x1x128) _ mse_zero3]
    simp only [View.readAt_eq_ld, h0.read_unread, h1.read_unread, h2.read_unread, h3.read_unread,
      View.ld_unit_zero (S := S1024x32) mse_zero2]

set_option maxHeartbeats 1000000 in
/-- Any other column tile: the conditional is skipped, the scratch is read as it was found, `prev`, and updated
    once; the value copied to `o` is a read of the scratch after that one write. -/
theorem mseRun_cont (c : Dev nD) (i : grid1.Coords)
    (a0 : Memref sig .tc .vmem S1024x32 .f32) (h0 : a0.IsWhole) (a1 : Memref sig .tc .vmem S1024x32 .f32) (h1 : a1.IsWhole)
    (a2 : Memref sig .tc .vmem S1024x32 .f32) (h2 : a2.IsWhole) (a3 : Memref sig .tc .vmem S1024x32 .f32) (h3 : a3.IsWhole)
    (o : Memref sig .tc .vmem S1x1x128 .f32) (ho : o.IsWhole) (s : Memref sig .tc .vmem S1x1x128 .f32) (hs : s.IsWhole)
    (hc : ¬mseFirstCol i) (x0 x1 x2 x3 : Vec F S1024x32 .f32) (prev : Vec F S1x1x128 .f32) (E : Set ℕ) (K : PUnit → sProp 𝕄) :
    iprop(owns (c : Thread nD τ) a0 fullShare x0 ∗ owns (c : Thread nD τ) a1 fullShare x1
        ∗ owns (c : Thread nD τ) a2 fullShare x2 ∗ owns (c : Thread nD τ) a3 fullShare x3
        ∗ (∃ d, owns (c : Thread nD τ) o fullShare d) ∗ owns (c : Thread nD τ) s fullShare prev
        ∗ (iprop(owns (c : Thread nD τ) a0 fullShare x0 ∗ owns (c : Thread nD τ) a1 fullShare x1
            ∗ owns (c : Thread nD τ) a2 fullShare x2 ∗ owns (c : Thread nD τ) a3 fullShare x3
            ∗ owns (c : Thread nD τ) o fullShare (k1_pay2 x0 x1 x2 x3 prev)
            ∗ owns (c : Thread nD τ) s fullShare (k1_pay2 x0 x1 x2 x3 prev)) -∗ K ⟨⟩))
      ⊢ wp frame (wpE (defs₀ (F := F)) Variants.none c none) E
          (cc1__mse_kernel i a0 h0 a1 h1 a2 h2 a3 h3 o ho s hs) K := by
  simp only [cc1__mse_kernel_eq_skeleton]; unfold cc1__mse_kernel_skel
  unfold owns
  iintro ⟨⟨%f0, %hf0, H0⟩, ⟨%f1, %hf1, H1⟩, ⟨%f2, %hf2, H2⟩, ⟨%f3, %hf3, H3⟩, ⟨%d4, %f4, -, H4⟩, ⟨%f5, %hf5, H5⟩, Hk⟩
  obtain rfl := h0.eq_unread hf0; obtain rfl := h1.eq_unread hf1
  obtain rfl := h2.eq_unread hf2; obtain rfl := h3.eq_unread hf3
  obtain rfl := hs.eq_unread hf5
  sl_exec (disch := first | exact hc)
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  isplitl [H4]
  · iexists _; isplitr
    swap; · iexact H4
    ipureintro
    rw [View.read_writes_eq_canon _ _ _ (mse_store_covers _ _)]
    rw [View.canon_unit_zero mse_zero3]
    sl_unfold_words
    rw [View.readCov_unit_zero (S := S1x1x128) _ mse_zero3]
    simp only [View.readAt_eq_ld, h0.read_unread, h1.read_unread, h2.read_unread, h3.read_unread, hs.read_unread,
      View.ld_unit_zero (S := S1024x32) mse_zero2, View.ld_unit_zero (S := S1x1x128) mse_zero3]
  · iexists _; isplitr
    swap; · iexact H5
    ipureintro
    sl_unfold_words
    rw [View.read_writes_eq_canon _ _ _ (mse_store_covers _ _)]
    rw [View.canon_unit_zero mse_zero3]
    simp only [View.readAt_eq_ld, h0.read_unread, h1.read_unread, h2.read_unread, h3.read_unread, hs.read_unread,
      View.ld_unit_zero (S := S1024x32) mse_zero2, View.ld_unit_zero (S := S1x1x128) mse_zero3]

/-! ## What the body finds at a point -/

/-- Each window's current buffer at point `t`, and that it is a whole buffer. -/
abbrev mseBuf0 (t : Fin cfg1.N) : Memref sig .tc .vmem S1024x32 .f32 := win1_0.stage (cfg1.slots t 0)
abbrev mseBuf0_whole (t : Fin cfg1.N) : (mseBuf0 t).IsWhole := hstage1_0 ((cfg1.slots t 0).cast nbuf1_0)
abbrev mseBuf1 (t : Fin cfg1.N) : Memref sig .tc .vmem S1024x32 .f32 := win1_1.stage (cfg1.slots t 1)
abbrev mseBuf1_whole (t : Fin cfg1.N) : (mseBuf1 t).IsWhole := hstage1_1 ((cfg1.slots t 1).cast nbuf1_1)
abbrev mseBuf2 (t : Fin cfg1.N) : Memref sig .tc .vmem S1024x32 .f32 := win1_2.stage (cfg1.slots t 2)
abbrev mseBuf2_whole (t : Fin cfg1.N) : (mseBuf2 t).IsWhole := hstage1_2 ((cfg1.slots t 2).cast nbuf1_2)
abbrev mseBuf3 (t : Fin cfg1.N) : Memref sig .tc .vmem S1024x32 .f32 := win1_3.stage (cfg1.slots t 3)
abbrev mseBuf3_whole (t : Fin cfg1.N) : (mseBuf3 t).IsWhole := hstage1_3 ((cfg1.slots t 3).cast nbuf1_3)
abbrev mseBuf4 (t : Fin cfg1.N) : Memref sig .tc .vmem S1x1x128 .f32 := win1_4.stage (cfg1.slots t 4)
abbrev mseBuf4_whole (t : Fin cfg1.N) : (mseBuf4 t).IsWhole := hstage1_4 ((cfg1.slots t 4).cast nbuf1_4)

/-- An input window's buffer holds the window's block at every point. Where the block was just fetched that is
    what a fetch delivers; where it was not (windows 0 and 2 at `j ≠ 0`) the block index is the one of the point
    before, and the body left the block in place there. -/
theorem mseFound0 (c : Dev nD) (t : Fin cfg1.N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem mseFound1 (c : Dev nD) (t : Fin cfg1.N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem mseFound2 (c : Dev nD) (t : Fin cfg1.N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)
theorem mseFound3 (c : Dev nD) (t : Fin cfg1.N) (d) : (dat1 V c).before 3 t d = iblk1 V c 3 t :=
  ((dat1 V c).before_in_eq_fetched 3 rfl (fun _ => rfl) (fun _ _ _ => rfl)
      (fun t => by rw [after1_3]; unfold Dat.blockOf iblk1; rw [A_eq1]; try rfl) t d).trans
    (by unfold Dat.fetched Dat.blockOf iblk1; rw [A_eq1]; try rfl)

/-- The accumulator's recursion at a point `t = n + 1` that is not a first column tile: one step from the
    accumulator at `n`. -/
theorem mse_acc1_next (c : Dev nD) (t : Fin cfg1.N) (n : ℕ) (hn : n < cfg1.N) (e : t.val = n + 1) (h : t.val % 8 ≠ 0) :
    acc1 V c t.val t.isLt = step1 V c t (acc1 V c n hn) := by
  obtain ⟨tv, ht⟩ := t
  dsimp only at e h ⊢
  subst e
  exact acc1_cont V c n ht h

/-! ## The obligation at a point -/

/-- What the body is handed at point `t`: the invariant, what the core owes, and the five windows' buffers; -/
def mseBodyPre (c : Dev nD) (t : Fin cfg1.N) : sProp 𝕄 :=
  iprop((dat1 V c).Φ t.castSucc ∗ (dat1 V c).owesAt () t.castSucc
    ∗ (∃ d, owns (c : Thread nD τ) (mseBuf0 t) fullShare ((dat1 V c).before 0 t d))
    ∗ (∃ d, owns (c : Thread nD τ) (mseBuf1 t) fullShare ((dat1 V c).before 1 t d))
    ∗ (∃ d, owns (c : Thread nD τ) (mseBuf2 t) fullShare ((dat1 V c).before 2 t d))
    ∗ (∃ d, owns (c : Thread nD τ) (mseBuf3 t) fullShare ((dat1 V c).before 3 t d))
    ∗ (∃ d, owns (c : Thread nD τ) (mseBuf4 t) fullShare ((dat1 V c).before 4 t d)))

/-- and what it hands back. -/
def mseBodyPost (c : Dev nD) (t : Fin cfg1.N) : sProp 𝕄 :=
  iprop((dat1 V c).Φ t.succ ∗ (dat1 V c).owesAt () t.succ
    ∗ owns (c : Thread nD τ) (mseBuf0 t) fullShare ((dat1 V c).after 0 t)
    ∗ owns (c : Thread nD τ) (mseBuf1 t) fullShare ((dat1 V c).after 1 t)
    ∗ owns (c : Thread nD τ) (mseBuf2 t) fullShare ((dat1 V c).after 2 t)
    ∗ owns (c : Thread nD τ) (mseBuf3 t) fullShare ((dat1 V c).after 3 t)
    ∗ owns (c : Thread nD τ) (mseBuf4 t) fullShare ((dat1 V c).after 4 t))

set_option maxHeartbeats 800000 in
/-- The body at any point. The four input buffers hold their blocks. If `t mod 8 = 0` the scratch's entry contents
    do not matter and the body leaves `step1` of zero, which is the accumulator there. Otherwise `t = n + 1`, the
    invariant says the scratch holds the accumulator at `n`, and the body leaves one step from it, the accumulator
    at `t`. Either way the scratch and the output buffer both end at the accumulator at `t`, which is what the
    invariant before point `t + 1` asks of the scratch (it asks only when `t + 1` is not a first column tile; it
    holds regardless). The idle buffers, the generator register and what the core owes pass through untouched. -/
theorem mseBody_sound (c : Dev nD) (t : Fin cfg1.N) :
    mseBodyPre V c t ⊢ wp frame (wpE (defs₀ (F := F)) Variants.none c none) Set.univ (bodyAt1 t) (fun _ => mseBodyPost V c t) := by
  unfold mseBodyPre mseBodyPost bodyAt1
  simp only [mseFound0, mseFound1, mseFound2, mseFound3]
  rw [show (dat1 V c).owesAt () t.succ = (dat1 V c).owesAt () t.castSucc from rfl,
    after1_0, after1_1, after1_2, after1_3, after1_4, Φ_eq1, Φ_eq1]
  unfold Φ1
  have hN : t.val < 64 := lt_of_lt_of_eq t.isLt (show cfg1.N = 64 from N_1)
  by_cases hj : t.val % 8 = 0
  · have hacc : acc1 V c t.val t.isLt
        = k1_pay2 (iblk1 V c 0 t) (iblk1 V c 1 t) (iblk1 V c 2 t) (iblk1 V c 3 t) (k1_pay1 (F := F)) :=
      acc1_reset V c t hj
    rw [hacc]
    iintro ⟨⟨Hidle, ⟨%X, HX, -⟩, Hr⟩, Ho, ⟨%d0, H0⟩, ⟨%d1, H1⟩, ⟨%d2, H2⟩, ⟨%d3, H3⟩, ⟨%d4, H4⟩⟩
    iapply (mseRun_reset c (grid1.coords t) _ _ _ _ _ _ _ _ _ _ _ _ ((mseFirstCol_iff t).mpr hj)
      (iblk1 V c 0 t) (iblk1 V c 1 t) (iblk1 V c 2 t) (iblk1 V c 3 t) Set.univ _)
    isplitl [H0]; · iexact H0
    isplitl [H1]; · iexact H1
    isplitl [H2]; · iexact H2
    isplitl [H3]; · iexact H3
    isplitl [H4]; · iexists _; iexact H4
    isplitl [HX]; · iexists _; iexact HX
    iintro ⟨H0, H1, H2, H3, H4, HX⟩
    isplitl [Hidle HX Hr]
    · isplitl [Hidle]; · iexact Hidle
      isplitl [HX]
      · iexists _; isplitl [HX]; · iexact HX
        ipureintro
        intro n hn e _
        obtain rfl : n = t.val := by have := Fin.val_succ t; omega
        exact hacc.symm
      iexact Hr
    isplitl [Ho]; · iexact Ho
    isplitl [H0]; · iexact H0
    isplitl [H1]; · iexact H1
    isplitl [H2]; · iexact H2
    isplitl [H3]; · iexact H3
    iexact H4
  · obtain ⟨n, hn⟩ : ∃ n, t.val = n + 1 := ⟨t.val - 1, by omega⟩
    have hnN : n < cfg1.N := by have := t.isLt; omega
    have hacc : acc1 V c t.val t.isLt
        = k1_pay2 (iblk1 V c 0 t) (iblk1 V c 1 t) (iblk1 V c 2 t) (iblk1 V c 3 t) (acc1 V c n hnN) :=
      mse_acc1_next V c t n hnN hn hj
    rw [hacc]
    iintro ⟨⟨Hidle, ⟨%X, HX, %hX⟩, Hr⟩, Ho, ⟨%d0, H0⟩, ⟨%d1, H1⟩, ⟨%d2, H2⟩, ⟨%d3, H3⟩, ⟨%d4, H4⟩⟩
    obtain rfl : X = acc1 V c n hnN := hX n hnN hn (by omega)
    iapply (mseRun_cont c (grid1.coords t) _ _ _ _ _ _ _ _ _ _ _ _ (fun h => hj ((mseFirstCol_iff t).mp h))
      (iblk1 V c 0 t) (iblk1 V c 1 t) (iblk1 V c 2 t) (iblk1 V c 3 t) (acc1 V c n hnN) Set.univ _)
    isplitl [H0]; · iexact H0
    isplitl [H1]; · iexact H1
    isplitl [H2]; · iexact H2
    isplitl [H3]; · iexact H3
    isplitl [H4]; · iexists _; iexact H4
    isplitl [HX]; · iexact HX
    iintro ⟨H0, H1, H2, H3, H4, HX⟩
    isplitl [Hidle HX Hr]
    · isplitl [Hidle]; · iexact Hidle
      isplitl [HX]
      · iexists _; isplitl [HX]; · iexact HX
        ipureintro
        intro n' hn' e _
        obtain rfl : n' = t.val := by have := Fin.val_succ t; omega
        exact hacc.symm
      iexact Hr
    isplitl [Ho]; · iexact Ho
    isplitl [H0]; · iexact H0
    isplitl [H1]; · iexact H1
    isplitl [H2]; · iexact H2
    isplitl [H3]; · iexact H3
    iexact H4

/-- At every point the body, handed the four row tiles and the scratch as the invariant describes it, leaves
    the scratch and the output window's buffer at the accumulator's next value. -/
theorem body_obligation1 (c : Dev nD) : BodyObligation (dat1 (F := F) V c) (defs₀ (F := F)) Variants.none () Set.univ := fun t => by
  rw [bigSep_W1, bigSep_W1]
  exact mseBody_sound V c t

end Cert.Kernel.Hand

end
-- ==== Proof.K.Reg1.lean ====
/- The pairwise-difference region as an item of the run: entered with every unscoped buffer at the contents
   before it, left with them at the contents after it. Each normalised matrix is read through two windows,
   so its buffer's full share is dealt half to each at entry and put together again at exit; the
   accumulator's scratch enters the invariant at whatever it holds and leaves it forgotten. -/
import proofs.«166016_j61263413510182_1_alg».proof.Proof.K.Fold
import proofs.«166016_j61263413510182_1_alg».proof.Proof.K.Body1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

section Region1Frame

variable (V : (c : Dev nD) → (b : Ref sig .tc) → Buf (Elt F) ((c : Thread nD τ).loc b))

/-- A buffer held whole at the full share is held at its two halves, at the same contents; and back. -/
theorem reg1_halves {ℓ : Loc nD τ sig} (f : Buf (Elt F) ℓ) :
    (ℓ ↦{fullShare} f : sProp 𝕄) ⊣⊢ iprop((ℓ ↦{fullShare.left} f) ∗ ℓ ↦{fullShare.right} f) :=
  pointsTo_share (IsOp.posShare_halves fullShare).mem_op

/-- The buffers behind the region's five windows are three: the two normalised matrices and the partial sums. -/
theorem reg1_arrBufs_eq (c : Dev nD) (W : (b : Ref sig .tc) → Buf (Elt F) ((c : Thread nD τ).loc b)) :
    (Pipeline.arrBufs (Ix := Unit) (Name := ℕ) (U := UR sig nD τ) (Lvl := ℕ) spec1 c W : sProp 𝕄)
      = iprop((((c : Thread nD τ).loc main_v11) ↦{fullShare} W main_v11) ∗ (((c : Thread nD τ).loc main_v16) ↦{fullShare} W main_v16)
          ∗ (((c : Thread nD τ).loc main_v17) ↦{fullShare} W main_v17)) :=
  bigSep_eq_bigSepL_of_eq [main_v11, main_v16, main_v17] (by decide) (by decide) _

/-- The region's arrays, window by window: each matrix through two windows at the two halves of its share, the
    partial sums at the full share. -/
theorem reg1_arrays_eq (c : Dev nD) (G : (w : Fin cfg1.W) → Buf (Elt F) ((cfg1.win w).arr.view.loc (c : Thread nD τ))) :
    ((dat1 V c).arrays G : sProp 𝕄)
      = iprop((((c : Thread nD τ).loc main_v11) ↦{fullShare.left} G 0) ∗ (((c : Thread nD τ).loc main_v11) ↦{fullShare.right} G 1)
          ∗ (((c : Thread nD τ).loc main_v16) ↦{fullShare.left} G 2) ∗ (((c : Thread nD τ).loc main_v16) ↦{fullShare.right} G 3)
          ∗ (((c : Thread nD τ).loc main_v17) ↦{fullShare} G 4)) := by
  have h : ((dat1 V c).arrays G : sProp 𝕄)
      = bigSep Finset.univ fun w : Fin 5 => (((c : Thread nD τ).loc (Pipeline.arrRef spec1 w)) ↦{(dat1 V c).share w} G w : sProp 𝕄) := by
    unfold Pipeline.Dat.arrays
    exact bigSep_congr fun w _ => by rw [(arr_whole1 w).set_eq_univ]
  rw [h, Gen.bigSep_W1]
  rfl

end Region1Frame

set_option backward.isDefEq.respectTransparency.types false in
def reg1 : Pipeline.RegionSeg (pcfgs (F := F)) adm (pdats m ρ) () defs₀ 𝒱₀ L lv 1 where
  win := winFacts₀1
  block_pos := block_pos1
  stage_whole := stage_whole1
  K := PEmpty
  osem k := k.elim
  ho := Pipeline.OwnSemFacts.none _
  hbody c := (body_obligation1 (V7 m ρ) c).loose
  hwaits := Pipeline.hwaits_of_owed_zero _ _ _ _ L lv 1 fun _ _ => rfl
  pre c := iprop(StableHlo.held (c : Thread nD τ) (Pipeline.ucRefs τ sig) (W7 m ρ c) ∗ R c)
  post c := iprop(StableHlo.held (c : Thread nD τ) (Pipeline.ucRefs τ sig) (W8 m ρ c) ∗ R c)
  X c := iprop(∃ r, prngReg c r)
  Y c := iprop(∃ r, prngReg c r)
  Z c := Pipeline.unscopedRest (Ix := Unit) (Name := ℕ) (U := UR sig nD τ) (Lvl := ℕ) spec1 c (V7 m ρ c)
  -- Entry: the unscoped buffers are the three behind the windows and the rest; each matrix's full share is halved
  -- between its two windows, the partial sums go whole to the output window, the rest bypasses the region.
  hentry c := by
    have hsplit : (unscopedBufs (Ix := Unit) (Name := ℕ) (U := UR sig nD τ) (Lvl := ℕ) c (V7 m ρ c) : sProp 𝕄)
        = iprop(Pipeline.arrBufs spec1 c (V7 m ρ c) ∗ Pipeline.unscopedRest spec1 c (V7 m ρ c)) :=
      Pipeline.unscopedBufs_split₀ cfgs 1 winFacts₀1.arr_unscoped c (V7 m ρ c)
    rw [Pipeline.unscopedBufs_held, reg1_arrBufs_eq] at hsplit
    rw [Pipeline.ownSems0_none, hsplit, show (pdats m ρ 1 c) = dat1 (V7 m ρ) c from rfl, reg1_arrays_eq]
    iintro ⟨⟨⟨⟨H11, H16, H17⟩, Hrest⟩, Hp, HO⟩, -, -⟩
    ihave H11 := (reg1_halves (V7 m ρ c main_v11)).1 $$ H11
    icases H11 with ⟨H11l, H11r⟩
    ihave H16 := (reg1_halves (V7 m ρ c main_v16)).1 $$ H16
    icases H16 with ⟨H16l, H16r⟩
    imodintro
    isplitl [H11l H11r H16l H16r H17]
    · isplitl [H11l]; · iexact H11l
      isplitl [H11r]; · iexact H11r
      isplitl [H16l]; · iexact H16l
      isplitl [H16r]; · iexact H16r
      iexact H17
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  -- The invariant before the first point: the nine idle staging buffers, the scratch at whatever it holds (no
  -- point precedes the first, so nothing is claimed of it), and the generator register.
  hin c := by
    rw [show (pdats m ρ 1 c).Φ 0 = Φ1 (V7 m ρ) c 0 from rfl,
      show Pipeline.scopedRest (Pipeline.pin (pcfgs (F := F)) adm 1).spec c = Pipeline.scopedRest spec1 c from rfl, Gen.scopedRest1_eq]
    unfold Φ1 idle1
    iintro ⟨Hp, -, H0, H1, H2, H3, H4, H5, H6, H7, H8, Hs⟩
    isplitl [H0 H1 H2 H3 H4 H5 H6 H7 H8]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      iexact H8
    isplitl [Hs]
    · icases Hs with ⟨%f, Hs⟩
      iexists f
      isplitl [Hs]
      · iapply (Entails.of_eq (owns_whole (c : Thread nD τ) cc1_scratch0 fullShare f).symm); iexact Hs
      · ipureintro; intro n hn h; exact absurd h (Nat.succ_ne_zero n).symm
    iexact Hp
  -- The invariant after the last point gives the same buffers back, what the scratch holds forgotten.
  hout c := by
    rw [Pipeline.ownSems0_none, show (pdats m ρ 1 c).Φ (Fin.last _) = Φ1 (V7 m ρ) c (Fin.last _) from rfl,
      show Pipeline.scopedRest (Pipeline.pin (pcfgs (F := F)) adm 1).spec c = Pipeline.scopedRest spec1 c from rfl, Gen.scopedRest1_eq]
    unfold Φ1 idle1
    iintro ⟨⟨H0, H1, H2, H3, H4, H5, H6, H7, H8⟩, ⟨%X, Hs, -⟩, Hp⟩
    isplitl [Hp]; · iexact Hp
    isplitr; · iempintro
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexists X
    iapply (Entails.of_eq (owns_whole (c : Thread nD τ) cc1_scratch0 fullShare X)); iexact Hs
  -- Exit: the input windows' arrays are as entered and the two halves of each matrix join to its full share; the
  -- partial sums are what the contents after the region hold at that buffer, and no other buffer has changed.
  hexit c := by
    have h11 : V8 m ρ c main_v11 = V7 m ρ c main_v11 :=
      Function.update_of_ne (StableHlo.devRef_ne_of_ne (by decide)) ..
    have h16 : V8 m ρ c main_v16 = V7 m ρ c main_v16 :=
      Function.update_of_ne (StableHlo.devRef_ne_of_ne (by decide)) ..
    have h17 : V8 m ρ c main_v17 = (dat1 (V7 m ρ) c).arrAt 4 cfg1.N := Function.update_self ..
    have hrest : (Pipeline.unscopedRest (Ix := Unit) (Name := ℕ) (U := UR sig nD τ) (Lvl := ℕ) spec1 c (V8 m ρ c) : sProp 𝕄)
        = Pipeline.unscopedRest spec1 c (V7 m ρ c) := by
      unfold Pipeline.unscopedRest
      refine bigSep_congr fun b hb => ?_
      have hb' : b ≠ main_v17 := fun h => (Finset.mem_sdiff.mp hb).2 (h ▸ Finset.mem_image.mpr ⟨4, Finset.mem_univ _, rfl⟩)
      rw [show V8 m ρ c b = V7 m ρ c b from Function.update_of_ne (StableHlo.devRef_ne_of_ne hb') ..]
    have hsplit : (unscopedBufs (Ix := Unit) (Name := ℕ) (U := UR sig nD τ) (Lvl := ℕ) c (V8 m ρ c) : sProp 𝕄)
        = iprop(Pipeline.arrBufs spec1 c (V8 m ρ c) ∗ Pipeline.unscopedRest spec1 c (V8 m ρ c)) :=
      Pipeline.unscopedBufs_split₀ cfgs 1 winFacts₀1.arr_unscoped c (V8 m ρ c)
    rw [Pipeline.unscopedBufs_held, reg1_arrBufs_eq, hrest, h11, h16, h17] at hsplit
    rw [hsplit, show (pdats m ρ 1 c) = dat1 (V7 m ρ) c from rfl, reg1_arrays_eq,
      (dat1 (V7 m ρ) c).arrAt_in 0 rfl, (dat1 (V7 m ρ) c).arrAt_in 1 rfl, (dat1 (V7 m ρ) c).arrAt_in 2 rfl, (dat1 (V7 m ρ) c).arrAt_in 3 rfl]
    iintro ⟨⟨H11l, H11r, H16l, H16r, H17⟩, HO, HY, Hrest⟩
    imodintro
    isplitl [H11l H11r H16l H16r H17 Hrest]
    · isplitl [H11l H11r H16l H16r H17]
      · isplitl [H11l H11r]
        · iapply (reg1_halves (V7 m ρ c main_v11)).2; isplitl [H11l]; · iexact H11l
          iexact H11r
        isplitl [H16l H16r]
        · iapply (reg1_halves (V7 m ρ c main_v16)).2; isplitl [H16l]; · iexact H16l
          iexact H16r
        iexact H17
      iexact Hrest
    isplitl [HY]; · iexact HY
    unfold Pipeline.Dat.owesAt Pipeline.owesWithin
    icases HO with ⟨%W, -, HO⟩; iexists W; iexact HO

end Cert.Kernel.Hand

end
-- ==== Proof.K.Run.lean ====
/- The program's run: every weakly fair execution ends, nothing faulting, with the result buffer at the
   last boundary's contents and the two argument arrays as launched. -/
import proofs.«166016_j61263413510182_1_alg».proof.Proof.K.Fold
import proofs.«166016_j61263413510182_1_alg».proof.Proof.K.Body0
import proofs.«166016_j61263413510182_1_alg».proof.Proof.K.Body1
import proofs.«166016_j61263413510182_1_alg».proof.Proof.K.Reg1
import proofs.«166016_j61263413510182_1_alg».proof.Proof.Gen.Kernel.Regions

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The pooling region's exit contents, buffer by buffer

The five windows of the pooling region stand on five different buffers, so the exit contents read at a window's
array are what the write-backs leave there, and read anywhere else they are the entry contents. -/

private theorem W2_arr (c : Dev nD) (w : Fin cfg0.W) :
    W2 m ρ c (Proc.devRef .tc (Pipeline.arrRef spec0 w)) = (dat0 (V1 m ρ) c).arrAt w cfg0.N :=
  Pipeline.withArrays_arr spec0 launch0.win.arr_inj c (W1 m ρ c) (fun w => (dat0 (V1 m ρ) c).arrAt w cfg0.N) w

private theorem W2_of_ne (c : Dev nD) (b : Ref sig .tc) (hb : ∀ w, Pipeline.arrRef spec0 w ≠ b) :
    W2 m ρ c (Proc.devRef .tc b) = W1 m ρ c (Proc.devRef .tc b) :=
  Pipeline.withArrays_of_ne spec0 c (W1 m ρ c) (fun w => (dat0 (V1 m ρ) c).arrAt w cfg0.N) b hb

/-- A window the region only reads keeps its array: no point writes a block of it back. -/
private theorem W2_in (c : Dev nD) (w : Fin cfg0.W) (hin : (cfg0.win w).isOut = false) :
    W2 m ρ c (Proc.devRef .tc (Pipeline.arrRef spec0 w)) = W1 m ρ c (Proc.devRef .tc (Pipeline.arrRef spec0 w)) :=
  (W2_arr m ρ c w).trans (((dat0 (V1 m ρ) c).arrAt_in w hin cfg0.N).trans (A_eq0 (V1 m ρ) c w))

/-! ## The tallies at a region's two ends

Neither region's body owes or records anything, so its proof data bound the recorded pairs by everything: a core
owing nothing meets the bound at entry whatever it has recorded, and at exit the bound is simply forgotten. -/

private theorem owes_enter0 (c : Dev nD) :
    (iprop(∃ W, owes (c : Thread nD τ) (0 : CellTallies nD τ sig Unit) W) : sProp 𝕄) ⊢ (pdats m ρ 0 c).owesAt () 0 := by
  iintro ⟨%W, HO⟩
  iexists W
  isplitr
  · ipureintro; exact fun _ _ => Or.inl trivial
  iexact HO

private theorem owes_leave0 (c : Dev nD) :
    ((pdats m ρ 0 c).owesAt () (Fin.last cfg0.N) : sProp 𝕄) ⊢ iprop(∃ W, owes (c : Thread nD τ) (0 : CellTallies nD τ sig Unit) W) := by
  iintro ⟨%W, -, HO⟩
  iexists W
  iexact HO

/-! ## The pooling region as an item of the run -/

/-- At entry the core's unscoped buffers, all at the contents before the region, part into the region's five arrays
    and the buffers that go round it. -/
private theorem enter0 (c : Dev nD) :
    (StableHlo.held (c : Thread nD τ) (Pipeline.ucRefs τ sig) (W1 m ρ c) : sProp 𝕄)
      ⊢ iprop((pdats m ρ 0 c).arrays ((pdats m ρ 0 c).arrAt · 0)
          ∗ Pipeline.unscopedRest (Ix := Unit) (Name := ℕ) (U := UR sig nD τ) (Lvl := ℕ) spec0 c (V1 m ρ c)) := by
  rw [← Pipeline.unscopedBufs_held c (W1 m ρ c)]
  exact Pipeline.arrays_of_unscopedBufs (p := 0) (pcfgs (F := F)) adm (pdats m ρ) launch0.win launch0.arr_whole c
    ((pdats m ρ 0 c).share_full fun _ => rfl) (V1 m ρ c) fun _ => rfl

/-- At exit the arrays, at what the write-backs leave, and the buffers that went round are again every unscoped
    buffer, now at the contents after the region. -/
private theorem leave0 (c : Dev nD) :
    (iprop((pdats m ρ 0 c).arrays ((pdats m ρ 0 c).arrAt · cfg0.N)
        ∗ Pipeline.unscopedRest (Ix := Unit) (Name := ℕ) (U := UR sig nD τ) (Lvl := ℕ) spec0 c (V1 m ρ c)) : sProp 𝕄)
      ⊢ StableHlo.held (c : Thread nD τ) (Pipeline.ucRefs τ sig) (W2 m ρ c) := by
  rw [← Pipeline.unscopedBufs_held c (W2 m ρ c)]
  exact Pipeline.unscopedBufs_of_arrays (p := 0) (pcfgs (F := F)) adm (Ix := Unit) (Name := ℕ) (U := UR sig nD τ) (Lvl := ℕ)
    launch0.win launch0.arr_whole c (pdats m ρ) ((pdats m ρ 0 c).share_full fun _ => rfl)
    (V1 m ρ c) (V2 m ρ c) ((pdats m ρ 0 c).arrAt · cfg0.N)
    (fun w => (W2_arr m ρ c w).symm)
    (fun b hb => W2_of_ne m ρ c b fun w e => hb (Finset.mem_image.mpr ⟨w, Finset.mem_univ _, e⟩))

set_option backward.isDefEq.respectTransparency.types false in
/-- The pooling region: entered with every unscoped buffer at the contents after the averaging matrix is set,
    left with them at the region's exit contents. The generator register passes through the body's invariant,
    the tallies through the pipeline's, the buffers that are no window's array go round. The kernel has no
    semaphore of its own and no prefetched table. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    have hcut := enter0 m ρ c
    have howe := owes_enter0 m ρ c
    iintro ⟨⟨Hbufs, Hreg, Hnil⟩, -⟩
    imodintro
    ihave Hparts := hcut $$ Hbufs
    icases Hparts with ⟨Harr, Hround⟩
    isplitl [Harr]; · iexact Harr
    isplitr
    · unfold Pipeline.prefHeld
      rw [show (Finset.univ : Finset (Fin 0)) = ∅ from rfl, BI.bigSep_empty]
      iempintro
    isplitl [Hnil]; · iapply howe; iexact Hnil
    isplitl [Hreg]; · iexact Hreg
    iexact Hround
  hin c := by
    rw [show (pdats m ρ 0 c).Φ 0 = Pipeline.ΦA spec0 c from rfl]
    unfold Pipeline.ΦA
    iintro ⟨Hreg, -, Hscr⟩
    isplitl [Hscr]; · iexact Hscr
    iexact Hreg
  hout c := by
    rw [Pipeline.ownSems0_none, show (pdats m ρ 0 c).Φ (Fin.last _) = Pipeline.ΦA spec0 c from rfl]
    unfold Pipeline.ΦA
    iintro ⟨Hscr, Hreg⟩
    isplitl [Hreg]; · iexact Hreg
    isplitr; · iempintro
    iexact Hscr
  hexit c := by
    have hjoin := leave0 m ρ c
    have howe := owes_leave0 m ρ c
    iintro ⟨Harr, Hnil, Hreg, Hround⟩
    imodintro
    isplitl [Harr Hround]
    · iapply hjoin
      isplitl [Harr]; · iexact Harr
      iexact Hround
    isplitl [Hreg]; · iexact Hreg
    iapply howe; iexact Hnil

/-! ## The program as nine items -/

/-- The items in program order: the averaging matrix's constant, the pooling region, the rows laid out, the first
    matrix's norms and its normalisation, the second matrix's norms and its normalisation, the pairwise-difference
    region, and the partial sums added up. Each host stretch starts from the boundary contents before it. -/
abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .host (hseg hostOps1_1 hostOps1_1_sub hostOps1_1_fresh (W3 m ρ)),
    .host (hseg hostOps1_2 hostOps1_2_sub hostOps1_2_fresh (W4 m ρ)),
    .host (hseg hostOps1_3 hostOps1_3_sub hostOps1_3_fresh (W5 m ρ)),
    .host (hseg hostOps1_4 hostOps1_4_sub hostOps1_4_fresh (W6 m ρ)),
    .region (reg1 m ρ),
    .host (hseg hostOps2 hostOps2_sub hostOps2_fresh (W8 m ρ)) ]

/-- The printed program is the nine items run in order: it is the chain of their fragments, a host stretch's fragment
    being its operations in sequence and a region's its call. -/
theorem main_run (c : Dev nD) : main (F := F) c = Pipeline.Seg.run (segs m ρ) := by
  rw [main_chain c, Pipeline.Seg.run_eq_chain]
  rfl

/-- The two regions are two different pipelines. -/
private theorem segs_nodup : (Pipeline.Seg.pipes (segs m ρ)).Nodup := by
  simp only [segs, Pipeline.Seg.pipes_host, Pipeline.Seg.pipes_region, Pipeline.Seg.pipes_nil]
  decide

/-! ## A buffer nothing writes, read at the end

The result is read off the last boundary by name. Each argument is read there too, and the last boundary's contents
at an argument are walked back item by item: a host stretch leaves a buffer it does not write, the second region
changes only its partial sums' buffer, the pooling region only reads its inputs. -/

/-- From the pooling region's exit to the return: a buffer that no later host stretch writes and that is not the
    second region's output holds at the end what it held at that exit. -/
private theorem W9_of_W2 (c : Dev nD) (r : Ref sig .tc)
    (h1 : r ∉ hostOps1_W) (h11 : r ∉ hostOps1_1_W) (h12 : r ∉ hostOps1_2_W) (h13 : r ∉ hostOps1_3_W)
    (h14 : r ∉ hostOps1_4_W) (hv : r ≠ main_v17) (h2 : r ∉ hostOps2_W) :
    W9 m ρ c (Proc.devRef .tc r) = W2 m ρ c (Proc.devRef .tc r) :=
  calc W9 m ρ c (Proc.devRef .tc r)
    _ = W8 m ρ c (Proc.devRef .tc r) := StableHlo.after_of_writes_sub hostOps2 _ hostOps2_writes h2
    _ = W7 m ρ c (Proc.devRef .tc r) := by
          unfold W8; exact Function.update_of_ne (StableHlo.devRef_ne_of_ne hv) _ _
    _ = W6 m ρ c (Proc.devRef .tc r) := StableHlo.after_of_writes_sub hostOps1_4 _ hostOps1_4_writes h14
    _ = W5 m ρ c (Proc.devRef .tc r) := StableHlo.after_of_writes_sub hostOps1_3 _ hostOps1_3_writes h13
    _ = W4 m ρ c (Proc.devRef .tc r) := StableHlo.after_of_writes_sub hostOps1_2 _ hostOps1_2_writes h12
    _ = W3 m ρ c (Proc.devRef .tc r) := StableHlo.after_of_writes_sub hostOps1_1 _ hostOps1_1_writes h11
    _ = W2 m ρ c (Proc.devRef .tc r) := StableHlo.after_of_writes_sub hostOps1 _ hostOps1_writes h1

/-- The first volume's buffer ends as launched: it is the pooling region's first input window's array. -/
private theorem W9_main_arg0 (c : Dev nD) : W9 m ρ c (Proc.devRef .tc main_arg0) = m ((c : Thread nD τ).loc main_arg0) :=
  calc W9 m ρ c (Proc.devRef .tc main_arg0)
    _ = W2 m ρ c (Proc.devRef .tc main_arg0) :=
          W9_of_W2 m ρ c main_arg0 (by decide) (by decide) (by decide) (by decide) (by decide) (by decide) (by decide)
    _ = W1 m ρ c (Proc.devRef .tc main_arg0) := W2_in m ρ c 0 rfl
    _ = W0 m ρ c (Proc.devRef .tc main_arg0) := StableHlo.after_of_writes_sub hostOps0 _ hostOps0_writes (by decide)
    _ = m ((c : Thread nD τ).loc main_arg0) := rfl

/-- The second volume's buffer ends as launched: it is the pooling region's second input window's array. -/
private theorem W9_main_arg1 (c : Dev nD) : W9 m ρ c (Proc.devRef .tc main_arg1) = m ((c : Thread nD τ).loc main_arg1) :=
  calc W9 m ρ c (Proc.devRef .tc main_arg1)
    _ = W2 m ρ c (Proc.devRef .tc main_arg1) :=
          W9_of_W2 m ρ c main_arg1 (by decide) (by decide) (by decide) (by decide) (by decide) (by decide) (by decide)
    _ = W1 m ρ c (Proc.devRef .tc main_arg1) := W2_in m ρ c 1 rfl
    _ = W0 m ρ c (Proc.devRef .tc main_arg1) := StableHlo.after_of_writes_sub hostOps0 _ hostOps0_writes (by decide)
    _ = m ((c : Thread nD τ).loc main_arg1) := rfl

/-! ## The launch -/

/-- The last thread state without the tallies: every unscoped buffer at the last boundary's contents, the generator
    register at some state. -/
private abbrev Tₙ (c : Dev nD) : sProp 𝕄 :=
  iprop(StableHlo.held (c : Thread nD τ) (Pipeline.ucRefs τ sig) (W9 m ρ c) ∗ ∃ r, prngReg c r)

/-- Each item is entered from the state the item before it leaves: the boundary contents are named so that the two
    are one state, and at the end the tallies are set beside the rest. -/
private theorem segs_chain : Pipeline.Seg.Chains
    (fun c => iprop(StableHlo.held (c : Thread nD τ) (Pipeline.ucRefs τ sig) (W0 m ρ c) ∗ R c)) (segs m ρ)
    (fun c => iprop(Tₙ m ρ c ∗ ∃ W, owes (c : Thread nD τ) (0 : CellTallies nD τ sig Unit) W)) :=
  ⟨fun _ => .rfl, fun _ => .rfl, fun _ => .rfl, fun _ => .rfl, fun _ => .rfl, fun _ => .rfl, fun _ => .rfl,
    fun _ => .rfl, fun _ => .rfl, fun c => by
      show (iprop(StableHlo.held (c : Thread nD τ) (Pipeline.ucRefs τ sig) (W9 m ρ c) ∗ R c) : sProp 𝕄) ⊢ _
      iintro ⟨Hbufs, Hreg, Hnil⟩
      isplitr [Hnil]
      · isplitl [Hbufs]; · iexact Hbufs
        iexact Hreg
      iexact Hnil⟩

/-- The launch's ghost element is the pipelines' own, and no core is dealt anything besides. -/
private theorem launch_ghost :
    (ownU (initOf (Pipeline.cells cfgs cellOf_inj) (Pipeline.launchToks cfgs cellOf_inj)) : sProp 𝕄)
      ⊢ |={Set.univ}=> iprop(BI.own (emb₁ (initOf (Pipeline.cells cfgs cellOf_inj) (Pipeline.launchToks cfgs cellOf_inj)))
          ∗ bigSep Finset.univ fun _ : Dev nD => (BI.emp : sProp 𝕄)) := by
  rw [BI.bigSep_emp_const]
  refine (show (ownU (initOf (Pipeline.cells cfgs cellOf_inj) (Pipeline.launchToks cfgs cellOf_inj)) : sProp 𝕄)
    ⊢ BI.own (emb₁ (initOf (Pipeline.cells cfgs cellOf_inj) (Pipeline.launchToks cfgs cellOf_inj))) from .rfl).trans ?_
  iintro Hu
  imodintro
  isplitl [Hu]; · iexact Hu
  iempintro

set_option backward.isDefEq.respectTransparency.types false in
theorem run : θ_run defs (onTc (τ := τ) (main (F := F))) ⟨m, fun _ => 0, ρ⟩ (fun r => ∀ c : Dev nD,
      r.2.mem ((c.tc : Thread nD τ).loc main_v21) = W9 m ρ c (Proc.devRef .tc main_v21)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (segs_nodup m ρ)
    (O₀ := 0) (hL := fun _ _ => rfl) (G := fun _ => iprop(emp))
    (u₀ := initOf (Pipeline.cells cfgs cellOf_inj) (Pipeline.launchToks cfgs cellOf_inj))
    (hu₀ := launch_ghost)
    (T₀ := fun c => iprop(StableHlo.held (c : Thread nD τ) (Pipeline.ucRefs τ sig) (W0 m ρ c) ∗ R c)) (Tₙ := Tₙ m ρ)
    (hch := segs_chain m ρ)
    (hinit := by
      -- each core by itself: what the launch deals it holds its unscoped buffers at the launch memory, its
      -- generator register, and its tallies at nothing owed and nothing recorded
      refine Pipeline.initEach L lv fun c => ?_
      rw [Pipeline.unscopedBufs_held c (W0 m ρ c)]
      iintro ⟨⟨Hbufs, -, Hnil, -, Hreg, -⟩, -⟩
      imodintro
      isplitl [Hbufs]; · iexact Hbufs
      isplitl [Hreg]
      · iexists _; iexact Hreg
      iexists ∅; iexact Hnil)
    (QY := fun c s => ∀ b ∈ Pipeline.ucRefs τ sig, s.mem (((c : Thread nD τ)).1, b) = W9 m ρ c b)
    (hfin := fun c s' => by
      -- holding a buffer whole beside the final state says what the state's memory has there
      unfold Tₙ StableHlo.held
      iintro ⟨⟨Hbufs, -⟩, HSI⟩
      imodintro
      iapply (pointsTo_read_all (Pipeline.ucRefs τ sig) (fun b => (((c : Thread nD τ)).1, b)) (W9 m ρ c) s')
      isplitl [Hbufs]; · iexact Hbufs
      iexact HSI)
    (hQ := fun s h c =>
      ⟨h c _ (mem_uc main_v21 (by decide)),
        (h c _ (mem_uc main_arg0 (by decide))).trans (W9_main_arg0 m ρ c),
        (h c _ (mem_uc main_arg1 (by decide))).trans (W9_main_arg1 m ρ c)⟩)

end Cert.Kernel.Hand

end
-- ==== Proof.Spec.lean ====
/- The function both programs compute, over plain index types, and the laws that join the two
   arrangements. A volume x[b, c, D, H, W] (2 x 32 x 64 x 64 x 64) is averaged over 4 x 4 x 4 cells;
   cell (b, d, h, w) becomes row 4096 b + 256 d + 16 h + w of an 8192 x 32 matrix (one column per
   channel); each row is divided by the larger of its Euclidean norm and a small constant; the
   result is the sum over all pairs of rows (r, s) of the squared difference of the two matrices'
   inner products of rows r and s, divided by the number of pairs.
   The kernel pools with the last two cell coordinates exchanged, which permutes the rows of both
   matrices by one involution; the sum over all pairs of rows does not see a permutation of the
   rows. It also forms the sum tile by tile, 8 x 8 tiles of 1024 x 1024 pairs. -/
import Idealize.ShloMosaic.PureOps.Ideal
import Idealize.ShloMosaic.PureOps.Ideal.Laws
import Mathlib.Algebra.BigOperators.Group.Finset.Defs
import Mathlib.Algebra.BigOperators.Group.Finset.Sigma
import Mathlib.Data.Fintype.BigOperators

noncomputable section

namespace Cert.Spec

open Idealize.ShloMosaic

abbrev Vol := Fin 2 → Fin 32 → Fin 64 → Fin 64 → Fin 64 → EReal
abbrev Pooled := Fin 2 → Fin 32 → Fin 16 → Fin 16 → Fin 16 → EReal
abbrev Rows := Fin 8192 → Fin 32 → EReal

/-- Position `k` of cell `g` along an axis of extent 64 cut into 16 cells of 4. -/
def sub4 (g : Fin 16) (k : Fin 4) : Fin 64 := ⟨4 * g.val + k.val, by omega⟩

/-- The sum of a 4 x 4 x 4 cell. -/
def cellSum (X : Vol) (b : Fin 2) (c : Fin 32) (d h w : Fin 16) : EReal :=
  ∑ i : Fin 4, ∑ j : Fin 4, ∑ k : Fin 4, X b c (sub4 d i) (sub4 h j) (sub4 w k)

/-- The cell means: the cell's sum divided by 64 (the divisor as the program spells it). -/
def pool (X : Vol) : Pooled := fun b c d h w =>
  Ideal.div (cellSum X b c d h w) (Ideal.ofBits .f32 0x42800000#32)

/-- The cell means with the last two cell coordinates exchanged. -/
def poolT (X : Vol) : Pooled := fun b c d i j => pool X b c d j i

/-- The matrix of rows: row `4096 b + 256 d + 16 h + w` is cell `(b, d, h, w)`, column `c` its channel. -/
def rows (P : Pooled) : Rows := fun n c =>
  P ⟨n.val / 4096, by omega⟩ c ⟨n.val / 256 % 16, by omega⟩ ⟨n.val / 16 % 16, by omega⟩ ⟨n.val % 16, by omega⟩

/-- A row divided by the larger of its Euclidean norm and the small constant. -/
def normRow (x : Fin 32 → EReal) : Fin 32 → EReal := fun c =>
  Ideal.div (x c) (max (Ideal.sqrt (∑ c' : Fin 32, x c' * x c')) (Ideal.ofBits .f32 0x322BCC77#32))

def normed (A : Rows) : Rows := fun n => normRow (A n)

/-- The inner product of rows `r` and `s`. -/
def sim (a : Rows) (r s : Fin 8192) : EReal := ∑ c : Fin 32, a r c * a s c

/-- The squared difference of the two matrices' inner products at `(r, s)`. -/
def sqd (a b : Rows) (r s : Fin 8192) : EReal := (sim a r s - sim b r s) * (sim a r s - sim b r s)

def total (a b : Rows) : EReal := ∑ r : Fin 8192, ∑ s : Fin 8192, sqd a b r s

/-- The result: the total divided by the number of pairs (the divisor as the program spells it). -/
def G (X1 X2 : Vol) : EReal :=
  Ideal.div (total (normed (rows (pool X1))) (normed (rows (pool X2)))) (Ideal.ofBits .f32 0x4C800000#32)

/-- Exchanging the two low base-16 digits of a row number. -/
def swapRow (n : Fin 8192) : Fin 8192 := ⟨n.val / 256 * 256 + n.val % 16 * 16 + n.val / 16 % 16, by omega⟩

/-- Row `r` of row tile `i`. -/
def tile (i : Fin 8) (r : Fin 1024) : Fin 8192 := ⟨1024 * i.val + r.val, by omega⟩

/-- A number is its quotient by 256, then its two low base-16 digits. -/
theorem split256 (n : ℕ) : n = 256 * (n / 256) + 16 * (n / 16 % 16) + n % 16 := by
  have h : n / 16 / 16 = n / 256 := Nat.div_div_eq_div_mul n 16 16
  omega

/-- Dividing by 4096 is dividing by 256 and then by 16. -/
theorem div4096 (t : ℕ) : t / 256 / 16 = t / 4096 := Nat.div_div_eq_div_mul t 256 16

/-- The number with the two low base-16 digits of `n` exchanged: its quotient by 256 and its two
    low digits. -/
theorem swap_digits (n : ℕ) :
    (n / 256 * 256 + n % 16 * 16 + n / 16 % 16) / 256 = n / 256 ∧
    (n / 256 * 256 + n % 16 * 16 + n / 16 % 16) / 16 % 16 = n % 16 ∧
    (n / 256 * 256 + n % 16 * 16 + n / 16 % 16) % 16 = n / 16 % 16 := by
  -- Only the sizes of the two digits matter: with a, b < 16 the number 256 q + 16 b + a has
  -- quotient q by 256 and digits (b, a).
  have ha : n / 16 % 16 < 16 := Nat.mod_lt _ (by norm_num)
  have hb : n % 16 < 16 := Nat.mod_lt _ (by norm_num)
  generalize n / 256 = q at *
  generalize n / 16 % 16 = a at *
  generalize n % 16 = b at *
  refine ⟨by omega, by omega, by omega⟩

theorem swapRow_swapRow (n : Fin 8192) : swapRow (swapRow n) = n := by
  -- Write n = 256 q + 16 a + b with a, b < 16. Then swapRow n = 256 q + 16 b + a has the same
  -- quotient by 256 and the digits (b, a), so a second exchange restores 256 q + 16 a + b.
  apply Fin.ext
  obtain ⟨e1, e2, e3⟩ := swap_digits n.val
  have e4 := split256 n.val
  simp only [swapRow, e1, e2, e3]
  omega

/-- The rows of the exchanged cell means are the rows of the cell means, permuted. -/
theorem rows_poolT (X : Vol) : rows (poolT X) = fun n => rows (pool X) (swapRow n) := by
  -- With n = 256 q + 16 a + b, row n of the exchanged means is cell (q / 16, q % 16, b, a) of the
  -- means; row 256 q + 16 b + a of the means is that same cell. The four coordinates are compared
  -- one by one.
  funext n c
  obtain ⟨e1, e2, e3⟩ := swap_digits n.val
  have h0 : (swapRow n).val / 256 = n.val / 256 := e1
  have h1 : (swapRow n).val / 4096 = n.val / 4096 := by
    rw [← div4096, ← div4096 n.val, h0]
  have h2 : (swapRow n).val / 256 % 16 = n.val / 256 % 16 := by rw [h0]
  have h3 : (swapRow n).val / 16 % 16 = n.val % 16 := e2
  have h4 : (swapRow n).val % 16 = n.val / 16 % 16 := e3
  simp only [rows, poolT, h1, h2, h3, h4]

/-- Normalising rows commutes with permuting them. -/
theorem normed_comp (A : Rows) (f : Fin 8192 → Fin 8192) : normed (fun n => A (f n)) = fun n => normed A (f n) := rfl

/-- The exchange of digits as a permutation of the row numbers: it is its own inverse. -/
def swapPerm : Fin 8192 ≃ Fin 8192 where
  toFun := swapRow
  invFun := swapRow
  left_inv := swapRow_swapRow
  right_inv := swapRow_swapRow

/-- Tile number and row within the tile, as a numbering of all 8192 rows. -/
def tileEquiv : Fin 8 × Fin 1024 ≃ Fin 8192 where
  toFun p := tile p.1 p.2
  invFun n := (⟨n.val / 1024, by omega⟩, ⟨n.val % 1024, by omega⟩)
  left_inv p := by
    apply Prod.ext <;> apply Fin.ext <;> simp only [tile] <;> omega
  right_inv n := by
    apply Fin.ext
    simp only [tile]
    omega

/-- A sum over all rows, taken tile by tile. -/
theorem sum_tiles (g : Fin 8192 → EReal) :
    ∑ i : Fin 8, ∑ r : Fin 1024, g (tile i r) = ∑ n : Fin 8192, g n := by
  rw [← Equiv.sum_comp tileEquiv g, Fintype.sum_prod_type]
  rfl

/-- The total does not see a permutation of the rows of both matrices. -/
theorem total_swap (a b : Rows) : total (fun n => a (swapRow n)) (fun n => b (swapRow n)) = total a b := by
  -- The summand at (r, s) for the permuted matrices is the summand at (swapRow r, swapRow s) for
  -- the matrices themselves; re-index the outer sum, then each inner sum, along the permutation.
  show ∑ r : Fin 8192, ∑ s : Fin 8192, sqd a b (swapRow r) (swapRow s) = ∑ r : Fin 8192, ∑ s : Fin 8192, sqd a b r s
  rw [← Equiv.sum_comp swapPerm (fun r => ∑ s : Fin 8192, sqd a b r s)]
  refine Finset.sum_congr rfl fun r _ => ?_
  exact Equiv.sum_comp swapPerm (fun s => sqd a b (swapRow r) s)

/-- The total, tile by tile. -/
theorem total_tiles (a b : Rows) :
    ∑ i : Fin 8, ∑ j : Fin 8, ∑ r : Fin 1024, ∑ s : Fin 1024, sqd a b (tile i r) (tile j s) = total a b := by
  -- For a fixed row (tile i, r) the sums over j and s together run over all second rows; then the
  -- sums over i and r together run over all first rows.
  calc ∑ i : Fin 8, ∑ j : Fin 8, ∑ r : Fin 1024, ∑ s : Fin 1024, sqd a b (tile i r) (tile j s)
      = ∑ i : Fin 8, ∑ r : Fin 1024, ∑ n : Fin 8192, sqd a b (tile i r) n := by
        refine Finset.sum_congr rfl fun i _ => ?_
        rw [Finset.sum_comm]
        exact Finset.sum_congr rfl fun r _ => sum_tiles (fun n => sqd a b (tile i r) n)
    _ = total a b := sum_tiles (fun m => ∑ n : Fin 8192, sqd a b m n)

/-- The kernel's result equals `G`: its rows are the permuted rows, and its total is formed tile by tile. -/
theorem kernel_total (X1 X2 : Vol) :
    Ideal.div (∑ i : Fin 8, ∑ j : Fin 8, ∑ r : Fin 1024, ∑ s : Fin 1024,
        sqd (normed (rows (poolT X1))) (normed (rows (poolT X2))) (tile i r) (tile j s)) (Ideal.ofBits .f32 0x4C800000#32)
      = G X1 X2 := by
  -- Tile by tile the sum is the total of the two normalised matrices of exchanged means; their
  -- rows are the rows of the normalised matrices of the means, permuted by the exchange of digits
  -- (normalising acts row by row), and the total does not see that permutation.
  rw [total_tiles, rows_poolT, rows_poolT]
  exact congrArg (fun t => Ideal.div t (Ideal.ofBits .f32 0x4C800000#32))
    (total_swap (normed (rows (pool X1))) (normed (rows (pool X2))))

end Cert.Spec

end
-- ==== Proof.Conv.lean ====
/- Buffers read as functions of their coordinates: a volume, the pooled cells, a matrix of rows. -/
import proofs.«166016_j61263413510182_1_alg».proof.KernelIdeal
import proofs.«166016_j61263413510182_1_alg».proof.Proof.Spec
import Idealize.ShloMosaic.Lib.ValueIdx

noncomputable section

namespace Cert.Conv

open Idealize.ShloMosaic Cert.KernelIdeal

/-- A volume's entries by coordinates. -/
def volOf (x : FVec Ideal S2x32x64x64x64 .f32) : Cert.Spec.Vol := fun b c d h w => x (ValueIdx.ix5 b c d h w)
/-- The pooled cells by coordinates. -/
def pooledOf (p : FVec Ideal S2x32x16x16x16 .f32) : Cert.Spec.Pooled := fun b c d i j => p (ValueIdx.ix5 b c d i j)
/-- A matrix's entries by row and column. -/
def rowsOf (a : FVec Ideal S8192x32 .f32) : Cert.Spec.Rows := fun n c => a (ValueIdx.ix2 n c)

/-- Every entry of the volume is a real number. -/
def FiniteVol (X : Cert.Spec.Vol) : Prop := ∀ b c d h w, ∃ r : ℝ, X b c d h w = (r : EReal)

end Cert.Conv

end
-- ==== Proof.PoolPay.lean ====
/- One depth slab's pooled block, entry by entry. The body takes the mean of the slab's four depth slices
   (the sum over 4), multiplies along the lane axis by the averaging matrix (0.25 where the lane lies in
   the cell, 0 elsewhere), exchanges the last two axes and multiplies along the new lane axis by the same
   matrix. For real entries the factors move across the sums: entry (c, g, g') is the sum of the 4 x 4 x 4
   cell with lane cell g and sublane cell g', over 64. -/
import proofs.«166016_j61263413510182_1_alg».proof.Proof.Gen.KernelIdeal.Skeleton
import proofs.«166016_j61263413510182_1_alg».proof.Proof.Spec
import Idealize.ShloMosaic.Lib.ValueIdx
import Idealize.ShloMosaic.Lib.Pipeline.Value
import Idealize.ShloMosaic.Lib.StackMember
import Idealize.ShloMosaic.PureOps.Ideal.Laws
import Mathlib.Logic.Equiv.Fin.Basic
import Mathlib.Algebra.BigOperators.Fin
import Mathlib.Data.EReal.Operations

set_option maxRecDepth 16384

noncomputable section

namespace Cert.KernelIdeal.Hand

open Idealize.ShloMosaic Cert.KernelIdeal Cert.KernelIdeal.Gen
open Idealize.ShloMosaic.ValueIdx (ix2 ix3 ix5)

/-- The averaging matrix's entries: a quarter where lane `w` lies in cell `g`, zero elsewhere. -/
def IsAvg (P : Vec Ideal S64x16 .f32) : Prop :=
  ∀ (w : Fin 64) (g : Fin 16), P (ix2 w g) = if w.val / 4 = g.val then ((1 / 4 : ℝ) : EReal) else 0

namespace PoolPay

/-! ## The layout steps, each read at an entry

Every reshape keeps the row-major position; the exchange of the last two axes exchanges the last two
coordinates. -/

section Layout
variable {α : Type}

open Idealize.ShloMosaic.ValueIdx (ix4)

/-- The slab without its leading unit axis. -/
theorem slab_drop_unit (x : S1x32x4x64x64.Idx → α) (h : S1x32x4x64x64.ShapeCasts S32x4x64x64)
    (c : Fin 32) (k : Fin 4) (a b : Fin 64) :
    shapeCast S32x4x64x64 x h (ix4 c k a b) = x (ix5 (0 : Fin 1) c k a b) :=
  shapeCast_apply x h _ _ (by
    rw [Shape.rowMajor_val_five, Shape.rowMajor_val_four]
    show ((((0 : ℕ) * 32 + c.val) * 4 + k.val) * 64 + a.val) * 64 + b.val
      = ((c.val * 4 + k.val) * 64 + a.val) * 64 + b.val
    omega)

/-- Channels and sublanes merged into rows: row `64 c + a`. -/
theorem rows_of_planes (y : S32x64x64.Idx → α) (h : S32x64x64.ShapeCasts S2048x64)
    (c : Fin 32) (a b : Fin 64) (r : Fin 2048) (hr : r.val = 64 * c.val + a.val) :
    shapeCast S2048x64 y h (ix2 r b) = y (ix3 c a b) :=
  shapeCast_apply y h _ _ (by
    rw [Shape.rowMajor_val_three, Shape.rowMajor_val_two]
    show (c.val * 64 + a.val) * 64 + b.val = r.val * 64 + b.val
    omega)

/-- The rows split back into channel and sublane. -/
theorem planes_of_rows (z : S2048x16.Idx → α) (h : S2048x16.ShapeCasts S32x64x16)
    (c : Fin 32) (a : Fin 64) (g : Fin 16) (r : Fin 2048) (hr : r.val = 64 * c.val + a.val) :
    shapeCast S32x64x16 z h (ix3 c a g) = z (ix2 r g) :=
  shapeCast_apply z h _ _ (by
    rw [Shape.rowMajor_val_two, Shape.rowMajor_val_three]
    show r.val * 16 + g.val = (c.val * 64 + a.val) * 16 + g.val
    omega)

/-- The exchange of the last two axes. -/
theorem swap_last (z : S32x64x16.Idx → α) (h : S32x64x16.Transposes [0, 2, 1] S32x16x64)
    (c : Fin 32) (g : Fin 16) (a : Fin 64) :
    transpose S32x16x64 [0, 2, 1] z h (ix3 c g a) = z (ix3 c a g) :=
  transpose_apply [0, 2, 1] z h _ _ (fun b => match b with
    | ⟨0, _⟩ => rfl
    | ⟨1, _⟩ => rfl
    | ⟨2, _⟩ => rfl)

/-- Channels and lane cells merged into rows: row `16 c + g`. -/
theorem rows_of_cells (z : S32x16x64.Idx → α) (h : S32x16x64.ShapeCasts S512x64)
    (c : Fin 32) (g : Fin 16) (a : Fin 64) (r : Fin 512) (hr : r.val = 16 * c.val + g.val) :
    shapeCast S512x64 z h (ix2 r a) = z (ix3 c g a) :=
  shapeCast_apply z h _ _ (by
    rw [Shape.rowMajor_val_three, Shape.rowMajor_val_two]
    show (c.val * 16 + g.val) * 64 + a.val = r.val * 64 + a.val
    omega)

/-- Those rows split back into channel and lane cell. -/
theorem cells_of_rows (z : S512x16.Idx → α) (h : S512x16.ShapeCasts S32x16x16)
    (c : Fin 32) (g g' : Fin 16) (r : Fin 512) (hr : r.val = 16 * c.val + g.val) :
    shapeCast S32x16x16 z h (ix3 c g g') = z (ix2 r g') :=
  shapeCast_apply z h _ _ (by
    rw [Shape.rowMajor_val_two, Shape.rowMajor_val_three]
    show r.val * 16 + g'.val = (c.val * 16 + g.val) * 16 + g'.val
    omega)

/-- The block with its two unit axes put back. -/
theorem block_add_units (z : S32x16x16.Idx → α) (h : S32x16x16.ShapeCasts S1x32x1x16x16)
    (c : Fin 32) (g g' : Fin 16) :
    shapeCast S1x32x1x16x16 z h (ix5 (0 : Fin 1) c (0 : Fin 1) g g') = z (ix3 c g g') :=
  shapeCast_apply z h _ _ (by
    rw [Shape.rowMajor_val_three, Shape.rowMajor_val_five]
    show (c.val * 16 + g.val) * 16 + g'.val
      = ((((0 : ℕ) * 32 + c.val) * 1 + (0 : ℕ)) * 16 + g.val) * 16 + g'.val
    omega)

end Layout

/-! ## The depth sum and the two products, each read at an entry -/

open Idealize.ShloMosaic.ValueIdx (ix4) in
/-- The sum over the four depth slices from the zero word, at plane entry `(c, a, b)`. -/
theorem depth_sum (v : FVec Ideal S32x4x64x64 .f32) (h : S32x4x64x64.Reduces [1] S32x64x64)
    (hφ : FKind.Formats .f32) (hacc : (0x00000000#32 : BitVec 32) = FKind.add.neutral .f32 hφ)
    (c : Fin 32) (a b : Fin 64) :
    multiReduction (F := Ideal) .add [1] S32x64x64 v 0x00000000#32 h hφ hacc (ix3 c a b)
      = ∑ k : Fin 4, v (ix4 c k a b) := by
  refine (Ideal.multiReduction_add_single v _ h hφ hacc (ix3 c a b)).trans ?_
  exact Finset.sum_congr rfl fun k _ => congrArg v (funext fun ax => Fin.ext (by
    match ax with
    | ⟨0, _⟩ => rfl
    | ⟨1, _⟩ => rfl
    | ⟨2, _⟩ => rfl
    | ⟨3, _⟩ => rfl))

/-- The first product, rows by the averaging matrix into the zero accumulator: the sum over the lane. -/
theorem lane_product (A : FVec Ideal S2048x64 .f32) (B : FVec Ideal S64x16 .f32) (r : Fin 2048) (g : Fin 16) :
    matmul dot_S2048x64_S64x16_S2048x16_1_0_0_1_n_n none A B (constant (F := Ideal) S2048x16 .f32 0x00000000#32) (ix2 r g)
      = ∑ w : Fin 64, A (ix2 r w) * B (ix2 w g) := by
  have e : dot_S2048x64_S64x16_S2048x16_1_0_0_1_n_n = DotDims.plain 2048 64 16 := rfl
  rw [e, matmul_zero_eq_dotGeneral]
  exact StackMember.dotGeneral_plain_apply none A B r g

/-- The second product, against the same matrix: the sum over the sublane, now the minor axis. -/
theorem sublane_product (A : FVec Ideal S512x64 .f32) (B : FVec Ideal S64x16 .f32) (r : Fin 512) (g : Fin 16) :
    matmul dot_S512x64_S64x16_S512x16_1_0_0_1_n_n none A B (constant (F := Ideal) S512x16 .f32 0x00000000#32) (ix2 r g)
      = ∑ w : Fin 64, A (ix2 r w) * B (ix2 w g) := by
  have e : dot_S512x64_S64x16_S512x16_1_0_0_1_n_n = DotDims.plain 512 64 16 := rfl
  rw [e, matmul_zero_eq_dotGeneral]
  exact StackMember.dotGeneral_plain_apply none A B r g

/-! ## The block before its unit axes are put back, read at an entry -/

/-- Entry `(c, g, g')` of the three-axis block: over sublanes `a` and lanes `b`, the depth sum over 4
    times the matrix at `(b, g)`, times the matrix at `(a, g')`. -/
theorem block_read (P : Vec Ideal S64x16 .f32) (x : Vec Ideal S1x32x4x64x64 .f32) (c : Fin 32) (g g' : Fin 16) :
    k0_pay3 (F := Ideal) P x (ix3 c g g')
      = ∑ a : Fin 64, (∑ b : Fin 64,
          Ideal.div (∑ k : Fin 4, x (ix5 (0 : Fin 1) c k a b)) (Ideal.ofBits .f32 0x40800000#32) * P (ix2 b g))
            * P (ix2 a g') := by
  unfold k0_pay3
  refine (cells_of_rows _ _ c g g' ⟨16 * c.val + g.val, by omega⟩ rfl).trans ?_
  refine (sublane_product _ _ _ _).trans ?_
  refine Finset.sum_congr rfl fun a _ => ?_
  refine congrArg (fun t => t * P (ix2 a g')) ?_
  refine (rows_of_cells _ _ c g a _ rfl).trans ?_
  refine (swap_last _ _ c g a).trans ?_
  refine (planes_of_rows _ _ c a g ⟨64 * c.val + a.val, by omega⟩ rfl).trans ?_
  refine (lane_product _ _ _ _).trans ?_
  refine Finset.sum_congr rfl fun b _ => ?_
  refine congrArg (fun t => t * P (ix2 b g)) ?_
  refine (rows_of_planes _ _ c a b _ rfl).trans ?_
  refine congrArg (fun t => Ideal.div t (Ideal.ofBits .f32 0x40800000#32)) ?_
  refine (depth_sum _ _ _ _ c a b).trans ?_
  exact Finset.sum_congr rfl fun k _ => slab_drop_unit _ _ c k a b

/-! ## The two divisors -/

/-- The word the depth mean divides by denotes 4. -/
theorem ofBits_four : Ideal.ofBits .f32 0x40800000#32 = ((4 : ℝ) : EReal) := by
  simp [Ideal.ofBits, Ideal.ieee, -EReal.coe_mul]; norm_num

/-- The word the cell mean divides by denotes 64. -/
theorem ofBits_sixty_four : Ideal.ofBits .f32 0x42800000#32 = ((64 : ℝ) : EReal) := by
  simp [Ideal.ofBits, Ideal.ieee, -EReal.coe_mul]; norm_num

/-! ## The algebra, over the reals -/

/-- The cast of a finite sum of reals is the sum of the casts. -/
theorem coe_sum {ι : Type} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The averaging matrix's entry as a real number. -/
def wt (w : Fin 64) (g : Fin 16) : ℝ := if w.val / 4 = g.val then 1 / 4 else 0

theorem avg_entry {P : Vec Ideal S64x16 .f32} (hP : IsAvg P) (w : Fin 64) (g : Fin 16) :
    P (ix2 w g) = ((wt w g : ℝ) : EReal) := by
  rw [hP w g]
  unfold wt
  split
  · rfl
  · exact EReal.coe_zero.symm

/-- Position `k` of cell `a` lies in cell `g` exactly when `a = g`. -/
theorem wt_sub4 (a g : Fin 16) (k : Fin 4) : wt (Cert.Spec.sub4 a k) g = if a = g then 1 / 4 else 0 := by
  unfold wt Cert.Spec.sub4
  have h : ((4 * a.val + k.val) / 4 = g.val) ↔ a = g := by
    rw [Fin.ext_iff]; omega
  simp only [h]

/-- A sum over the 64 positions of an axis, weighted by column `g` of the matrix, is a quarter of the
    sum over the four positions of cell `g`: the positions are the pairs (cell, place in the cell), and
    the weight vanishes off cell `g`. -/
theorem sum_wt (f : Fin 64 → ℝ) (g : Fin 16) :
    ∑ w : Fin 64, f w * wt w g = (1 / 4) * ∑ k : Fin 4, f (Cert.Spec.sub4 g k) := by
  have e : ∀ p : Fin 16 × Fin 4, (finProdFinEquiv p : Fin (16 * 4)) = Cert.Spec.sub4 p.1 p.2 := fun p =>
    Fin.ext (by show p.2.val + 4 * p.1.val = 4 * p.1.val + p.2.val; omega)
  have h1 : ∑ w : Fin 64, f w * wt w g
      = ∑ p : Fin 16 × Fin 4, f (Cert.Spec.sub4 p.1 p.2) * wt (Cert.Spec.sub4 p.1 p.2) g :=
    (Fintype.sum_equiv (finProdFinEquiv (m := 16) (n := 4))
      (fun p => f (Cert.Spec.sub4 p.1 p.2) * wt (Cert.Spec.sub4 p.1 p.2) g) (fun w => f w * wt w g)
      (fun p => by rw [e p])).symm
  have h2 : ∀ a : Fin 16, ∑ k : Fin 4, f (Cert.Spec.sub4 a k) * wt (Cert.Spec.sub4 a k) g
      = if a = g then (1 / 4) * ∑ k : Fin 4, f (Cert.Spec.sub4 a k) else 0 := by
    intro a
    simp only [wt_sub4]
    split
    · rw [Finset.mul_sum]; exact Finset.sum_congr rfl fun k _ => mul_comm _ _
    · simp only [mul_zero, Finset.sum_const_zero]
  rw [h1, Fintype.sum_prod_type]
  simp only [h2]
  exact Fintype.sum_ite_eq' g _

/-- The two weighted sums of the depth means cut the plane down to one 4 x 4 cell, and the three
    quarters make the sixty-fourth. -/
theorem cell_real (r : Fin 4 → Fin 64 → Fin 64 → ℝ) (g g' : Fin 16) :
    ∑ a : Fin 64, (∑ b : Fin 64, ((∑ k : Fin 4, r k a b) * (1 / 4)) * wt b g) * wt a g'
      = (∑ i : Fin 4, ∑ j : Fin 4, ∑ k : Fin 4, r i (Cert.Spec.sub4 g' j) (Cert.Spec.sub4 g k)) * (1 / 64) := by
  have h1 : ∀ a : Fin 64, ∑ b : Fin 64, ((∑ k : Fin 4, r k a b) * (1 / 4)) * wt b g
      = (1 / 4) * ∑ k' : Fin 4, (∑ k : Fin 4, r k a (Cert.Spec.sub4 g k')) * (1 / 4) :=
    fun a => sum_wt (fun b => (∑ k : Fin 4, r k a b) * (1 / 4)) g
  simp only [h1]
  refine (sum_wt (fun a => (1 / 4) * ∑ k' : Fin 4, (∑ k : Fin 4, r k a (Cert.Spec.sub4 g k')) * (1 / 4)) g').trans ?_
  simp only [Fin.sum_univ_four]
  ring

/-! ## The payloads -/

/-- Entry `(c, g, g')` of the three-axis block is the sum of the 4 x 4 x 4 cell with lane cell `g` and
    sublane cell `g'`, over 64: the entries being real, every factor and every sum is a real one. -/
theorem block_cell (P : Vec Ideal S64x16 .f32) (x : Vec Ideal S1x32x4x64x64 .f32) (hP : IsAvg P)
    (hx : ∀ i, ∃ r : ℝ, x i = (r : EReal)) (c : Fin 32) (g g' : Fin 16) :
    k0_pay3 (F := Ideal) P x (ix3 c g g')
      = Ideal.div (∑ i : Fin 4, ∑ j : Fin 4, ∑ k : Fin 4, x (ix5 (0 : Fin 1) c i (Cert.Spec.sub4 g' j) (Cert.Spec.sub4 g k)))
          (Ideal.ofBits .f32 0x42800000#32) := by
  choose r hr using hx
  rw [block_read, ofBits_four, ofBits_sixty_four]
  simp only [hr, avg_entry hP]
  rw [Ideal.div_coe (by norm_num : (64 : ℝ) ≠ 0)]
  simp only [Ideal.div_coe (by norm_num : (4 : ℝ) ≠ 0), ← coe_sum, ← EReal.coe_mul]
  exact congrArg Real.toEReal (cell_real (fun k a b => r (ix5 (0 : Fin 1) c k a b)) g g')

/-- The stored block is the three-axis block with its two unit axes put back. -/
theorem pay1_read (v : FVec Ideal S32x16x16 .f32) (c : Fin 32) (g g' : Fin 16) :
    k0_pay1 (F := Ideal) v (ix5 (0 : Fin 1) c (0 : Fin 1) g g') = v (ix3 c g g') := by
  unfold k0_pay1
  exact block_add_units _ _ c g g'

/-- The first argument's payload is the same composition, written out in one piece. -/
theorem pay2_eq (P : Vec Ideal S64x16 .f32) (x : Vec Ideal S1x32x4x64x64 .f32) :
    k0_pay2 (F := Ideal) P x = k0_pay1 (F := Ideal) (k0_pay3 (F := Ideal) P x) := rfl

end PoolPay

open PoolPay

theorem pay2_apply (P : Vec Ideal S64x16 .f32) (x : Vec Ideal S1x32x4x64x64 .f32) (hP : IsAvg P)
    (hx : ∀ i, ∃ r : ℝ, x i = (r : EReal)) (c : Fin 32) (g g' : Fin 16) :
    k0_pay2 (F := Ideal) P x (ix5 (0 : Fin 1) c (0 : Fin 1) g g')
      = Ideal.div (∑ i : Fin 4, ∑ j : Fin 4, ∑ k : Fin 4, x (ix5 (0 : Fin 1) c i (Cert.Spec.sub4 g' j) (Cert.Spec.sub4 g k)))
          (Ideal.ofBits .f32 0x42800000#32) := by
  rw [pay2_eq, pay1_read]
  exact block_cell P x hP hx c g g'

theorem pay13_apply (P : Vec Ideal S64x16 .f32) (x : Vec Ideal S1x32x4x64x64 .f32) (hP : IsAvg P)
    (hx : ∀ i, ∃ r : ℝ, x i = (r : EReal)) (c : Fin 32) (g g' : Fin 16) :
    k0_pay1 (F := Ideal) (k0_pay3 (F := Ideal) P x) (ix5 (0 : Fin 1) c (0 : Fin 1) g g')
      = Ideal.div (∑ i : Fin 4, ∑ j : Fin 4, ∑ k : Fin 4, x (ix5 (0 : Fin 1) c i (Cert.Spec.sub4 g' j) (Cert.Spec.sub4 g k)))
          (Ideal.ofBits .f32 0x42800000#32) := by
  rw [pay1_read]
  exact block_cell P x hP hx c g g'

end Cert.KernelIdeal.Hand

end
-- ==== Proof.ValPool.lean ====
/- What the pooling region leaves in its two output arrays: the cell means of each argument with the
   last two cell coordinates exchanged. Each grid point writes one depth slab's block; the blocks tile
   the array. Within a block, the mean over four depth slices followed by the two contractions against
   the averaging matrix (0.25 on a lane's own cell, 0 elsewhere) is the cell's sum over 64, the lane
   axis pooled first and stored first: finiteness of the inputs lets the factors move across the sums. -/
import proofs.«166016_j61263413510182_1_alg».proof.Proof.Fold
import proofs.«166016_j61263413510182_1_alg».proof.Proof.Conv
import proofs.«166016_j61263413510182_1_alg».proof.Proof.PoolPay
import Idealize.ShloMosaic.Lib.Pipeline.Value
import Idealize.ShloMosaic.Lib.StableHlo.Run

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen Cert.Conv
open Idealize.ShloMosaic.ValueIdx (ix2 ix5 eq_ix2 eq_ix5)

/-! ## The averaging matrix -/

/-- The pattern of 0.25 denotes the real quarter. -/
theorem quarter_f32 : Ideal.ofBits .f32 0x3E800000#32 = ((1 / 4 : ℝ) : EReal) := by
  simp [Ideal.ofBits, Ideal.ieee, -EReal.coe_mul]; norm_num

/-- The constant's table, row-major: a quarter's pattern where lane `w` lies in cell `g`, the zero word elsewhere. -/
theorem lit0_cells : ∀ (w : Fin 64) (g : Fin 16),
    lit0 ⟨16 * w.val + g.val, by omega⟩ = if w.val / 4 = g.val then 0x3E800000#32 else 0x00000000#32 := by
  decide +kernel

/-- A matrix holding the constant's words is the averaging matrix. -/
theorem isAvg_of_words (P : Vec Ideal S64x16 .f32)
    (hP : ∀ i : S64x16.Idx, P i = Ideal.ofBits .f32 (lit0 (S64x16.rowMajor i))) : IsAvg P := by
  intro w g
  have hr : S64x16.rowMajor (ix2 w g) = (⟨16 * w.val + g.val, by omega⟩ : Fin 1024) :=
    Fin.ext (by rw [Shape.rowMajor_val_two]; show w.val * 16 + g.val = 16 * w.val + g.val; omega)
  rw [hP, hr, lit0_cells]
  split
  · exact quarter_f32
  · exact Ideal.ofBits_zero_f32

/-! ## One slab's block against the volume -/

/-- A slab whose entries are the volume's at depth cell `d` of batch `b` has real entries when the volume has. -/
theorem slab_real (X : Cert.Spec.Vol) (hfin : FiniteVol X) (x : Vec Ideal S1x32x4x64x64 .f32) (b : Fin 2) (d : Fin 16)
    (hx : ∀ (c' : Fin 32) (k : Fin 4) (h w : Fin 64), x (ix5 (0 : Fin 1) c' k h w) = X b c' (Cert.Spec.sub4 d k) h w) :
    ∀ i, ∃ r : ℝ, x i = (r : EReal) := by
  intro i
  obtain ⟨a0, c', k, h, w, rfl⟩ : ∃ (a0 : Fin 1) (c' : Fin 32) (k : Fin 4) (h w : Fin 64), i = ix5 a0 c' k h w :=
    ⟨i 0, i 1, i 2, i 3, i 4, eq_ix5 i⟩
  obtain rfl : a0 = 0 := Subsingleton.elim _ _
  rw [hx]
  exact hfin _ _ _ _ _

/-- The slab's cell sum over 64 is the volume's exchanged cell mean. -/
theorem slab_cell (X : Cert.Spec.Vol) (x : Vec Ideal S1x32x4x64x64 .f32) (b : Fin 2) (d : Fin 16)
    (hx : ∀ (c' : Fin 32) (k : Fin 4) (h w : Fin 64), x (ix5 (0 : Fin 1) c' k h w) = X b c' (Cert.Spec.sub4 d k) h w)
    (c' : Fin 32) (g g' : Fin 16) :
    Ideal.div (∑ i : Fin 4, ∑ j : Fin 4, ∑ k : Fin 4, x (ix5 (0 : Fin 1) c' i (Cert.Spec.sub4 g' j) (Cert.Spec.sub4 g k)))
        (Ideal.ofBits .f32 0x42800000#32) = Cert.Spec.poolT X b c' d g g' := by
  simp only [hx]
  rfl

/-! ## The region's entry contents -/

variable (m : (ℓ : Loc nD τ sig) → Buf (Elt Ideal) ℓ) (ρ : Dev nD → PrngReg) (c : Dev nD)

/-- The first argument reaches the region as launched: the host operation before it writes the constant only. -/
theorem entry_arg0 : V1 (F := Ideal) m ρ c main_arg0 = m ((c.tc : Thread nD τ).loc main_arg0) := by
  show StableHlo.after hostOps0 (W0 (F := Ideal) m ρ c) (Proc.devRef .tc main_arg0) = _
  after_results

/-- So does the second. -/
theorem entry_arg1 : V1 (F := Ideal) m ρ c main_arg1 = m ((c.tc : Thread nD τ).loc main_arg1) := by
  show StableHlo.after hostOps0 (W0 (F := Ideal) m ρ c) (Proc.devRef .tc main_arg1) = _
  after_results

/-- The constant's array holds its table's words. -/
theorem entry_cst : (V1 (F := Ideal) m ρ c main_cst : S64x16.Idx → EReal)
    = fun i => Ideal.ofBits .f32 (lit0 (S64x16.rowMajor i)) := by
  show StableHlo.after hostOps0 (W0 (F := Ideal) m ρ c) (Proc.devRef .tc main_cst) = _
  after_results
  rfl

/-! ## The printed index maps, decided over the grid -/

/-- The first input's block moves with the first output's along batch and depth, and is whole on the other axes. -/
theorem idx_in0 : ∀ t : Fin cfg0.N, win0_0.index t (0 : Fin 5) = win0_3.index t (0 : Fin 5)
    ∧ win0_0.index t (1 : Fin 5) = 0 ∧ win0_0.index t (2 : Fin 5) = win0_3.index t (2 : Fin 5)
    ∧ win0_0.index t (3 : Fin 5) = 0 ∧ win0_0.index t (4 : Fin 5) = 0 :=
  (by decide +kernel : ∀ t : Fin grid0.N, _)

/-- The second input's block moves with the second output's. -/
theorem idx_in1 : ∀ t : Fin cfg0.N, win0_1.index t (0 : Fin 5) = win0_4.index t (0 : Fin 5)
    ∧ win0_1.index t (1 : Fin 5) = 0 ∧ win0_1.index t (2 : Fin 5) = win0_4.index t (2 : Fin 5)
    ∧ win0_1.index t (3 : Fin 5) = 0 ∧ win0_1.index t (4 : Fin 5) = 0 :=
  (by decide +kernel : ∀ t : Fin grid0.N, _)

/-- The averaging matrix is read whole at every point. -/
theorem idx_cst : ∀ t : Fin cfg0.N, win0_2.index t (0 : Fin 2) = 0 ∧ win0_2.index t (1 : Fin 2) = 0 :=
  (by decide +kernel : ∀ t : Fin grid0.N, _)

/-- The first output's block index: a batch, a depth cell, and zero on the axes the block spans. -/
theorem idx_out3 : ∀ t : Fin cfg0.N, win0_3.index t (0 : Fin 5) ≤ 1 ∧ win0_3.index t (1 : Fin 5) = 0
    ∧ win0_3.index t (2 : Fin 5) ≤ 15 ∧ win0_3.index t (3 : Fin 5) = 0 ∧ win0_3.index t (4 : Fin 5) = 0 :=
  (by decide +kernel : ∀ t : Fin grid0.N, _)

/-- The second output's. -/
theorem idx_out4 : ∀ t : Fin cfg0.N, win0_4.index t (0 : Fin 5) ≤ 1 ∧ win0_4.index t (1 : Fin 5) = 0
    ∧ win0_4.index t (2 : Fin 5) ≤ 15 ∧ win0_4.index t (3 : Fin 5) = 0 ∧ win0_4.index t (4 : Fin 5) = 0 :=
  (by decide +kernel : ∀ t : Fin grid0.N, _)

/-- Every batch and depth cell is some point's. -/
theorem idx_onto3 : ∀ (q0 : Fin 2) (q2 : Fin 16), ∃ t : Fin cfg0.N, win0_3.index t = ![q0.val, 0, q2.val, 0, 0] :=
  (by decide +kernel : ∀ (q0 : Fin 2) (q2 : Fin 16), ∃ t : Fin grid0.N, win0_3.index t = ![q0.val, 0, q2.val, 0, 0])

theorem idx_onto4 : ∀ (q0 : Fin 2) (q2 : Fin 16), ∃ t : Fin cfg0.N, win0_4.index t = ![q0.val, 0, q2.val, 0, 0] :=
  (by decide +kernel : ∀ (q0 : Fin 2) (q2 : Fin 16), ∃ t : Fin grid0.N, win0_4.index t = ![q0.val, 0, q2.val, 0, 0])

/-! ## The blocks the body reads at a point -/

/-- The averaging matrix's window holds the whole constant at every point. -/
theorem cst_isAvg (t : Fin cfg0.N) : IsAvg (iblk0 (V1 (F := Ideal) m ρ) c 2 t) := by
  obtain ⟨e0, e1⟩ := idx_cst t
  refine isAvg_of_words _ fun i => ?_
  unfold iblk0
  rw [View.read_apply]
  show (V1 (F := Ideal) m ρ c main_cst : S64x16.Idx → EReal) (((cfg0.win 2).blk t).view.emb i) = _
  rw [entry_cst]
  show Ideal.ofBits .f32 (lit0 (S64x16.rowMajor (((cfg0.win 2).blk t).view.emb i))) = Ideal.ofBits .f32 (lit0 (S64x16.rowMajor i))
  have he : ((cfg0.win 2).blk t).view.emb i = i := by
    funext a; apply Fin.ext
    match a with
    | ⟨0, _⟩ => show win0_2.index t (0 : Fin 2) * 64 + 1 * (i 0).val = (i 0).val; omega
    | ⟨1, _⟩ => show win0_2.index t (1 : Fin 2) * 16 + 1 * (i 1).val = (i 1).val; omega
  rw [he]

/-- The first input's block at a point is the depth slab of its batch and depth cell. -/
theorem in0_apply (t : Fin cfg0.N) (b : Fin 2) (d : Fin 16)
    (hb : b.val = win0_3.index t (0 : Fin 5)) (hd : d.val = win0_3.index t (2 : Fin 5))
    (c' : Fin 32) (k : Fin 4) (h w : Fin 64) :
    (iblk0 (V1 (F := Ideal) m ρ) c 0 t : Vec Ideal S1x32x4x64x64 .f32) (ix5 (0 : Fin 1) c' k h w)
      = volOf (m ((c.tc : Thread nD τ).loc main_arg0)) b c' (Cert.Spec.sub4 d k) h w := by
  obtain ⟨e0, e1, e2, e3, e4⟩ := idx_in0 t
  unfold iblk0
  rw [View.read_apply]
  show V1 (F := Ideal) m ρ c main_arg0 (((cfg0.win 0).blk t).view.emb (ix5 (0 : Fin 1) c' k h w))
    = m ((c.tc : Thread nD τ).loc main_arg0) (ix5 b c' (Cert.Spec.sub4 d k) h w)
  rw [entry_arg0]
  congr 1
  funext a; apply Fin.ext
  match a with
  | ⟨0, _⟩ => show win0_0.index t (0 : Fin 5) * 1 + 1 * 0 = b.val; omega
  | ⟨1, _⟩ => show win0_0.index t (1 : Fin 5) * 32 + 1 * c'.val = c'.val; omega
  | ⟨2, _⟩ => show win0_0.index t (2 : Fin 5) * 4 + 1 * k.val = 4 * d.val + k.val; omega
  | ⟨3, _⟩ => show win0_0.index t (3 : Fin 5) * 64 + 1 * h.val = h.val; omega
  | ⟨4, _⟩ => show win0_0.index t (4 : Fin 5) * 64 + 1 * w.val = w.val; omega

/-! ## The first output array -/

/-- The exchanged cell means as an array's contents. -/
def poolArr (X : Cert.Spec.Vol) : FVec Ideal S2x32x16x16x16 .f32 := fun i => Cert.Spec.poolT X (i 0) (i 1) (i 2) (i 3) (i 4)

theorem pooledOf_poolArr (X : Cert.Spec.Vol) : pooledOf (poolArr X) = Cert.Spec.poolT X := rfl

/-- What a point leaves in the first output's buffer, entry by entry, is the exchanged cell mean at the
    entry's place in the array. -/
theorem out3_point (hfin : FiniteVol (volOf (m ((c.tc : Thread nD τ).loc main_arg0)))) (t : Fin cfg0.N) (j : S1x32x1x16x16.Idx) :
    pool0_3 (V1 (F := Ideal) m ρ) c t j
      = poolArr (volOf (m ((c.tc : Thread nD τ).loc main_arg0))) (((cfg0.win 3).blk t).view.emb j) := by
  obtain ⟨o0, o1, o2, o3, o4⟩ := idx_out3 t
  obtain ⟨a0, c', a2, g, g', rfl⟩ : ∃ (a0 : Fin 1) (c' : Fin 32) (a2 : Fin 1) (g g' : Fin 16), j = ix5 a0 c' a2 g g' :=
    ⟨j 0, j 1, j 2, j 3, j 4, eq_ix5 j⟩
  obtain rfl : a0 = 0 := Subsingleton.elim _ _
  obtain rfl : a2 = 0 := Subsingleton.elim _ _
  have hx := in0_apply m ρ c t ⟨win0_3.index t (0 : Fin 5), by omega⟩ ⟨win0_3.index t (2 : Fin 5), by omega⟩ rfl rfl
  have hemb : ((cfg0.win 3).blk t).view.emb (ix5 (0 : Fin 1) c' (0 : Fin 1) g g')
      = ix5 (⟨win0_3.index t (0 : Fin 5), by omega⟩ : Fin 2) c' (⟨win0_3.index t (2 : Fin 5), by omega⟩ : Fin 16) g g' := by
    funext a; apply Fin.ext
    match a with
    | ⟨0, _⟩ => show win0_3.index t (0 : Fin 5) * 1 + 1 * 0 = win0_3.index t (0 : Fin 5); omega
    | ⟨1, _⟩ => show win0_3.index t (1 : Fin 5) * 32 + 1 * c'.val = c'.val; omega
    | ⟨2, _⟩ => show win0_3.index t (2 : Fin 5) * 1 + 1 * 0 = win0_3.index t (2 : Fin 5); omega
    | ⟨3, _⟩ => show win0_3.index t (3 : Fin 5) * 16 + 1 * g.val = g.val; omega
    | ⟨4, _⟩ => show win0_3.index t (4 : Fin 5) * 16 + 1 * g'.val = g'.val; omega
  rw [hemb]
  unfold pool0_3
  refine (pay2_apply _ _ (cst_isAvg m ρ c t) (slab_real _ hfin _ _ _ hx) c' g g').trans ?_
  exact slab_cell _ _ _ _ hx c' g g'

/-- What a point writes back to the first output is its block of the exchanged cell means. -/
theorem flushed3_eq (hfin : FiniteVol (volOf (m ((c.tc : Thread nD τ).loc main_arg0)))) (t : Fin cfg0.N) :
    (dat0 (V1 (F := Ideal) m ρ) c).flushed 3 t
      = ((cfg0.win 3).blk t).view.read (Elt Ideal) (poolArr (volOf (m ((c.tc : Thread nD τ).loc main_arg0)))) := by
  show (cfg0.win 3).cut (grid0.coords t) ((dat0 (V1 (F := Ideal) m ρ) c).after 3 t) = _
  rw [after0_3]
  funext j
  exact out3_point m ρ c hfin t j

/-- An index of the first output array is in a point's block iff each coordinate is in the block's range on its axis. -/
theorem mem_blk3 (t : Fin cfg0.N) (i : S2x32x16x16x16.Idx) :
    i ∈ ((cfg0.win 3).blk t).view.set ↔ ∀ a : Fin 5, win0_3.index t a * S1x32x1x16x16.size a ≤ (i a).val
      ∧ (i a).val < win0_3.index t a * S1x32x1x16x16.size a + S1x32x1x16x16.size a := by
  show i ∈ ((View.whole main_v0_0).slice (win0_3.rect t)).set ↔ _
  rw [View.set_slice_whole, Rect.mem_set_unit]
  exact Iff.rfl

/-- The blocks tile the first output array: the point of an entry's batch and depth cell covers it. -/
theorem cover3 (i : S2x32x16x16x16.Idx) :
    ∃ t : Fin cfg0.N, (cfg0.win 3).flush t = true ∧ i ∈ ((cfg0.win 3).blk t).view.set := by
  have h0 : (i 0).val < 2 := (i 0).isLt
  have h1 : (i 1).val < 32 := (i 1).isLt
  have h2 : (i 2).val < 16 := (i 2).isLt
  have h3 : (i 3).val < 16 := (i 3).isLt
  have h4 : (i 4).val < 16 := (i 4).isLt
  obtain ⟨t, ht⟩ := idx_onto3 ⟨(i 0).val, h0⟩ ⟨(i 2).val, h2⟩
  have q0 : win0_3.index t (0 : Fin 5) = (i 0).val := congrFun ht 0
  have q1 : win0_3.index t (1 : Fin 5) = 0 := congrFun ht 1
  have q2 : win0_3.index t (2 : Fin 5) = (i 2).val := congrFun ht 2
  have q3 : win0_3.index t (3 : Fin 5) = 0 := congrFun ht 3
  have q4 : win0_3.index t (4 : Fin 5) = 0 := congrFun ht 4
  refine ⟨t, flush0_3 t, ?_⟩
  rw [mem_blk3]
  intro a
  match a with
  | ⟨0, _⟩ => show win0_3.index t (0 : Fin 5) * 1 ≤ (i 0).val ∧ (i 0).val < win0_3.index t (0 : Fin 5) * 1 + 1; omega
  | ⟨1, _⟩ => show win0_3.index t (1 : Fin 5) * 32 ≤ (i 1).val ∧ (i 1).val < win0_3.index t (1 : Fin 5) * 32 + 32; omega
  | ⟨2, _⟩ => show win0_3.index t (2 : Fin 5) * 1 ≤ (i 2).val ∧ (i 2).val < win0_3.index t (2 : Fin 5) * 1 + 1; omega
  | ⟨3, _⟩ => show win0_3.index t (3 : Fin 5) * 16 ≤ (i 3).val ∧ (i 3).val < win0_3.index t (3 : Fin 5) * 16 + 16; omega
  | ⟨4, _⟩ => show win0_3.index t (4 : Fin 5) * 16 ≤ (i 4).val ∧ (i 4).val < win0_3.index t (4 : Fin 5) * 16 + 16; omega

theorem pooled_v0_0 (hfin : FiniteVol (volOf (m ((c.tc : Thread nD τ).loc main_arg0)))) :
    pooledOf (W2 (F := Ideal) m ρ c (Proc.devRef .tc main_v0_0)) = Cert.Spec.poolT (volOf (m ((c.tc : Thread nD τ).loc main_arg0))) := by
  have harr : W2 (F := Ideal) m ρ c (Proc.devRef .tc main_v0_0) = (dat0 (V1 (F := Ideal) m ρ) c).arrAt 3 cfg0.N :=
    Pipeline.withArrays_arr spec0 winFacts0.arr_inj c _ _ 3
  rw [harr, (dat0 (V1 (F := Ideal) m ρ) c).arrAt_eq_of_cover 3 (poolArr (volOf (m ((c.tc : Thread nD τ).loc main_arg0))))
    (fun t _ => flushed3_eq m ρ c hfin t) cover3]
  rfl

/-! ## The second output array -/

/-- The second input's block at a point is the depth slab of its batch and depth cell. -/
theorem in1_apply (t : Fin cfg0.N) (b : Fin 2) (d : Fin 16)
    (hb : b.val = win0_4.index t (0 : Fin 5)) (hd : d.val = win0_4.index t (2 : Fin 5))
    (c' : Fin 32) (k : Fin 4) (h w : Fin 64) :
    (iblk0 (V1 (F := Ideal) m ρ) c 1 t : Vec Ideal S1x32x4x64x64 .f32) (ix5 (0 : Fin 1) c' k h w)
      = volOf (m ((c.tc : Thread nD τ).loc main_arg1)) b c' (Cert.Spec.sub4 d k) h w := by
  obtain ⟨e0, e1, e2, e3, e4⟩ := idx_in1 t
  unfold iblk0
  rw [View.read_apply]
  show V1 (F := Ideal) m ρ c main_arg1 (((cfg0.win 1).blk t).view.emb (ix5 (0 : Fin 1) c' k h w))
    = m ((c.tc : Thread nD τ).loc main_arg1) (ix5 b c' (Cert.Spec.sub4 d k) h w)
  rw [entry_arg1]
  congr 1
  funext a; apply Fin.ext
  match a with
  | ⟨0, _⟩ => show win0_1.index t (0 : Fin 5) * 1 + 1 * 0 = b.val; omega
  | ⟨1, _⟩ => show win0_1.index t (1 : Fin 5) * 32 + 1 * c'.val = c'.val; omega
  | ⟨2, _⟩ => show win0_1.index t (2 : Fin 5) * 4 + 1 * k.val = 4 * d.val + k.val; omega
  | ⟨3, _⟩ => show win0_1.index t (3 : Fin 5) * 64 + 1 * h.val = h.val; omega
  | ⟨4, _⟩ => show win0_1.index t (4 : Fin 5) * 64 + 1 * w.val = w.val; omega

/-- What a point leaves in the second output's buffer, entry by entry, is the exchanged cell mean at the
    entry's place in the array. -/
theorem out4_point (hfin : FiniteVol (volOf (m ((c.tc : Thread nD τ).loc main_arg1)))) (t : Fin cfg0.N) (j : S1x32x1x16x16.Idx) :
    pool0_4 (V1 (F := Ideal) m ρ) c t j
      = poolArr (volOf (m ((c.tc : Thread nD τ).loc main_arg1))) (((cfg0.win 4).blk t).view.emb j) := by
  obtain ⟨o0, o1, o2, o3, o4⟩ := idx_out4 t
  obtain ⟨a0, c', a2, g, g', rfl⟩ : ∃ (a0 : Fin 1) (c' : Fin 32) (a2 : Fin 1) (g g' : Fin 16), j = ix5 a0 c' a2 g g' :=
    ⟨j 0, j 1, j 2, j 3, j 4, eq_ix5 j⟩
  obtain rfl : a0 = 0 := Subsingleton.elim _ _
  obtain rfl : a2 = 0 := Subsingleton.elim _ _
  have hx := in1_apply m ρ c t ⟨win0_4.index t (0 : Fin 5), by omega⟩ ⟨win0_4.index t (2 : Fin 5), by omega⟩ rfl rfl
  have hemb : ((cfg0.win 4).blk t).view.emb (ix5 (0 : Fin 1) c' (0 : Fin 1) g g')
      = ix5 (⟨win0_4.index t (0 : Fin 5), by omega⟩ : Fin 2) c' (⟨win0_4.index t (2 : Fin 5), by omega⟩ : Fin 16) g g' := by
    funext a; apply Fin.ext
    match a with
    | ⟨0, _⟩ => show win0_4.index t (0 : Fin 5) * 1 + 1 * 0 = win0_4.index t (0 : Fin 5); omega
    | ⟨1, _⟩ => show win0_4.index t (1 : Fin 5) * 32 + 1 * c'.val = c'.val; omega
    | ⟨2, _⟩ => show win0_4.index t (2 : Fin 5) * 1 + 1 * 0 = win0_4.index t (2 : Fin 5); omega
    | ⟨3, _⟩ => show win0_4.index t (3 : Fin 5) * 16 + 1 * g.val = g.val; omega
    | ⟨4, _⟩ => show win0_4.index t (4 : Fin 5) * 16 + 1 * g'.val = g'.val; omega
  rw [hemb]
  unfold pool0_4
  refine (pay13_apply _ _ (cst_isAvg m ρ c t) (slab_real _ hfin _ _ _ hx) c' g g').trans ?_
  exact slab_cell _ _ _ _ hx c' g g'

/-- What a point writes back to the second output is its block of the exchanged cell means. -/
theorem flushed4_eq (hfin : FiniteVol (volOf (m ((c.tc : Thread nD τ).loc main_arg1)))) (t : Fin cfg0.N) :
    (dat0 (V1 (F := Ideal) m ρ) c).flushed 4 t
      = ((cfg0.win 4).blk t).view.read (Elt Ideal) (poolArr (volOf (m ((c.tc : Thread nD τ).loc main_arg1)))) := by
  show (cfg0.win 4).cut (grid0.coords t) ((dat0 (V1 (F := Ideal) m ρ) c).after 4 t) = _
  rw [after0_4]
  funext j
  exact out4_point m ρ c hfin t j

/-- An index of the second output array is in a point's block iff each coordinate is in the block's range on its axis. -/
theorem mem_blk4 (t : Fin cfg0.N) (i : S2x32x16x16x16.Idx) :
    i ∈ ((cfg0.win 4).blk t).view.set ↔ ∀ a : Fin 5, win0_4.index t a * S1x32x1x16x16.size a ≤ (i a).val
      ∧ (i a).val < win0_4.index t a * S1x32x1x16x16.size a + S1x32x1x16x16.size a := by
  show i ∈ ((View.whole main_v0_1).slice (win0_4.rect t)).set ↔ _
  rw [View.set_slice_whole, Rect.mem_set_unit]
  exact Iff.rfl

/-- The blocks tile the second output array likewise. -/
theorem cover4 (i : S2x32x16x16x16.Idx) :
    ∃ t : Fin cfg0.N, (cfg0.win 4).flush t = true ∧ i ∈ ((cfg0.win 4).blk t).view.set := by
  have h0 : (i 0).val < 2 := (i 0).isLt
  have h1 : (i 1).val < 32 := (i 1).isLt
  have h2 : (i 2).val < 16 := (i 2).isLt
  have h3 : (i 3).val < 16 := (i 3).isLt
  have h4 : (i 4).val < 16 := (i 4).isLt
  obtain ⟨t, ht⟩ := idx_onto4 ⟨(i 0).val, h0⟩ ⟨(i 2).val, h2⟩
  have q0 : win0_4.index t (0 : Fin 5) = (i 0).val := congrFun ht 0
  have q1 : win0_4.index t (1 : Fin 5) = 0 := congrFun ht 1
  have q2 : win0_4.index t (2 : Fin 5) = (i 2).val := congrFun ht 2
  have q3 : win0_4.index t (3 : Fin 5) = 0 := congrFun ht 3
  have q4 : win0_4.index t (4 : Fin 5) = 0 := congrFun ht 4
  refine ⟨t, flush0_4 t, ?_⟩
  rw [mem_blk4]
  intro a
  match a with
  | ⟨0, _⟩ => show win0_4.index t (0 : Fin 5) * 1 ≤ (i 0).val ∧ (i 0).val < win0_4.index t (0 : Fin 5) * 1 + 1; omega
  | ⟨1, _⟩ => show win0_4.index t (1 : Fin 5) * 32 ≤ (i 1).val ∧ (i 1).val < win0_4.index t (1 : Fin 5) * 32 + 32; omega
  | ⟨2, _⟩ => show win0_4.index t (2 : Fin 5) * 1 ≤ (i 2).val ∧ (i 2).val < win0_4.index t (2 : Fin 5) * 1 + 1; omega
  | ⟨3, _⟩ => show win0_4.index t (3 : Fin 5) * 16 ≤ (i 3).val ∧ (i 3).val < win0_4.index t (3 : Fin 5) * 16 + 16; omega
  | ⟨4, _⟩ => show win0_4.index t (4 : Fin 5) * 16 ≤ (i 4).val ∧ (i 4).val < win0_4.index t (4 : Fin 5) * 16 + 16; omega

theorem pooled_v0_1 (hfin : FiniteVol (volOf (m ((c.tc : Thread nD τ).loc main_arg1)))) :
    pooledOf (W2 (F := Ideal) m ρ c (Proc.devRef .tc main_v0_1)) = Cert.Spec.poolT (volOf (m ((c.tc : Thread nD τ).loc main_arg1))) := by
  have harr : W2 (F := Ideal) m ρ c (Proc.devRef .tc main_v0_1) = (dat0 (V1 (F := Ideal) m ρ) c).arrAt 4 cfg0.N :=
    Pipeline.withArrays_arr spec0 winFacts0.arr_inj c _ _ 4
  rw [harr, (dat0 (V1 (F := Ideal) m ρ) c).arrAt_eq_of_cover 4 (poolArr (volOf (m ((c.tc : Thread nD τ).loc main_arg1))))
    (fun t _ => flushed4_eq m ρ c hfin t) cover4]
  rfl

end Cert.KernelIdeal.Hand

end
-- ==== Proof.ValMid.lean ====
/- Between the two regions the host lays each pooled array out as rows and normalises the rows. -/
import proofs.«166016_j61263413510182_1_alg».proof.Proof.Fold
import proofs.«166016_j61263413510182_1_alg».proof.Proof.Conv
import Idealize.ShloMosaic.Lib.Pipeline.Value
import Idealize.ShloMosaic.Lib.StableHlo.Run
import Idealize.ShloMosaic.PureOps.Ideal.Laws

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen Cert.Conv

section Mid

open Idealize.ShloMosaic.ValueIdx (ix1 ix2 ix3 ix5)

/-! ## The host's operations between the regions, as functions of a pooled array -/

/-- The matrix of rows of a pooled array: the three cell axes merged into one of 4096, that axis exchanged with
    the channel axis, and the batch axis merged into it. -/
def flatRows (p : FVec Ideal S2x32x16x16x16 .f32) : FVec Ideal S8192x32 .f32 :=
  shapeCast S8192x32
    (transpose S2x4096x32 [0, 2, 1] (shapeCast S2x32x4096 p shapeCasts_S2x32x16x16x16_S2x32x4096)
      transposes_S2x32x4096_S2x4096x32_0_2_1)
    shapeCasts_S2x4096x32_S8192x32

/-- The column of Euclidean norms of a matrix's rows: the squares summed along each row from zero, the sums kept
    as a column, and the square root taken. -/
def normCol (a : FVec Ideal S8192x32 .f32) : FVec Ideal S8192x1 .f32 :=
  Host.sqrt (broadcastInDim S8192x1 ![0] bcast_S8192_S8192x1_0
    (Host.reduceAdd (mulf a a) (constant S_ .f32 0x00000000#32 : FVec Ideal S_ .f32) reducesTo_S8192x32_S8192_d1 h_S_))

/-- A matrix divided, row by row, by the larger of a column's entry and the small constant. -/
def divRows (a : FVec Ideal S8192x32 .f32) (nrm : FVec Ideal S8192x1 .f32) : FVec Ideal S8192x32 .f32 :=
  Host.divf a (broadcastInDim S8192x32 ![0, 1] bcast_S8192x1_S8192x32_0_1
    (maximumf nrm (broadcastInDim S8192x1 ![] bcast_S_S8192x1 (constant S_ .f32 0x322BCC77#32 : FVec Ideal S_ .f32))))

/-- Row `n` of the matrix of rows is cell `(n / 4096, n / 256 % 16, n / 16 % 16, n % 16)`, column `k` its channel:
    both reshapes keep the row-major position and the transpose exchanges the two last coordinates. -/
theorem rowsOf_flatRows (p : FVec Ideal S2x32x16x16x16 .f32) : rowsOf (flatRows p) = Cert.Spec.rows (pooledOf p) := by
  funext n k
  have hn := n.isLt
  have hk := k.isLt
  show flatRows p (ix2 n k)
    = p (ix5 (⟨n.val / 4096, by omega⟩ : Fin 2) k (⟨n.val / 256 % 16, by omega⟩ : Fin 16)
        (⟨n.val / 16 % 16, by omega⟩ : Fin 16) (⟨n.val % 16, by omega⟩ : Fin 16))
  unfold flatRows
  refine (shapeCast_apply _ shapeCasts_S2x4096x32_S8192x32 (ix2 n k)
    (ix3 (⟨n.val / 4096, by omega⟩ : Fin 2) (⟨n.val % 4096, by omega⟩ : Fin 4096) k) ?_).trans ?_
  · rw [Shape.rowMajor_val_three, Shape.rowMajor_val_two]
    show (n.val / 4096 * 4096 + n.val % 4096) * 32 + k.val = n.val * 32 + k.val
    omega
  refine (transpose_apply [0, 2, 1] _ transposes_S2x32x4096_S2x4096x32_0_2_1 _
    (ix3 (⟨n.val / 4096, by omega⟩ : Fin 2) k (⟨n.val % 4096, by omega⟩ : Fin 4096))
    (fun b => match b with | ⟨0, _⟩ => rfl | ⟨1, _⟩ => rfl | ⟨2, _⟩ => rfl)).trans ?_
  refine shapeCast_apply p shapeCasts_S2x32x16x16x16_S2x32x4096 _ _ ?_
  rw [Shape.rowMajor_val_five, Shape.rowMajor_val_three]
  show (((n.val / 4096 * 32 + k.val) * 16 + n.val / 256 % 16) * 16 + n.val / 16 % 16) * 16 + n.val % 16
    = (n.val / 4096 * 32 + k.val) * 4096 + n.val % 4096
  omega

/-- The norm column at row `n`: the square root of the sum of the row's squares. -/
theorem normCol_apply (a : FVec Ideal S8192x32 .f32) (n : Fin 8192) (u : Fin 1) :
    normCol a (ix2 n u) = Ideal.sqrt (∑ k : Fin 32, a (ix2 n k) * a (ix2 n k)) := by
  unfold normCol
  refine congrArg Ideal.sqrt ?_
  refine (broadcastInDim_apply _ bcast_S8192_S8192x1_0 _ (ix2 n u) (ix1 n) (fun b => match b with
    | ⟨0, _⟩ => by show n.val = if (8192 : Nat) = 1 then 0 else n.val; rw [if_neg (by decide)])).trans ?_
  simp only [Host.reduceAdd, Ideal.hostReduceAdd_def]
  rw [Ideal.hostReduceAdd_single reducesTo_S8192x32_S8192_d1 (by decide)]
  show Ideal.ofBits .f32 0x00000000#32 + _ = _
  rw [Ideal.ofBits_zero_f32, zero_add]
  refine Finset.sum_congr rfl fun k _ => ?_
  show a _ * a _ = _
  rw [show (Shape.Reduces.lift (s := S8192x32) (t := S8192) (a := 1) (by decide) (ix1 n) k) = ix2 n k from
    funext fun b => Fin.ext (by match b with | ⟨0, _⟩ => rfl | ⟨1, _⟩ => rfl)]
  rfl

/-- The divided matrix at `(n, k)`: the entry over the larger of the column's entry at row `n` and the constant. -/
theorem divRows_apply (a : FVec Ideal S8192x32 .f32) (nrm : FVec Ideal S8192x1 .f32) (n : Fin 8192) (k : Fin 32) :
    divRows a nrm (ix2 n k)
      = Ideal.div (a (ix2 n k)) (max (nrm (ix2 n (0 : Fin 1))) (Ideal.ofBits .f32 0x322BCC77#32)) := by
  unfold divRows
  refine congrArg (Ideal.div (a (ix2 n k))) ?_
  refine (broadcastInDim_apply _ bcast_S8192x1_S8192x32_0_1 _ (ix2 n k) (ix2 n (0 : Fin 1)) (fun b => match b with
    | ⟨0, _⟩ => by show n.val = if (8192 : Nat) = 1 then 0 else n.val; rw [if_neg (by decide)]
    | ⟨1, _⟩ => by show 0 = if (1 : Nat) = 1 then 0 else k.val; rw [if_pos rfl])).trans ?_
  rfl

/-- Laying a pooled array out as rows and dividing each row by the larger of its norm and the constant gives the
    normalised rows of its cells. -/
theorem rowsOf_normalised (p : FVec Ideal S2x32x16x16x16 .f32) :
    rowsOf (divRows (flatRows p) (normCol (flatRows p))) = Cert.Spec.normed (Cert.Spec.rows (pooledOf p)) := by
  rw [← rowsOf_flatRows]
  funext n k
  show divRows (flatRows p) (normCol (flatRows p)) (ix2 n k) = _
  rw [divRows_apply, normCol_apply]
  rfl

/-! ## What each stretch of host operations leaves -/

section Stretches

variable (V : Valuation τ sig (Elt Ideal))

theorem flat_v3 : StableHlo.after (hostOps1 (F := Ideal)) V (Proc.devRef .tc main_v3) = flatRows (V (Proc.devRef .tc main_v0_0)) := by
  after_results; rfl
theorem flat_v6 : StableHlo.after (hostOps1 (F := Ideal)) V (Proc.devRef .tc main_v6) = flatRows (V (Proc.devRef .tc main_v0_1)) := by
  after_results; rfl
theorem norm_v7 : StableHlo.after (hostOps1_1 (F := Ideal)) V (Proc.devRef .tc main_v7) = normCol (V (Proc.devRef .tc main_v3)) := by
  after_results; rfl
theorem div_v11 : StableHlo.after (hostOps1_2 (F := Ideal)) V (Proc.devRef .tc main_v11)
    = divRows (V (Proc.devRef .tc main_v3)) (V (Proc.devRef .tc main_v7)) := by
  after_results; rfl
theorem norm_v12 : StableHlo.after (hostOps1_3 (F := Ideal)) V (Proc.devRef .tc main_v12) = normCol (V (Proc.devRef .tc main_v6)) := by
  after_results; rfl
theorem div_v16 : StableHlo.after (hostOps1_4 (F := Ideal)) V (Proc.devRef .tc main_v16)
    = divRows (V (Proc.devRef .tc main_v6)) (V (Proc.devRef .tc main_v12)) := by
  after_results; rfl

/-- A stretch leaves every array it does not write as it was: the rows of both matrices through the norm and
    division stretches that read them, and the first normalised matrix through the second matrix's two stretches. -/
theorem keep1_v3 : StableHlo.after (hostOps1_1 (F := Ideal)) V (Proc.devRef .tc main_v3) = V (Proc.devRef .tc main_v3) := by
  after_results
theorem keep1_v6 : StableHlo.after (hostOps1_1 (F := Ideal)) V (Proc.devRef .tc main_v6) = V (Proc.devRef .tc main_v6) := by
  after_results
theorem keep2_v6 : StableHlo.after (hostOps1_2 (F := Ideal)) V (Proc.devRef .tc main_v6) = V (Proc.devRef .tc main_v6) := by
  after_results
theorem keep3_v6 : StableHlo.after (hostOps1_3 (F := Ideal)) V (Proc.devRef .tc main_v6) = V (Proc.devRef .tc main_v6) := by
  after_results
theorem keep3_v11 : StableHlo.after (hostOps1_3 (F := Ideal)) V (Proc.devRef .tc main_v11) = V (Proc.devRef .tc main_v11) := by
  after_results
theorem keep4_v11 : StableHlo.after (hostOps1_4 (F := Ideal)) V (Proc.devRef .tc main_v11) = V (Proc.devRef .tc main_v11) := by
  after_results

end Stretches

end Mid

variable (m : (ℓ : Loc nD τ sig) → Buf (Elt Ideal) ℓ) (ρ : Dev nD → PrngReg) (c : Dev nD)

theorem rows_v11 :
    rowsOf (W7 (F := Ideal) m ρ c (Proc.devRef .tc main_v11))
      = Cert.Spec.normed (Cert.Spec.rows (pooledOf (W2 (F := Ideal) m ρ c (Proc.devRef .tc main_v0_0)))) := by
  have e : W7 (F := Ideal) m ρ c (Proc.devRef .tc main_v11)
      = divRows (flatRows (W2 (F := Ideal) m ρ c (Proc.devRef .tc main_v0_0)))
          (normCol (flatRows (W2 (F := Ideal) m ρ c (Proc.devRef .tc main_v0_0)))) :=
    (keep4_v11 _).trans <| (keep3_v11 _).trans <| (div_v11 _).trans <|
      congrArg₂ divRows ((keep1_v3 _).trans (flat_v3 _)) ((norm_v7 _).trans (congrArg normCol (flat_v3 _)))
  rw [e]; exact rowsOf_normalised _

theorem rows_v16 :
    rowsOf (W7 (F := Ideal) m ρ c (Proc.devRef .tc main_v16))
      = Cert.Spec.normed (Cert.Spec.rows (pooledOf (W2 (F := Ideal) m ρ c (Proc.devRef .tc main_v0_1)))) := by
  have e : W7 (F := Ideal) m ρ c (Proc.devRef .tc main_v16)
      = divRows (flatRows (W2 (F := Ideal) m ρ c (Proc.devRef .tc main_v0_1)))
          (normCol (flatRows (W2 (F := Ideal) m ρ c (Proc.devRef .tc main_v0_1)))) :=
    (div_v16 _).trans <|
      congrArg₂ divRows ((keep3_v6 _).trans <| (keep2_v6 _).trans <| (keep1_v6 _).trans (flat_v6 _))
        ((norm_v12 _).trans (congrArg normCol ((keep2_v6 _).trans <| (keep1_v6 _).trans (flat_v6 _))))
  rw [e]; exact rowsOf_normalised _

end Cert.KernelIdeal.Hand

end
-- ==== Proof.MsePay.lean ====
/- One tile's step of the accumulator, lane by lane: to what it held the body adds the sum, over the
   1024 x 1024 pairs of a row of the first tile and a row of the second, of the squared difference of
   the two matrices' inner products of those rows. Every lane gets the same sum. -/
import proofs.«166016_j61263413510182_1_alg».proof.Proof.Gen.KernelIdeal.Skeleton
import proofs.«166016_j61263413510182_1_alg».proof.Proof.Spec
import Idealize.ShloMosaic.Lib.ValueIdx
import Idealize.ShloMosaic.Lib.Pipeline.Value
import Idealize.ShloMosaic.PureOps.Ideal.Laws

set_option maxRecDepth 16384

noncomputable section

namespace Cert.KernelIdeal.Hand

open Idealize.ShloMosaic Cert.KernelIdeal Cert.KernelIdeal.Gen
open Idealize.ShloMosaic.ValueIdx (ix2 ix3 ix5)

/-! ## Sums over a block with a leading axis of length one -/

/-- A rank-3 index set whose leading extent is one is the product of its two other coordinate ranges:
    the leading coordinate can only be zero. -/
def idxEquivUnit3 {n1 n2 : Nat} : (⟨3, ![1, n1, n2]⟩ : Shape).Idx ≃ Fin n1 × Fin n2 where
  toFun i := (i 1, i 2)
  invFun p := ix3 (0 : Fin 1) p.1 p.2
  left_inv i := by
    funext a
    match a with
    | ⟨0, _⟩ =>
      have h : (i 0).val < 1 := (i 0).isLt
      exact Fin.ext (show (0 : ℕ) = (i 0).val by omega)
    | ⟨1, _⟩ => rfl
    | ⟨2, _⟩ => rfl
  right_inv _ := rfl

/-- So a sum over such an index set is the double sum over those two coordinates. -/
theorem sum_unit3 {M : Type*} [AddCommMonoid M] {n1 n2 : Nat} (f : (⟨3, ![1, n1, n2]⟩ : Shape).Idx → M) :
    ∑ i, f i = ∑ r : Fin n1, ∑ s : Fin n2, f (ix3 (0 : Fin 1) r s) := by
  rw [← Equiv.sum_comp (idxEquivUnit3 (n1 := n1) (n2 := n2)).symm f, Fintype.sum_prod_type]
  rfl

/-! ## The product of a tile with the transpose of another, at an entry -/

/-- The left operand's row coordinate is the entry's row. -/
theorem lhs_gram_0 (i : S1024x1024.Idx) (q : dot_S1024x32_S32x1024_S1024x1024_1_0_0_1_n_n.contr.Idx) :
    (dot_S1024x32_S32x1024_S1024x1024_1_0_0_1_n_n.lhsIdx i q 0).val = (i 0).val := by
  unfold DotDims.lhsIdx
  rw [dif_neg (show ¬(0 : Fin S1024x32.rank) ∈ dot_S1024x32_S32x1024_S1024x1024_1_0_0_1_n_n.lhsBatch by decide), dif_pos (show (0 : Fin S1024x32.rank) ∈ dot_S1024x32_S32x1024_S1024x1024_1_0_0_1_n_n.lhsNonContracting by decide)]
  rfl
/-- The left operand's column coordinate is the contraction index. -/
theorem lhs_gram_1 (i : S1024x1024.Idx) (q : dot_S1024x32_S32x1024_S1024x1024_1_0_0_1_n_n.contr.Idx) :
    (dot_S1024x32_S32x1024_S1024x1024_1_0_0_1_n_n.lhsIdx i q 1).val = (q ⟨0, by decide⟩).val :=
  dot_S1024x32_S32x1024_S1024x1024_1_0_0_1_n_n.lhsIdx_val_of_single rfl i q
/-- The right operand's row coordinate is the contraction index. -/
theorem rhs_gram_0 (i : S1024x1024.Idx) (q : dot_S1024x32_S32x1024_S1024x1024_1_0_0_1_n_n.contr.Idx) :
    (dot_S1024x32_S32x1024_S1024x1024_1_0_0_1_n_n.rhsIdx i q 0).val = (q ⟨0, by decide⟩).val :=
  dot_S1024x32_S32x1024_S1024x1024_1_0_0_1_n_n.rhsIdx_val_of_single rfl i q
/-- The right operand's column coordinate is the entry's column. -/
theorem rhs_gram_1 (i : S1024x1024.Idx) (q : dot_S1024x32_S32x1024_S1024x1024_1_0_0_1_n_n.contr.Idx) :
    (dot_S1024x32_S32x1024_S1024x1024_1_0_0_1_n_n.rhsIdx i q 1).val = (i 1).val := by
  unfold DotDims.rhsIdx
  rw [dif_neg (show ¬(1 : Fin S32x1024.rank) ∈ dot_S1024x32_S32x1024_S1024x1024_1_0_0_1_n_n.rhsBatch by decide), dif_pos (show (1 : Fin S32x1024.rank) ∈ dot_S1024x32_S32x1024_S1024x1024_1_0_0_1_n_n.rhsNonContracting by decide)]
  rfl

/-- Entry (r, s) of a tile times the transpose of a second tile, accumulated into zero, is the inner
    product of row r of the first with row s of the second. -/
theorem gram_entry (a b : FVec Ideal S1024x32 .f32) (h : S1024x32.Transposes [1, 0] S32x1024) (r s : Fin 1024) :
    matmul (F := Ideal) dot_S1024x32_S32x1024_S1024x1024_1_0_0_1_n_n none a (transpose S32x1024 [1, 0] b h)
        (constant (F := Ideal) S1024x1024 .f32 0x00000000#32) (ix2 r s)
      = ∑ k : Fin 32, a (ix2 r k) * b (ix2 s k) := by
  simp only [matmul]
  rw [Ideal.matmul_constant_zero_apply, ← Equiv.sum_comp (ValueIdx.contrEquiv1 dot_S1024x32_S32x1024_S1024x1024_1_0_0_1_n_n 32 rfl rfl).symm]
  refine Finset.sum_congr rfl fun k _ => ?_
  have hk := ValueIdx.contrEquiv1_symm_val dot_S1024x32_S32x1024_S1024x1024_1_0_0_1_n_n 32 rfl rfl k
  have el : dot_S1024x32_S32x1024_S1024x1024_1_0_0_1_n_n.lhsIdx (ix2 r s) ((ValueIdx.contrEquiv1 dot_S1024x32_S32x1024_S1024x1024_1_0_0_1_n_n 32 rfl rfl).symm k) = ix2 r k := funext fun c => Fin.ext (by
    match c with
    | ⟨0, _⟩ => exact lhs_gram_0 _ _
    | ⟨1, _⟩ => exact (lhs_gram_1 _ _).trans hk)
  have er : dot_S1024x32_S32x1024_S1024x1024_1_0_0_1_n_n.rhsIdx (ix2 r s) ((ValueIdx.contrEquiv1 dot_S1024x32_S32x1024_S1024x1024_1_0_0_1_n_n 32 rfl rfl).symm k) = ix2 k s := funext fun c => Fin.ext (by
    match c with
    | ⟨0, _⟩ => exact (rhs_gram_0 _ _).trans hk
    | ⟨1, _⟩ => exact rhs_gram_1 _ _)
  rw [el, er]
  -- the transposed tile at (k, s) is the tile at (s, k)
  exact congrArg (a (ix2 r k) * ·) (transpose_apply [1, 0] b h (ix2 k s) (ix2 s k) (fun c => by
    match c with
    | ⟨0, _⟩ => rfl
    | ⟨1, _⟩ => rfl))

/-! ## The sum over the whole 1024 x 1024 block, and the layout steps around it -/

/-- The 1024 x 1024 block viewed with a leading unit axis reads the same entry. -/
theorem cast_unit_entry (v : FVec Ideal S1024x1024 .f32) (h : S1024x1024.ShapeCasts S1x1024x1024) (r s : Fin 1024) :
    shapeCast S1x1024x1024 v h (ix3 (0 : Fin 1) r s) = v (ix2 r s) :=
  shapeCast_apply v h _ _ (by
    rw [Shape.rowMajor_val_two, Shape.rowMajor_val_three]
    show r.val * 1024 + s.val = (0 * 1024 + r.val) * 1024 + s.val
    omega)

/-- The sum over the two long axes of a 1 x 1024 x 1024 block, at its one result index, is the double
    sum over rows and columns. -/
theorem block_total (v : FVec Ideal S1x1024x1024 .f32) (h : S1x1024x1024.Reduces [1, 2] S1) (hφ : FKind.Formats .f32)
    (hacc : (0x00000000#32 : BitVec 32) = FKind.add.neutral .f32 hφ) (j : S1.Idx) :
    multiReduction (F := Ideal) .add [1, 2] S1 v 0x00000000#32 h hφ hacc j
      = ∑ r : Fin 1024, ∑ s : Fin 1024, v (ix3 (0 : Fin 1) r s) :=
  (Ideal.multiReduction_add_total v _ h (fun b => by match b with | ⟨0, _⟩ => rfl) hφ hacc j).trans (sum_unit3 v)

/-- Reading the one element of a one-element vector viewed as 1 x 1 x 1. -/
theorem extract_one (v : FVec Ideal S1 .f32) (h : S1.ShapeCasts S1x1x1)
    (hp : ∀ a, (![0, 0, 0] : Fin 3 → Nat) a < S1x1x1.size a) :
    extractAt ![0, 0, 0] (shapeCast S1x1x1 v h) hp = v (ValueIdx.ix1 (0 : Fin 1)) := by
  unfold extractAt
  exact shapeCast_apply v h _ _ (by rw [Shape.rowMajor_val_one, Shape.rowMajor_val_three]; rfl)

theorem pay1_apply (l : Fin 128) : k1_pay1 (F := Ideal) (ix3 (0 : Fin 1) (0 : Fin 1) l) = 0 := by
  unfold k1_pay1
  simp only [shapeCast_self]
  -- a splat reads its value everywhere, and the value is the word of zero
  rw [ValueIdx.broadcast_apply]
  exact Ideal.ofBits_zero_f32

theorem pay2_step (x0 x1 x2 x3 : Vec Ideal S1024x32 .f32) (prev : Vec Ideal S1x1x128 .f32) (l : Fin 128) :
    k1_pay2 (F := Ideal) x0 x1 x2 x3 prev (ix3 (0 : Fin 1) (0 : Fin 1) l)
      = prev (ix3 (0 : Fin 1) (0 : Fin 1) l)
        + ∑ r : Fin 1024, ∑ s : Fin 1024,
            ((∑ k : Fin 32, x0 (ix2 r k) * x1 (ix2 s k)) - (∑ k : Fin 32, x2 (ix2 r k) * x3 (ix2 s k)))
              * ((∑ k : Fin 32, x0 (ix2 r k) * x1 (ix2 s k)) - (∑ k : Fin 32, x2 (ix2 r k) * x3 (ix2 s k))) := by
  unfold k1_pay2
  -- the casts of a tile to its own shape are identities
  simp only [shapeCast_self]
  -- lane l holds the old lane plus the splat scalar
  rw [ValueIdx.addf_apply, ValueIdx.broadcast_apply]
  refine congrArg (prev (ix3 (0 : Fin 1) (0 : Fin 1) l) + ·) ?_
  -- the scalar is the one element of the sum over the whole block, a double sum over rows and columns
  refine (extract_one _ _ _).trans ?_
  refine (block_total _ _ _ _ _).trans ?_
  refine Finset.sum_congr rfl fun r _ => Finset.sum_congr rfl fun s _ => ?_
  -- entry (r, s) of the block: the square of the difference of the two products' entries
  rw [cast_unit_entry, ValueIdx.mulf_apply, ValueIdx.subf_apply, gram_entry, gram_entry]

end Cert.KernelIdeal.Hand

end
-- ==== Proof.ValMse.lean ====
/- The result: the pairwise-difference region leaves in row tile i of its output the sum over the eight
   column tiles of the tile's sum of squared differences; the host adds the eight rows and divides. -/
import proofs.«166016_j61263413510182_1_alg».proof.Proof.Fold
import proofs.«166016_j61263413510182_1_alg».proof.Proof.Conv
import proofs.«166016_j61263413510182_1_alg».proof.Proof.MsePay
import Idealize.ShloMosaic.Lib.ValueIdx
import Idealize.ShloMosaic.Lib.Pipeline.Value
import Idealize.ShloMosaic.PureOps.Ideal.Laws
import Mathlib.Algebra.BigOperators.Group.Finset.Basic
import Mathlib.Data.Fintype.BigOperators

set_option maxRecDepth 16384

noncomputable section

namespace Cert.KernelIdeal.Hand

open Idealize.ShloMosaic Idealize.ShloMosaic.TcCoe Idealize.SL.Sem
open Idealize.ShloMosaic.Pipeline (Dat)
open Cert.KernelIdeal Cert.KernelIdeal.Gen Cert.Conv

variable (m : (ℓ : Loc nD τ sig) → Buf (Elt Ideal) ℓ) (ρ : Dev nD → PrngReg) (c : Dev nD)

/-! ## The host tail -/

/-- An index of the eight partial sums is its one coordinate. -/
def rowIdx : Fin 8 ≃ S8.Idx where
  toFun k := ValueIdx.ix1 k
  invFun j := j 0
  left_inv k := rfl
  right_inv j := (ValueIdx.eq_ix1 j).symm

/-- The host tail on any contents `Y` of the partial-sum array: lane 0 of each of the eight rows is taken, the eight
    are added to zero, and the sum is divided by the number of pairs. -/
theorem tail_read (Y : FVec Ideal S8x1x128 .f32) :
    Host.divf (F := Ideal)
      (Host.reduceAdd (shapeCast S8 (extractStridedSlice S8x1x1 ![0, 0, 0] Y slices_S8x1x128_S8x1x1_0_0_0) shapeCasts_S8x1x1_S8)
        (constant S_ .f32 0x00000000#32) reducesTo_S8_S_d0 h_S_)
      (constant S_ .f32 0x4C800000#32)
    = fun _ => Ideal.div (∑ i : Fin 8, Y (ValueIdx.ix3 i (0 : Fin 1) (0 : Fin 128))) (Ideal.ofBits .f32 0x4C800000#32) := by
  funext j
  show Ideal.div (Ideal.hostReduceAdd reducesTo_S8_S_d0 (shapeCast S8 (extractStridedSlice S8x1x1 ![0, 0, 0] Y slices_S8x1x128_S8x1x1_0_0_0) shapeCasts_S8x1x1_S8) (Ideal.ofBits .f32 0x00000000#32) j) (Ideal.ofBits .f32 0x4C800000#32) = _
  rw [Ideal.hostReduceAdd_total reducesTo_S8_S_d0 (fun b => b.elim0), Ideal.ofBits_zero_f32, zero_add, ← Equiv.sum_comp rowIdx]
  congr 1
  refine Finset.sum_congr rfl fun k _ => ?_
  refine (shapeCast_apply _ shapeCasts_S8x1x1_S8 _ (ValueIdx.ix3 k (0 : Fin 1) (0 : Fin 1)) ?_).trans ?_
  · rw [Shape.rowMajor_val_three, Shape.rowMajor_val_one]
    show (k.val * 1 + 0) * 1 + 0 = k.val
    omega
  · refine extractStridedSlice_apply _ _ _ _ (ValueIdx.ix3 k (0 : Fin 1) (0 : Fin 128)) fun a => ?_
    match a with
    | ⟨0, _⟩ => show k.val = 0 + k.val; omega
    | ⟨1, _⟩ => rfl
    | ⟨2, _⟩ => rfl

/-- The program's result is the host tail of what the pairwise-difference region leaves in its output array. -/
theorem result_tail :
    W9 (F := Ideal) m ρ c (Proc.devRef .tc main_v21) = fun _ =>
      Ideal.div (∑ i : Fin 8, (dat1 (V7 (F := Ideal) m ρ) c).arrAt 4 cfg1.N (ValueIdx.ix3 i (0 : Fin 1) (0 : Fin 128)))
        (Ideal.ofBits .f32 0x4C800000#32) := by
  show StableHlo.after hostOps2 (W8 m ρ c) (Proc.devRef .tc main_v21) = _
  after_results
  refine (tail_read (W8 (F := Ideal) m ρ c (Proc.devRef .tc main_v17))).trans ?_
  unfold W8
  rw [Function.update_self]
  rfl

/-! ## The input blocks -/

/-- The block indices of the five windows at a point, decided over the 64 points: windows 0 and 2 follow the row
    tile, windows 1 and 3 the column tile, and the output's block is the row tile's. -/
theorem idx1_facts : ∀ t : Fin cfg1.N,
    win1_0.index t (0 : Fin 2) = t.val / 8 ∧ win1_0.index t (1 : Fin 2) = 0
    ∧ win1_1.index t (0 : Fin 2) = t.val % 8 ∧ win1_1.index t (1 : Fin 2) = 0
    ∧ win1_2.index t (0 : Fin 2) = t.val / 8 ∧ win1_2.index t (1 : Fin 2) = 0
    ∧ win1_3.index t (0 : Fin 2) = t.val % 8 ∧ win1_3.index t (1 : Fin 2) = 0
    ∧ win1_4.index t (0 : Fin 3) = t.val / 8 ∧ win1_4.index t (1 : Fin 3) = 0 ∧ win1_4.index t (2 : Fin 3) = 0 :=
  (by decide +kernel : ∀ t : Fin grid1.N, _)

/-- At point `8 i + j` window 0's block is row tile `i` of the first matrix, -/
theorem iblk1_0_apply (t : Fin cfg1.N) (i j : Fin 8) (ht : t.val = 8 * i.val + j.val) (r : Fin 1024) (k : Fin 32) :
    iblk1 (V7 (F := Ideal) m ρ) c 0 t (ValueIdx.ix2 r k)
      = W7 (F := Ideal) m ρ c (Proc.devRef .tc main_v11) (ValueIdx.ix2 (Cert.Spec.tile i r) k) := by
  obtain ⟨e0, e1, -⟩ := idx1_facts t
  unfold iblk1
  rw [View.read_apply]
  show W7 (F := Ideal) m ρ c (Proc.devRef .tc main_v11) _ = W7 (F := Ideal) m ρ c (Proc.devRef .tc main_v11) _
  congr 1
  funext a
  apply Fin.ext
  match a with
  | ⟨0, _⟩ => show win1_0.index t (0 : Fin 2) * 1024 + 1 * r.val = 1024 * i.val + r.val; rw [e0]; omega
  | ⟨1, _⟩ => show win1_0.index t (1 : Fin 2) * 32 + 1 * k.val = k.val; rw [e1]; omega

/-- window 1's is row tile `j` of the first matrix, -/
theorem iblk1_1_apply (t : Fin cfg1.N) (i j : Fin 8) (ht : t.val = 8 * i.val + j.val) (s : Fin 1024) (k : Fin 32) :
    iblk1 (V7 (F := Ideal) m ρ) c 1 t (ValueIdx.ix2 s k)
      = W7 (F := Ideal) m ρ c (Proc.devRef .tc main_v11) (ValueIdx.ix2 (Cert.Spec.tile j s) k) := by
  obtain ⟨-, -, e0, e1, -⟩ := idx1_facts t
  unfold iblk1
  rw [View.read_apply]
  show W7 (F := Ideal) m ρ c (Proc.devRef .tc main_v11) _ = W7 (F := Ideal) m ρ c (Proc.devRef .tc main_v11) _
  congr 1
  funext a
  apply Fin.ext
  match a with
  | ⟨0, _⟩ => show win1_1.index t (0 : Fin 2) * 1024 + 1 * s.val = 1024 * j.val + s.val; rw [e0]; omega
  | ⟨1, _⟩ => show win1_1.index t (1 : Fin 2) * 32 + 1 * k.val = k.val; rw [e1]; omega

/-- window 2's is row tile `i` of the second matrix, -/
theorem iblk1_2_apply (t : Fin cfg1.N) (i j : Fin 8) (ht : t.val = 8 * i.val + j.val) (r : Fin 1024) (k : Fin 32) :
    iblk1 (V7 (F := Ideal) m ρ) c 2 t (ValueIdx.ix2 r k)
      = W7 (F := Ideal) m ρ c (Proc.devRef .tc main_v16) (ValueIdx.ix2 (Cert.Spec.tile i r) k) := by
  obtain ⟨-, -, -, -, e0, e1, -⟩ := idx1_facts t
  unfold iblk1
  rw [View.read_apply]
  show W7 (F := Ideal) m ρ c (Proc.devRef .tc main_v16) _ = W7 (F := Ideal) m ρ c (Proc.devRef .tc main_v16) _
  congr 1
  funext a
  apply Fin.ext
  match a with
  | ⟨0, _⟩ => show win1_2.index t (0 : Fin 2) * 1024 + 1 * r.val = 1024 * i.val + r.val; rw [e0]; omega
  | ⟨1, _⟩ => show win1_2.index t (1 : Fin 2) * 32 + 1 * k.val = k.val; rw [e1]; omega

/-- and window 3's is row tile `j` of the second matrix. -/
theorem iblk1_3_apply (t : Fin cfg1.N) (i j : Fin 8) (ht : t.val = 8 * i.val + j.val) (s : Fin 1024) (k : Fin 32) :
    iblk1 (V7 (F := Ideal) m ρ) c 3 t (ValueIdx.ix2 s k)
      = W7 (F := Ideal) m ρ c (Proc.devRef .tc main_v16) (ValueIdx.ix2 (Cert.Spec.tile j s) k) := by
  obtain ⟨-, -, -, -, -, -, e0, e1, -⟩ := idx1_facts t
  unfold iblk1
  rw [View.read_apply]
  show W7 (F := Ideal) m ρ c (Proc.devRef .tc main_v16) _ = W7 (F := Ideal) m ρ c (Proc.devRef .tc main_v16) _
  congr 1
  funext a
  apply Fin.ext
  match a with
  | ⟨0, _⟩ => show win1_3.index t (0 : Fin 2) * 1024 + 1 * s.val = 1024 * j.val + s.val; rw [e0]; omega
  | ⟨1, _⟩ => show win1_3.index t (1 : Fin 2) * 32 + 1 * k.val = k.val; rw [e1]; omega

/-! ## One point's step -/

/-- The sum, over the pairs of a row of the first block and a row of the second, of the squared difference of the
    inner products of those rows in the first pair of blocks and in the second pair. -/
def tileSq (x0 x1 x2 x3 : Vec Ideal S1024x32 .f32) : EReal :=
  ∑ r : Fin 1024, ∑ s : Fin 1024,
    ((∑ k : Fin 32, x0 (ValueIdx.ix2 r k) * x1 (ValueIdx.ix2 s k)) - (∑ k : Fin 32, x2 (ValueIdx.ix2 r k) * x3 (ValueIdx.ix2 s k)))
      * ((∑ k : Fin 32, x0 (ValueIdx.ix2 r k) * x1 (ValueIdx.ix2 s k)) - (∑ k : Fin 32, x2 (ValueIdx.ix2 r k) * x3 (ValueIdx.ix2 s k)))

/-- Tile `(i, j)`'s sum of squared differences of the two matrices' inner products of rows. -/
def tileTotal (i j : Fin 8) : EReal :=
  ∑ r : Fin 1024, ∑ s : Fin 1024,
    Cert.Spec.sqd (rowsOf (W7 (F := Ideal) m ρ c (Proc.devRef .tc main_v11))) (rowsOf (W7 (F := Ideal) m ρ c (Proc.devRef .tc main_v16)))
      (Cert.Spec.tile i r) (Cert.Spec.tile j s)

/-- A point's step adds to every lane the sum formed from the four blocks the point reads. -/
theorem step1_apply (t : Fin cfg1.N) (prev : Vec Ideal S1x1x128 .f32) (l : Fin 128) :
    step1 (V7 (F := Ideal) m ρ) c t prev (ValueIdx.ix3 (0 : Fin 1) (0 : Fin 1) l)
      = prev (ValueIdx.ix3 (0 : Fin 1) (0 : Fin 1) l)
        + tileSq (iblk1 (V7 (F := Ideal) m ρ) c 0 t) (iblk1 (V7 (F := Ideal) m ρ) c 1 t)
            (iblk1 (V7 (F := Ideal) m ρ) c 2 t) (iblk1 (V7 (F := Ideal) m ρ) c 3 t) :=
  pay2_step (iblk1 (V7 (F := Ideal) m ρ) c 0 t) (iblk1 (V7 (F := Ideal) m ρ) c 1 t)
    (iblk1 (V7 (F := Ideal) m ρ) c 2 t) (iblk1 (V7 (F := Ideal) m ρ) c 3 t) prev l

/-- An inner product of a row of one block with a row of another is the matrix's inner product of the two rows the
    block rows are. -/
theorem sim_of_blocks (A : FVec Ideal S8192x32 .f32) (x0 x1 : Vec Ideal S1024x32 .f32) (p q : Fin 8192) (r s : Fin 1024)
    (h0 : ∀ k : Fin 32, x0 (ValueIdx.ix2 r k) = A (ValueIdx.ix2 p k)) (h1 : ∀ k : Fin 32, x1 (ValueIdx.ix2 s k) = A (ValueIdx.ix2 q k)) :
    (∑ k : Fin 32, x0 (ValueIdx.ix2 r k) * x1 (ValueIdx.ix2 s k)) = Cert.Spec.sim (rowsOf A) p q :=
  Finset.sum_congr rfl fun k _ => by rw [h0 k, h1 k]; rfl

/-- When the four blocks are row tiles `i` and `j` of two matrices, the blocks' sum is tile `(i, j)`'s. -/
theorem tileSq_of_blocks (A B : FVec Ideal S8192x32 .f32) (x0 x1 x2 x3 : Vec Ideal S1024x32 .f32) (i j : Fin 8)
    (h0 : ∀ (r : Fin 1024) (k : Fin 32), x0 (ValueIdx.ix2 r k) = A (ValueIdx.ix2 (Cert.Spec.tile i r) k))
    (h1 : ∀ (s : Fin 1024) (k : Fin 32), x1 (ValueIdx.ix2 s k) = A (ValueIdx.ix2 (Cert.Spec.tile j s) k))
    (h2 : ∀ (r : Fin 1024) (k : Fin 32), x2 (ValueIdx.ix2 r k) = B (ValueIdx.ix2 (Cert.Spec.tile i r) k))
    (h3 : ∀ (s : Fin 1024) (k : Fin 32), x3 (ValueIdx.ix2 s k) = B (ValueIdx.ix2 (Cert.Spec.tile j s) k)) :
    tileSq x0 x1 x2 x3
      = ∑ r : Fin 1024, ∑ s : Fin 1024, Cert.Spec.sqd (rowsOf A) (rowsOf B) (Cert.Spec.tile i r) (Cert.Spec.tile j s) := by
  unfold tileSq
  refine Finset.sum_congr rfl fun r _ => Finset.sum_congr rfl fun s _ => ?_
  rw [sim_of_blocks A x0 x1 (Cert.Spec.tile i r) (Cert.Spec.tile j s) r s (h0 r) (h1 s),
    sim_of_blocks B x2 x3 (Cert.Spec.tile i r) (Cert.Spec.tile j s) r s (h2 r) (h3 s)]
  rfl

/-- At point `8 i + j` that sum is tile `(i, j)`'s. -/
theorem tileSq_blocks (t : Fin cfg1.N) (i j : Fin 8) (ht : t.val = 8 * i.val + j.val) :
    tileSq (iblk1 (V7 (F := Ideal) m ρ) c 0 t) (iblk1 (V7 (F := Ideal) m ρ) c 1 t)
        (iblk1 (V7 (F := Ideal) m ρ) c 2 t) (iblk1 (V7 (F := Ideal) m ρ) c 3 t)
      = tileTotal m ρ c i j :=
  tileSq_of_blocks (W7 (F := Ideal) m ρ c (Proc.devRef .tc main_v11)) (W7 (F := Ideal) m ρ c (Proc.devRef .tc main_v16))
    (iblk1 (V7 (F := Ideal) m ρ) c 0 t) (iblk1 (V7 (F := Ideal) m ρ) c 1 t)
    (iblk1 (V7 (F := Ideal) m ρ) c 2 t) (iblk1 (V7 (F := Ideal) m ρ) c 3 t) i j
    (fun r k => iblk1_0_apply m ρ c t i j ht r k) (fun s k => iblk1_1_apply m ρ c t i j ht s k)
    (fun r k => iblk1_2_apply m ρ c t i j ht r k) (fun s k => iblk1_3_apply m ρ c t i j ht s k)

/-! ## The accumulator in closed form -/

/-- Tile `(i, n)`'s sum for a column tile given as a natural number (zero past the eighth). -/
def tileTotalN (i : Fin 8) (n : ℕ) : EReal := if h : n < 8 then tileTotal m ρ c i ⟨n, h⟩ else 0

theorem tileTotalN_of_lt (i : Fin 8) (n : ℕ) (h : n < 8) : tileTotalN m ρ c i n = tileTotal m ρ c i ⟨n, h⟩ := by
  unfold tileTotalN; rw [dif_pos h]

/-- After the body at point `8 i + j` every lane of the accumulator holds the sums of tiles `(i, 0), …, (i, j)`:
    at `j = 0` the body starts from zero, and each later point adds its tile to what the point before left. -/
theorem acc1_closed (i : Fin 8) (l : Fin 128) : ∀ (j : ℕ) (hj : j < 8) (hn : 8 * i.val + j < cfg1.N),
    acc1 (V7 (F := Ideal) m ρ) c (8 * i.val + j) hn (ValueIdx.ix3 (0 : Fin 1) (0 : Fin 1) l)
      = ∑ n ∈ Finset.range (j + 1), tileTotalN m ρ c i n
  | 0, hj, hn => by
    refine (congrFun (acc1_reset (V7 (F := Ideal) m ρ) c ⟨8 * i.val + 0, hn⟩ (by show (8 * i.val + 0) % 8 = 0; omega)) _).trans ?_
    rw [step1_apply, pay1_apply, zero_add, tileSq_blocks m ρ c ⟨8 * i.val + 0, hn⟩ i ⟨0, hj⟩ rfl, Finset.sum_range_one,
      tileTotalN_of_lt m ρ c i 0 hj]
  | j + 1, hj, hn => by
    refine (congrFun (acc1_cont (V7 (F := Ideal) m ρ) c (8 * i.val + j) hn (by omega)) _).trans ?_
    rw [step1_apply, acc1_closed i l j (by omega) (Nat.lt_of_succ_lt hn),
      tileSq_blocks m ρ c ⟨8 * i.val + j + 1, hn⟩ i ⟨j + 1, hj⟩ rfl, Finset.sum_range_succ _ (j + 1),
      tileTotalN_of_lt m ρ c i (j + 1) hj]

/-- The accumulator depends on the point's number only. -/
theorem acc1_congr {n n' : ℕ} (e : n = n') (hn : n < cfg1.N) (hn' : n' < cfg1.N) :
    acc1 (V7 (F := Ideal) m ρ) c n hn = acc1 (V7 (F := Ideal) m ρ) c n' hn' := by
  subst e; rfl

/-- At the last column tile of row tile `i` every lane holds the sum over the eight column tiles. -/
theorem acc1_last (t : Fin cfg1.N) (i : Fin 8) (ht : t.val = 8 * i.val + 7) (l : Fin 128) :
    acc1 (V7 (F := Ideal) m ρ) c t.val t.isLt (ValueIdx.ix3 (0 : Fin 1) (0 : Fin 1) l) = ∑ j : Fin 8, tileTotal m ρ c i j := by
  have hn : 8 * i.val + 7 < cfg1.N := ht ▸ t.isLt
  rw [acc1_congr m ρ c ht t.isLt hn, acc1_closed m ρ c i l 7 (by omega) hn, ← Fin.sum_univ_eq_sum_range]
  exact Finset.sum_congr rfl fun j _ => tileTotalN_of_lt m ρ c i j.val j.isLt

/-! ## From blocks to the array -/

/-- What the output array ends holding: in row `i`, on every lane, the sum over the eight column tiles of tile `(i, j)`'s sum. -/
def rowTotals : FVec Ideal S8x1x128 .f32 := fun idx => ∑ j : Fin 8, tileTotal m ρ c ⟨(idx 0).val, (idx 0).isLt⟩ j

/-- A point that writes the output block back is the last column tile of its row tile, and what it writes is that
    row of `rowTotals`. -/
theorem flushed1_4_eq (t : Fin cfg1.N) (hf : (cfg1.win 4).flush t = true) :
    (dat1 (V7 (F := Ideal) m ρ) c).flushed 4 t = ((cfg1.win 4).blk t).view.read (Elt Ideal) (rowTotals m ρ c) := by
  have h7 : t.val % 8 = 7 := (flush1_4 t).mp hf
  have hN : t.val < 64 := N_1 ▸ t.isLt
  obtain ⟨-, -, -, -, -, -, -, -, e0, e1, e2⟩ := idx1_facts t
  show (cfg1.win 4).cut (grid1.coords t) ((dat1 (V7 (F := Ideal) m ρ) c).after 4 t) = _
  rw [after1_4]
  refine funext fun (y : S1x1x128.Idx) => ?_
  rw [View.read_apply]
  obtain ⟨a, b, l, rfl⟩ : ∃ (a : Fin 1) (b : Fin 1) (l : Fin 128), y = ValueIdx.ix3 a b l := ⟨y 0, y 1, y 2, ValueIdx.eq_ix3 y⟩
  obtain rfl : a = 0 := Subsingleton.elim _ _
  obtain rfl : b = 0 := Subsingleton.elim _ _
  show acc1 (V7 (F := Ideal) m ρ) c t.val t.isLt (ValueIdx.ix3 (0 : Fin 1) (0 : Fin 1) l)
    = rowTotals m ρ c (((cfg1.win 4).blk t).view.emb (ValueIdx.ix3 (0 : Fin 1) (0 : Fin 1) l))
  rw [acc1_last m ρ c t ⟨t.val / 8, by omega⟩ (by show t.val = 8 * (t.val / 8) + 7; omega) l]
  unfold rowTotals
  refine Finset.sum_congr rfl fun j _ => congrArg (fun i => tileTotal m ρ c i j) (Fin.ext ?_)
  show t.val / 8 = win1_4.index t (0 : Fin 3) * 1 + 1 * 0
  rw [e0]
  omega

/-- Every index of the output array lies in the block some point writes back: row `i` in the block of point `8 i + 7`. -/
theorem cover1_4 (idx : S8x1x128.Idx) :
    ∃ t : Fin cfg1.N, (cfg1.win 4).flush t = true ∧ idx ∈ ((cfg1.win 4).blk t).view.set := by
  have h0 : (idx 0).val < 8 := (idx 0).isLt
  have h1 : (idx 1).val < 1 := (idx 1).isLt
  have h2 : (idx 2).val < 128 := (idx 2).isLt
  obtain ⟨t, ht⟩ : ∃ t : Fin cfg1.N, t.val = 8 * (idx 0).val + 7 := ⟨⟨8 * (idx 0).val + 7, by rw [show cfg1.N = 64 from N_1]; omega⟩, rfl⟩
  obtain ⟨-, -, -, -, -, -, -, -, e0, e1, e2⟩ := idx1_facts t
  refine ⟨t, (flush1_4 t).mpr (by omega), ?_⟩
  show idx ∈ ((View.whole main_v17).slice (win1_4.rect t)).set
  rw [View.set_slice_whole, Rect.mem_set_unit]
  intro a
  match a with
  | ⟨0, _⟩ => show win1_4.index t (0 : Fin 3) * 1 ≤ (idx 0).val ∧ (idx 0).val < win1_4.index t (0 : Fin 3) * 1 + 1; rw [e0]; omega
  | ⟨1, _⟩ => show win1_4.index t (1 : Fin 3) * 1 ≤ (idx 1).val ∧ (idx 1).val < win1_4.index t (1 : Fin 3) * 1 + 1; rw [e1]; omega
  | ⟨2, _⟩ => show win1_4.index t (2 : Fin 3) * 128 ≤ (idx 2).val ∧ (idx 2).val < win1_4.index t (2 : Fin 3) * 128 + 128; rw [e2]; omega

/-- So the output array ends holding `rowTotals`. -/
theorem final1_4 : (dat1 (V7 (F := Ideal) m ρ) c).arrAt 4 cfg1.N = rowTotals m ρ c :=
  (dat1 (V7 (F := Ideal) m ρ) c).arrAt_eq_of_cover 4 (rowTotals m ρ c) (flushed1_4_eq m ρ c) (cover1_4)

/-! ## The result -/

theorem result_v21 :
    W9 (F := Ideal) m ρ c (Proc.devRef .tc main_v21) = fun _ =>
      Ideal.div (∑ i : Fin 8, ∑ j : Fin 8, ∑ r : Fin 1024, ∑ s : Fin 1024,
          Cert.Spec.sqd (rowsOf (W7 (F := Ideal) m ρ c (Proc.devRef .tc main_v11))) (rowsOf (W7 (F := Ideal) m ρ c (Proc.devRef .tc main_v16)))
            (Cert.Spec.tile i r) (Cert.Spec.tile j s)) (Ideal.ofBits .f32 0x4C800000#32) := by
  rw [result_tail, final1_4]
  rfl

end Cert.KernelIdeal.Hand

end
-- ==== Proof.RefG.lean ====
/- The reference's result is the specified function of its two arguments: the cell sums over 64, the rows,
   the normalisation, the two products of rows, and the mean of the squared differences, read one
   operation at a time. -/
import proofs.«166016_j61263413510182_1_alg».proof.Defs
import proofs.«166016_j61263413510182_1_alg».proof.Proof.Gen.ReferenceIdeal.Run
import proofs.«166016_j61263413510182_1_alg».proof.Proof.Gen.ReferenceIdeal.Read
import proofs.«166016_j61263413510182_1_alg».proof.Proof.Conv

set_option maxRecDepth 16384

noncomputable section

namespace Cert.RefG

open Idealize.ShloMosaic Cert.Conv

open Idealize.ShloMosaic.ValueIdx Cert.ReferenceIdeal Cert.ReferenceIdeal.Gen Cert.ReferenceIdeal.Read Cert.Spec

/-! ## An index of the volume cut into cells

The volume's three spatial axes of extent 64 are each cut into 16 cells of 4, which gives eight
coordinates (b, c, d, i, h, j, w, k); position (d, i) of a cut axis is position 4 d + i of the whole. -/

/-- The row-major position of an index of eight coordinates, as one sum of products. -/
theorem rowMajor_val_eight {e : Fin 8 → Nat} (i : (⟨8, e⟩ : Shape).Idx) :
    ((⟨8, e⟩ : Shape).rowMajor i).val
      = (((((((i 0).val * e 1 + (i 1).val) * e 2 + (i 2).val) * e 3 + (i 3).val) * e 4 + (i 4).val) * e 5
          + (i 5).val) * e 6 + (i 6).val) * e 7 + (i 7).val := by
  show (Shape.rowMajorPi e i).val = _
  rw [Shape.rowMajorPi_succ_val, Shape.rowMajorPi_succ_val, Shape.rowMajorPi_succ_val, Shape.rowMajorPi_succ_val,
    Shape.rowMajorPi_succ_val, Shape.rowMajorPi_succ_val, Shape.rowMajorPi_succ_val, Shape.rowMajorPi_succ_val]
  simp [Shape.rowMajorPi_zero, Fin.prod_univ_succ, Nat.add_mul, Nat.mul_assoc, Nat.add_assoc]

/-- The index of the cut volume with cell coordinates (d, h, w) and positions (i, j, k) inside the cell. -/
abbrev ix8 (b : Fin 2) (c : Fin 32) (d : Fin 16) (i : Fin 4) (h : Fin 16) (j : Fin 4) (w : Fin 16) (k : Fin 4) :
    S2x32x16x4x16x4x16x4.Idx :=
  fun a => match a with
    | ⟨0, _⟩ => b | ⟨1, _⟩ => c | ⟨2, _⟩ => d | ⟨3, _⟩ => i | ⟨4, _⟩ => h | ⟨5, _⟩ => j | ⟨6, _⟩ => w | ⟨7, _⟩ => k

/-- Cutting the axes does not move an entry: the cut volume at (b, c, d, i, h, j, w, k) is the volume at
    (b, c, 4 d + i, 4 h + j, 4 w + k), the two positions being the same in row-major order. -/
theorem cut_apply (x : S2x32x64x64x64.Idx → EReal) (b : Fin 2) (c : Fin 32) (d : Fin 16) (i : Fin 4) (h : Fin 16)
    (j : Fin 4) (w : Fin 16) (k : Fin 4) :
    shapeCast S2x32x16x4x16x4x16x4 x shapeCasts_S2x32x64x64x64_S2x32x16x4x16x4x16x4 (ix8 b c d i h j w k)
      = x (ix5 b c (sub4 d i) (sub4 h j) (sub4 w k)) := by
  refine shapeCast_apply x shapeCasts_S2x32x64x64x64_S2x32x16x4x16x4x16x4 (ix8 b c d i h j w k)
    (ix5 b c (sub4 d i) (sub4 h j) (sub4 w k)) ?_
  rw [Shape.rowMajor_val_five, rowMajor_val_eight]
  have hb := b.isLt; have hc := c.isLt; have hd := d.isLt; have hi := i.isLt; have hh := h.isLt
  have hj := j.isLt; have hw := w.isLt; have hk := k.isLt
  show (((b.val * 32 + c.val) * 64 + (4 * d.val + i.val)) * 64 + (4 * h.val + j.val)) * 64 + (4 * w.val + k.val)
    = ((((((b.val * 32 + c.val) * 16 + d.val) * 4 + i.val) * 16 + h.val) * 4 + j.val) * 16 + w.val) * 4 + k.val
  omega

/-- Forgetting the positions inside the cell leaves the cell's coordinates. -/
theorem drop_ix8 (b : Fin 2) (c : Fin 32) (d : Fin 16) (i : Fin 4) (h : Fin 16) (j : Fin 4) (w : Fin 16) (k : Fin 4) :
    reducesTo_S2x32x16x4x16x4x16x4_S2x32x16x16x16_d3_5_7.drop (ix8 b c d i h j w k) = ix5 b c d h w := by
  funext a
  match a with
  | ⟨0, _⟩ => rfl
  | ⟨1, _⟩ => rfl
  | ⟨2, _⟩ => rfl
  | ⟨3, _⟩ => rfl
  | ⟨4, _⟩ => rfl

/-- The indices of the cut volume that lie over cell (b, c, d, h, w) are the 4 x 4 x 4 positions inside it,
    so a sum over them is the triple sum over the positions. -/
theorem sum_cell (y : S2x32x16x4x16x4x16x4.Idx → EReal) (b : Fin 2) (c : Fin 32) (d h w : Fin 16) :
    ∑ a ∈ Finset.univ.filter
        (fun a => reducesTo_S2x32x16x4x16x4x16x4_S2x32x16x16x16_d3_5_7.drop a = ix5 b c d h w), y a
      = ∑ i : Fin 4, ∑ j : Fin 4, ∑ k : Fin 4, y (ix8 b c d i h j w k) := by
  have e : ∑ p : Fin 4 × Fin 4 × Fin 4, y (ix8 b c d p.1 h p.2.1 w p.2.2)
      = ∑ i : Fin 4, ∑ j : Fin 4, ∑ k : Fin 4, y (ix8 b c d i h j w k) := by
    rw [Fintype.sum_prod_type]
    refine Finset.sum_congr rfl fun i _ => ?_
    rw [Fintype.sum_prod_type]
  rw [← e]
  refine Finset.sum_nbij' (fun a => ((a 3, a 5, a 7) : Fin 4 × Fin 4 × Fin 4))
    (fun p => ix8 b c d p.1 h p.2.1 w p.2.2) ?_ ?_ ?_ ?_ ?_
  · intro a _; exact Finset.mem_univ _
  · intro p _; exact Finset.mem_filter.2 ⟨Finset.mem_univ _, drop_ix8 b c d p.1 h p.2.1 w p.2.2⟩
  · intro a ha
    have hj := (Finset.mem_filter.1 ha).2
    funext t
    match t with
    | ⟨0, _⟩ => exact (congrFun hj ⟨0, by decide⟩).symm
    | ⟨1, _⟩ => exact (congrFun hj ⟨1, by decide⟩).symm
    | ⟨2, _⟩ => exact (congrFun hj ⟨2, by decide⟩).symm
    | ⟨3, _⟩ => rfl
    | ⟨4, _⟩ => exact (congrFun hj ⟨3, by decide⟩).symm
    | ⟨5, _⟩ => rfl
    | ⟨6, _⟩ => exact (congrFun hj ⟨4, by decide⟩).symm
    | ⟨7, _⟩ => rfl
  · intro p _; rfl
  · intro a ha
    have hj := (Finset.mem_filter.1 ha).2
    refine congrArg y (funext fun t => ?_)
    match t with
    | ⟨0, _⟩ => exact congrFun hj ⟨0, by decide⟩
    | ⟨1, _⟩ => exact congrFun hj ⟨1, by decide⟩
    | ⟨2, _⟩ => exact congrFun hj ⟨2, by decide⟩
    | ⟨3, _⟩ => rfl
    | ⟨4, _⟩ => exact congrFun hj ⟨3, by decide⟩
    | ⟨5, _⟩ => rfl
    | ⟨6, _⟩ => exact congrFun hj ⟨4, by decide⟩
    | ⟨7, _⟩ => rfl

/-- The host's sum over the positions inside a cell, started from zero, at cell (b, c, d, h, w). -/
theorem cell_sum_apply (y : S2x32x16x4x16x4x16x4.Idx → EReal) (b : Fin 2) (c : Fin 32) (d h w : Fin 16) :
    Ideal.hostReduceAdd reducesTo_S2x32x16x4x16x4x16x4_S2x32x16x16x16_d3_5_7 y 0 (ix5 b c d h w)
      = ∑ i : Fin 4, ∑ j : Fin 4, ∑ k : Fin 4, y (ix8 b c d i h j w k) := by
  unfold Ideal.hostReduceAdd
  exact (zero_add _).trans (sum_cell y b c d h w)

/-! ## The cell means -/

/-- The first volume's cell means, as the program forms them, are the specified ones. -/
theorem pooled0 (x0 : FVec Ideal S2x32x64x64x64 .f32) (b : Fin 2) (c : Fin 32) (d h w : Fin 16) :
    val_main_v3 (F := Ideal) x0 (ix5 b c d h w) = pool (volOf x0) b c d h w := by
  rw [val_main_v3_apply, val_main_v2_apply, val_main_cst_0_apply]
  unfold val_main_v1 val_main_v0
  simp only [Host.reduceAdd, Ideal.hostReduceAdd_def, val_main_cst_apply, Ideal.hostDivf_def, Ideal.ofBits_def,
    Ideal.ofBits_zero_f32]
  rw [cell_sum_apply]
  simp only [cut_apply]
  rfl

/-- The second volume's cell means likewise. -/
theorem pooled1 (x1 : FVec Ideal S2x32x64x64x64 .f32) (b : Fin 2) (c : Fin 32) (d h w : Fin 16) :
    val_main_v10 (F := Ideal) x1 (ix5 b c d h w) = pool (volOf x1) b c d h w := by
  rw [val_main_v10_apply, val_main_v9_apply, val_main_cst_2_apply]
  unfold val_main_v8 val_main_v7
  simp only [Host.reduceAdd, Ideal.hostReduceAdd_def, val_main_cst_1_apply, Ideal.hostDivf_def, Ideal.ofBits_def,
    Ideal.ofBits_zero_f32]
  rw [cell_sum_apply]
  simp only [cut_apply]
  rfl

/-! ## The rows -/

/-- The arithmetic of the layout: position 32 n + c of the matrix is position (n / 4096, n mod 4096, c) of the
    batched one, whose exchange (n / 4096, c, n mod 4096) has row-major position f, and f's five coordinates in
    the pooled volume are the batch, the channel and the three base-16 digits of n mod 4096. Proved by writing
    n in its digits, n = 4096 q + 256 d + 16 h + w. -/
theorem rows_arith (n c : Nat) (hn : n < 8192) (hc : c < 32) :
    (((n * 32 + c) / 131072 * 32 + (n * 32 + c) % 32) * 4096 + (n * 32 + c) / 32 % 4096) / 131072 = n / 4096
    ∧ (((n * 32 + c) / 131072 * 32 + (n * 32 + c) % 32) * 4096 + (n * 32 + c) / 32 % 4096) / 4096 % 32 = c
    ∧ (((n * 32 + c) / 131072 * 32 + (n * 32 + c) % 32) * 4096 + (n * 32 + c) / 32 % 4096) / 256 % 16 = n / 256 % 16
    ∧ (((n * 32 + c) / 131072 * 32 + (n * 32 + c) % 32) * 4096 + (n * 32 + c) / 32 % 4096) / 16 % 16 = n / 16 % 16
    ∧ (((n * 32 + c) / 131072 * 32 + (n * 32 + c) % 32) * 4096 + (n * 32 + c) / 32 % 4096) % 16 = n % 16 := by
  obtain ⟨q, d, h, w, hq, hd, hh, hw, rfl⟩ : ∃ q d h w, q < 2 ∧ d < 16 ∧ h < 16 ∧ w < 16 ∧
      n = 4096 * q + 256 * d + 16 * h + w :=
    ⟨n / 4096, n / 256 % 16, n / 16 % 16, n % 16, by omega, by omega, by omega, by omega, by omega⟩
  have e1 : ((4096 * q + 256 * d + 16 * h + w) * 32 + c) / 32 = 4096 * q + 256 * d + 16 * h + w := by omega
  have e2 : ((4096 * q + 256 * d + 16 * h + w) * 32 + c) % 32 = c := by omega
  have e3 : ((4096 * q + 256 * d + 16 * h + w) * 32 + c) / 131072 = q := by omega
  have e4 : (4096 * q + 256 * d + 16 * h + w) % 4096 = 256 * d + 16 * h + w := by omega
  rw [e1, e2, e3, e4]
  clear e1 e2 e3 e4
  have l0 : ((q * 32 + c) * 4096 + (256 * d + 16 * h + w)) / 131072 = q := by omega
  have l1 : ((q * 32 + c) * 4096 + (256 * d + 16 * h + w)) / 4096 = q * 32 + c := by omega
  have l2 : ((q * 32 + c) * 4096 + (256 * d + 16 * h + w)) / 256 = (q * 32 + c) * 16 + d := by omega
  have l3 : ((q * 32 + c) * 4096 + (256 * d + 16 * h + w)) / 16 = ((q * 32 + c) * 16 + d) * 16 + h := by omega
  have r0 : (4096 * q + 256 * d + 16 * h + w) / 4096 = q := by omega
  have r2 : (4096 * q + 256 * d + 16 * h + w) / 256 = 16 * q + d := by omega
  have r3 : (4096 * q + 256 * d + 16 * h + w) / 16 = (16 * q + d) * 16 + h := by omega
  rw [l0, l1, l2, l3, r0, r2, r3]
  refine ⟨rfl, by omega, by omega, by omega, by omega⟩

/-- Entry (n, c) of the first matrix of rows is read, through the two re-cuttings and the exchange of axes
    between them, at cell (n / 4096, n / 256 mod 16, n / 16 mod 16, n mod 16) of channel c. -/
theorem idx_rows0 (n : Fin 8192) (c : Fin 32) :
    idx_main_v4 (idx_main_v5 (idx_main_v6 (ix2 n c)))
      = ix5 (⟨n.val / 4096, by omega⟩ : Fin 2) c (⟨n.val / 256 % 16, by omega⟩ : Fin 16)
          (⟨n.val / 16 % 16, by omega⟩ : Fin 16) (⟨n.val % 16, by omega⟩ : Fin 16) := by
  have e := rows_arith n.val c.val n.isLt c.isLt
  funext a
  apply Fin.ext
  match a with
  | ⟨0, _⟩ => exact e.1
  | ⟨1, _⟩ => exact e.2.1
  | ⟨2, _⟩ => exact e.2.2.1
  | ⟨3, _⟩ => exact e.2.2.2.1
  | ⟨4, _⟩ => exact e.2.2.2.2

/-- The first matrix of rows, as the program lays it out, is the specified one. -/
theorem rows0 (x0 : FVec Ideal S2x32x64x64x64 .f32) (n : Fin 8192) (c : Fin 32) :
    val_main_v6 (F := Ideal) x0 (ix2 n c) = rows (pool (volOf x0)) n c := by
  rw [val_main_v6_apply, val_main_v5_apply, val_main_v4_apply, idx_rows0, pooled0]
  rfl

/-- Entry (n, c) of the second matrix of rows is read, through the two re-cuttings and the exchange of axes
    between them, at cell (n / 4096, n / 256 mod 16, n / 16 mod 16, n mod 16) of channel c. -/
theorem idx_rows1 (n : Fin 8192) (c : Fin 32) :
    idx_main_v11 (idx_main_v12 (idx_main_v13 (ix2 n c)))
      = ix5 (⟨n.val / 4096, by omega⟩ : Fin 2) c (⟨n.val / 256 % 16, by omega⟩ : Fin 16)
          (⟨n.val / 16 % 16, by omega⟩ : Fin 16) (⟨n.val % 16, by omega⟩ : Fin 16) := by
  have e := rows_arith n.val c.val n.isLt c.isLt
  funext a
  apply Fin.ext
  match a with
  | ⟨0, _⟩ => exact e.1
  | ⟨1, _⟩ => exact e.2.1
  | ⟨2, _⟩ => exact e.2.2.1
  | ⟨3, _⟩ => exact e.2.2.2.1
  | ⟨4, _⟩ => exact e.2.2.2.2

/-- The second matrix of rows, as the program lays it out, is the specified one. -/
theorem rows1 (x1 : FVec Ideal S2x32x64x64x64 .f32) (n : Fin 8192) (c : Fin 32) :
    val_main_v13 (F := Ideal) x1 (ix2 n c) = rows (pool (volOf x1)) n c := by
  rw [val_main_v13_apply, val_main_v12_apply, val_main_v11_apply, idx_rows1, pooled1]
  rfl

/-! ## The normalised rows -/

/-- The row's sum of squares is read along row n. -/
theorem idx_sq0 (n : Fin 8192) (c k : Fin 32) :
    idx_main_call0_v1 (idx_main_call0_v2 (idx_main_v17 (ix2 n c))) k = ix2 n k := by
  funext a
  match a with
  | ⟨0, _⟩ => rfl
  | ⟨1, _⟩ => rfl

/-- The first matrix with each row divided by the larger of its norm and the small constant. -/
theorem normed0 (x0 : FVec Ideal S2x32x64x64x64 .f32) (n : Fin 8192) (c : Fin 32) :
    val_main_v18 (F := Ideal) x0 (ix2 n c) = normed (rows (pool (volOf x0))) n c := by
  rw [val_main_v18_apply, val_main_v17_apply, val_main_v16_apply, val_main_v15_apply, val_main_cst_3_apply, val_main_v14_apply,
    val_main_call0_v2_apply, val_main_call0_v1_apply, val_main_call0_cst_apply, rows0]
  simp only [val_main_call0_v0_apply, idx_sq0, rows0, Ideal.hostDivf_def, Ideal.mulf_def, Ideal.hostUnary_sqrt_def,
    Ideal.maximumf_def, Ideal.ofBits_def, Ideal.ofBits_zero_f32, zero_add]
  rfl

/-- The row's sum of squares is read along row n. -/
theorem idx_sq1 (n : Fin 8192) (c k : Fin 32) :
    idx_main_call1_v1 (idx_main_call1_v2 (idx_main_v24 (ix2 n c))) k = ix2 n k := by
  funext a
  match a with
  | ⟨0, _⟩ => rfl
  | ⟨1, _⟩ => rfl

/-- The second matrix with each row divided by the larger of its norm and the small constant. -/
theorem normed1 (x1 : FVec Ideal S2x32x64x64x64 .f32) (n : Fin 8192) (c : Fin 32) :
    val_main_v25 (F := Ideal) x1 (ix2 n c) = normed (rows (pool (volOf x1))) n c := by
  rw [val_main_v25_apply, val_main_v24_apply, val_main_v23_apply, val_main_v22_apply, val_main_cst_4_apply, val_main_v21_apply,
    val_main_call1_v2_apply, val_main_call1_v1_apply, val_main_call1_cst_apply, rows1]
  simp only [val_main_call1_v0_apply, idx_sq1, rows1, Ideal.hostDivf_def, Ideal.mulf_def, Ideal.hostUnary_sqrt_def,
    Ideal.maximumf_def, Ideal.ofBits_def, Ideal.ofBits_zero_f32, zero_add]
  rfl

/-! ## The products of rows -/

/-- The product's left factor is read at (r, k), its right factor, through the exchange of axes, at (s, k). -/
theorem idx_left0 (r s : Fin 8192) (k : Fin 32) : lidx_main_v20 (ix2 r s) k = ix2 r k := by
  funext a
  match a with
  | ⟨0, _⟩ => rfl
  | ⟨1, _⟩ => rfl

theorem idx_right0 (r s : Fin 8192) (k : Fin 32) : idx_main_v19 (ridx_main_v20 (ix2 r s) k) = ix2 s k := by
  funext a
  match a with
  | ⟨0, _⟩ => rfl
  | ⟨1, _⟩ => rfl

/-- Entry (r, s) of the first product is the inner product of normalised rows r and s. -/
theorem sim0 (x0 : FVec Ideal S2x32x64x64x64 .f32) (r s : Fin 8192) :
    val_main_v20 (F := Ideal) x0 (ix2 r s) = sim (normed (rows (pool (volOf x0)))) r s := by
  rw [val_main_v20_apply]
  refine Finset.sum_congr rfl fun k _ => ?_
  rw [val_main_v19_apply, idx_left0, idx_right0, normed0, normed0]

/-- The product's left factor is read at (r, k), its right factor, through the exchange of axes, at (s, k). -/
theorem idx_left1 (r s : Fin 8192) (k : Fin 32) : lidx_main_v27 (ix2 r s) k = ix2 r k := by
  funext a
  match a with
  | ⟨0, _⟩ => rfl
  | ⟨1, _⟩ => rfl

theorem idx_right1 (r s : Fin 8192) (k : Fin 32) : idx_main_v26 (ridx_main_v27 (ix2 r s) k) = ix2 s k := by
  funext a
  match a with
  | ⟨0, _⟩ => rfl
  | ⟨1, _⟩ => rfl

/-- Entry (r, s) of the second product is the inner product of normalised rows r and s. -/
theorem sim1 (x1 : FVec Ideal S2x32x64x64x64 .f32) (r s : Fin 8192) :
    val_main_v27 (F := Ideal) x1 (ix2 r s) = sim (normed (rows (pool (volOf x1)))) r s := by
  rw [val_main_v27_apply]
  refine Finset.sum_congr rfl fun k _ => ?_
  rw [val_main_v26_apply, idx_left1, idx_right1, normed1, normed1]

/-! ## The mean of the squared differences -/

theorem ref_result (x0 x1 : FVec Ideal Cert.ReferenceIdeal.S2x32x64x64x64 .f32) :
    Cert.ReferenceIdeal.Read.val_main_v31 (F := Ideal) x0 x1 = fun _ => Cert.Spec.G (volOf x0) (volOf x1) := by
  funext i
  rw [val_main_v31_apply, val_main_v30_apply, val_main_cst_6_apply, val_main_cst_5_apply, ValueIdx.sum_idx2]
  simp only [val_main_v29_apply, val_main_v28_apply, sim0, sim1, Ideal.hostDivf_def, Ideal.mulf_def, Ideal.subf_def,
    Ideal.ofBits_def, Ideal.ofBits_zero_f32, zero_add]
  rfl

end Cert.RefG

end
-- ==== Proof.Fin.lean ====
/- The precondition says every entry of both arguments is a real number. -/
import proofs.«166016_j61263413510182_1_alg».proof.Defs
import proofs.«166016_j61263413510182_1_alg».proof.Proof.Gen.Pre_finite_inputs
import proofs.«166016_j61263413510182_1_alg».proof.Proof.Conv
import Idealize.ShloMosaic.Lib.ReduceAll

noncomputable section

namespace Cert.Fin

open Idealize.ShloMosaic Idealize.ShloMosaic.TcCoe Idealize.SL.Sem Cert.Conv

/-- The pattern the predicate compares against denotes +infinity. -/
theorem inf_bits : Ideal.ofBits .f32 0x7F800000#32 = (⊤ : EReal) := by
  simp [Ideal.ofBits, Ideal.ieee]

/-- An extended real whose absolute value, the larger of x and -x, is below +infinity is a real
    number: at either infinity that larger one is +infinity itself. -/
theorem real_of_abs_lt_top (x : EReal) (h : Ideal.cmp .olt (max x (-x)) (⊤ : EReal) = 1#1) :
    ∃ r : ℝ, x = (r : EReal) := by
  induction x using EReal.rec with
  | bot => simp [Ideal.cmp] at h
  | coe r => exact ⟨r, rfl⟩
  | top => simp [Ideal.cmp] at h

/-- The scalar shape has one index. -/
instance : Subsingleton Cert.Pre_finite_inputs.S_.Idx := ⟨fun a b => funext fun d => d.elim0⟩

theorem finite_of_pre [Cert.Pre_finite_inputs.Facts]
    (x0 x1 : FVec Ideal Cert.KernelIdeal.S2x32x64x64x64 .f32)
    (h : Cert.Pre_finite_inputs.fn (F := Ideal) x0 x1 = fun _ => 1#1) :
    FiniteVol (volOf x0) ∧ FiniteVol (volOf x1) := by
  -- The predicate's one bit is the "and" of two bits, one per argument; each is the "and" over all
  -- entries of the bit "|entry| < +infinity". So that bit is set at every entry of both arguments.
  have h0 := congrFun h ValueIdx.ix0
  dsimp only [Cert.Pre_finite_inputs.fn] at h0
  obtain ⟨ha, hb⟩ := IntOp.andi_eq_one.1 (show IntOp.andi _ _ = 1#1 from h0)
  refine ⟨fun b c d hh w => ?_, fun b c d hh w => ?_⟩
  · have e := Host.reduce_andi_all _ _ _ _ _ ha (ValueIdx.ix5 b c d hh w)
    exact real_of_abs_lt_top _ (by rw [← inf_bits]; exact e)
  · have e := Host.reduce_andi_all _ _ _ _ _ hb (ValueIdx.ix5 b c d hh w)
    exact real_of_abs_lt_top _ (by rw [← inf_bits]; exact e)

end Cert.Fin

end
-- ==== Proof.lean ====
/- Equivalence, over the extended reals, of a kernel that compares two 5-d volumes by their pooled cosine
   similarities with its plain reference. Both average each volume over 4 x 4 x 4 cells, read the cells as
   8192 rows of 32 channels, normalise the rows, and return the mean over all pairs of rows of the squared
   difference of the two volumes' inner products of rows. The kernel pools with two matrix products and so
   stores each cell with its last two coordinates exchanged; that permutes the rows of both matrices alike,
   and the mean over all pairs of rows is unchanged by it. It forms that mean from 8 x 8 tiles.
   The frames: each program runs to its end, faults nowhere and leaves its two arguments as launched. -/
import proofs.«166016_j61263413510182_1_alg».proof.Defs
import proofs.«166016_j61263413510182_1_alg».proof.Proof.Gen.Kernel
import proofs.«166016_j61263413510182_1_alg».proof.Proof.Gen.KernelIdeal
import proofs.«166016_j61263413510182_1_alg».proof.Proof.Gen.ReferenceIdeal
import proofs.«166016_j61263413510182_1_alg».proof.Proof.Gen.Pre_finite_inputs
import proofs.«166016_j61263413510182_1_alg».proof.Proof.Gen.ReferenceIdeal.Run
import proofs.«166016_j61263413510182_1_alg».proof.Proof.Gen.ReferenceIdeal.Read
import proofs.«166016_j61263413510182_1_alg».proof.Proof.Run
import proofs.«166016_j61263413510182_1_alg».proof.Proof.K.Run
import proofs.«166016_j61263413510182_1_alg».proof.Proof.ValPool
import proofs.«166016_j61263413510182_1_alg».proof.Proof.ValMid
import proofs.«166016_j61263413510182_1_alg».proof.Proof.ValMse
import proofs.«166016_j61263413510182_1_alg».proof.Proof.RefG
import proofs.«166016_j61263413510182_1_alg».proof.Proof.Fin
import Idealize.ShloMosaic.Adequacy
import Idealize.ShloMosaic.Init

noncomputable section

namespace Cert.Proof

open Idealize.ShloMosaic Idealize.ShloMosaic.TcCoe Idealize.SL.Sem Cert.Conv

theorem frame_k : Cert.frame_Kernel := fun m ρ _ =>
  (θ_run Cert.Kernel.defs _ _).mono (fun _ h c => (h c).2) (Cert.Kernel.Hand.run (F := Bits) m ρ)

theorem frame_ki : Cert.frame_KernelIdeal := fun m ρ _ =>
  (θ_run Cert.KernelIdeal.defs _ _).mono (fun _ h c => (h c).2) (Cert.KernelIdeal.Hand.run (F := Ideal) m ρ)

theorem frame_ri : Cert.frame_ReferenceIdeal := fun m ρ _ =>
  (θ_run Cert.ReferenceIdeal.defs _ _).mono (fun _ h c => (h c).2) (Cert.ReferenceIdeal.Value.run (F := Ideal) m ρ)

/-- The kernel's result buffer at the end is the specified function of the two arguments: the pooling region leaves
    the exchanged cell means, the host the normalised rows, the second region and the host's tail the tiled mean. -/
theorem kernel_value (m : (ℓ : Loc Cert.KernelIdeal.nD Cert.KernelIdeal.τ Cert.KernelIdeal.sig) → Buf (Elt Ideal) ℓ)
    (ρ : Dev Cert.KernelIdeal.nD → PrngReg) (hpre : Cert.Pre_KernelIdeal m) (c : Dev Cert.KernelIdeal.nD) :
    Cert.KernelIdeal.Hand.W9 (F := Ideal) m ρ c (Proc.devRef .tc Cert.KernelIdeal.main_v21)
      = fun _ => Cert.Spec.G (volOf (m ((c.tc : Thread Cert.KernelIdeal.nD Cert.KernelIdeal.τ).loc Cert.KernelIdeal.main_arg0)))
          (volOf (m ((c.tc : Thread Cert.KernelIdeal.nD Cert.KernelIdeal.τ).loc Cert.KernelIdeal.main_arg1))) := by
  obtain ⟨h0, h1⟩ := Cert.Fin.finite_of_pre _ _ (hpre c)
  rw [Cert.KernelIdeal.Hand.result_v21, Cert.KernelIdeal.Hand.rows_v11, Cert.KernelIdeal.Hand.rows_v16,
    Cert.KernelIdeal.Hand.pooled_v0_0 m ρ c h0, Cert.KernelIdeal.Hand.pooled_v0_1 m ρ c h1, Cert.Spec.kernel_total]

theorem algebraic : Cert.algebraic_KernelIdeal_ReferenceIdeal := by
  intro m ρ m' ρ' hpre hagree
  refine ⟨fun c => fun _ => Cert.Spec.G (volOf (m ((c.tc : Thread Cert.KernelIdeal.nD Cert.KernelIdeal.τ).loc Cert.KernelIdeal.main_arg0)))
      (volOf (m ((c.tc : Thread Cert.KernelIdeal.nD Cert.KernelIdeal.τ).loc Cert.KernelIdeal.main_arg1))), ?_, ?_⟩
  · exact (θ_run Cert.KernelIdeal.defs _ _).mono (fun _ h c => ⟨(h c).1.trans (kernel_value m ρ hpre c), (h c).2⟩)
      (Cert.KernelIdeal.Hand.run (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v31_eq, Cert.RefG.ref_result, (hagree c).1, (hagree c).2]; rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
